-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x1 : Shape := ⟨2, ![1600000, 1]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1 : Shape := ⟨2, ![1, 1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S1 .f32) (main_arg14 : FVec F S1x1 .f32) (main_arg15 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1x1 .f32 := Host.absf main_arg14
  let main_cst_22 : FVec F S_ .f32 := constant S_ .f32 0x7F800000#32
  let main_v60 : FVec F S1x1 .f32 := broadcastInDim S1x1 ![] bcast_S_S1x1 main_cst_22
  let main_v61 : IVec S1x1 1 := cmpf .olt main_v59 main_v60
  let main_c_23 : IVec S_ 1 := constantI S_ 1 1#1
  let main_v62 : IVec S_ 1 := (fun x v => Host.reduce IntOp.andi x v reducesTo_S1x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S64 .f32) (main_arg10 : FVec F S64x32 .f32) (main_arg11 : FVec F S32 .f32) (main_arg12 : FVec F S32x1 .f32) (main_arg13 : FVec F S1 .f32) (main_arg14 : FVec F S1x1 .f32) (main_arg15 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg12
  let main_cst_18 : FVec F S_ .f32 := constant S_ .f32 0x7F800000#32
  let main_v50 : FVec F S32x1 .f32 := broadcastInDim S32x1 ![] bcast_S_S32x1 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S32x1 .f32) (main_arg13 : FVec F S1 .f32) (main_arg14 : FVec F S1x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : IVec S2x1600000 32) (main_arg2 : FVec F S1600000x1 .f32) (main_arg3 : IVec S100000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S32x1 .f32) (main_arg13 : FVec F S1 .f32) (main_arg14 : FVec F S1x1 .f32) (main_arg15 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1600000 : Shape := ⟨2, ![2, 1600000]⟩
abbrev S1600000x1 : Shape := ⟨2, ![1600000, 1]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1 : Shape := ⟨2, ![1, 1]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S64x1 : Shape := ⟨2, ![64, 1]⟩
abbrev S1x32 : Shape := ⟨2, ![1, 32]⟩

abbrev nBuf : Space → Nat
  | .hbm => 122
  | .vmem => 57
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x1, .f32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S1x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000, .f32⟩
  | .hbm, ⟨55, _⟩ => ⟨S1600000, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S1600000x1, .f32⟩
  | .hbm, ⟨69, _⟩ => ⟨S1600000x64, .f32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x64, .f32⟩
  | .hbm, ⟨87, _⟩ => ⟨S1600000x1, .f32⟩
  | .hbm, ⟨88, _⟩ => ⟨S1600000x64, .f32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x1, .i32⟩
  | .hbm, ⟨116, _⟩ => ⟨S64x64, .f32⟩
  | .hbm, ⟨117, _⟩ => ⟨S64x1, .f32⟩
  | .hbm, ⟨118, _⟩ => ⟨S1x32, .f32⟩
  | .hbm, ⟨119, _⟩ => ⟨S1x1, .f32⟩
  | .hbm, ⟨120, _⟩ => ⟨S1x1, .f32⟩
  | .hbm, ⟨121, _⟩ => ⟨S64x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .i32⟩
  | .local _ .vmem, ⟨45, _⟩ => ⟨S5000x1, .i32⟩
  | .local _ .vmem, ⟨46, _⟩ => ⟨S64x64, .f32⟩
  | .local _ .vmem, ⟨47, _⟩ => ⟨S64x1, .f32⟩
  | .local _ .vmem, ⟨48, _⟩ => ⟨S64x64, .f32⟩
  | .local _ .vmem, ⟨49, _⟩ => ⟨S64x1, .f32⟩
  | .local _ .vmem, ⟨50, _⟩ => ⟨S64x32, .f32⟩
  | .local _ .vmem, ⟨51, _⟩ => ⟨S1x32, .f32⟩
  | .local _ .vmem, ⟨52, _⟩ => ⟨S32x1, .f32⟩
  | .local _ .vmem, ⟨53, _⟩ => ⟨S1x1, .f32⟩
  | .local _ .vmem, ⟨54, _⟩ => ⟨S1x1, .f32⟩
  | .local _ .vmem, ⟨55, _⟩ => ⟨S1x1, .f32⟩
  | .local _ .vmem, ⟨56, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81_0 : Ref sig .tc := ⟨.hbm, 116, rfl⟩
abbrev main_v81_1 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg5_0 : Ref sig .tc := ⟨.vmem, 53, rfl⟩
abbrev cc7_stg6_0 : Ref sig .tc := ⟨.vmem, 54, rfl⟩
abbrev cc7_stg7_0 : Ref sig .tc := ⟨.vmem, 55, rfl⟩
abbrev cc7_stg8_0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc7_sem0_0 : DmaSem sig := 48
abbrev cc7_sem1_0 : DmaSem sig := 49
abbrev cc7_sem2_0 : DmaSem sig := 50
abbrev cc7_sem3_0 : DmaSem sig := 51
abbrev cc7_sem4_0 : DmaSem sig := 52
abbrev cc7_sem5_0 : DmaSem sig := 53
abbrev cc7_sem6_0 : DmaSem sig := 54
abbrev cc7_sem7_0 : DmaSem sig := 55
abbrev cc7_sem8_0 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S32x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x1 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S64x1 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S1600000 : S1600000x1.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  iota_S5000x64_d1_w32 : S5000x64.Iotas .tc 32 [1]
  natLt_1_32 : 1 < 32
  shapeCasts_S64x64_S64x64 : S64x64.ShapeCasts S64x64
  shapeCasts_S64x1_S64x1 : S64x1.ShapeCasts S64x1
  shapeCasts_S32_S1x32 : S32.ShapeCasts S1x32
  shapeCasts_S1_S1x1 : S1.ShapeCasts S1x1
  broadcasts_S64x1_S64x64 : S64x1.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S5000x64_S64x64_0_0_1_1_n_n_wf : DotDims.WF S5000x64 S5000x64 S64x64 [0] [0] [1] [1] [] []
  dot_S5000x64_S5000x1_S64x1_0_0_1_1_n_n_wf : DotDims.WF S5000x64 S5000x1 S64x1 [0] [0] [1] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  dot_S64x1_S1x1_S64x1_1_0_0_1_n_n_wf : DotDims.WF S64x1 S1x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x64.size a ≤ S64x64.size a
  hwx7_0 : ∀ i : grid7.Coords, EltTy.bits .f32 = 32 ∨ (Rect.block (s := S64x64) S64x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x1.size a ≤ S64x1.size a
  hwx7_1 : ∀ i : grid7.Coords, EltTy.bits .f32 = 32 ∨ (Rect.block (s := S64x1) S64x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x32.size a ≤ S64x32.size a
  hwx7_2 : ∀ i : grid7.Coords, EltTy.bits .f32 = 32 ∨ (Rect.block (s := S64x32) S64x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S32x1.size a ≤ S32x1.size a
  hwx7_4 : ∀ i : grid7.Coords, EltTy.bits .f32 = 32 ∨ (Rect.block (s := S32x1) S32x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x1.size a ≤ S1x1.size a
  hwx7_5 : ∀ i : grid7.Coords, EltTy.bits .f32 = 32 ∨ (Rect.block (s := S1x1) S1x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1.size a ≤ S1x1.size a
  hwx7_6 : ∀ i : grid7.Coords, EltTy.bits .f32 = 32 ∨ (Rect.block (s := S1x1) S1x1.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x1.size a ≤ S1x1.size a
  hwx7_7 : ∀ i : grid7.Coords, EltTy.bits .f32 = 32 ∨ (Rect.block (s := S1x1) S1x1.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S64x1.size a ≤ S64x1.size a
  hwx7_8 : ∀ i : grid7.Coords, EltTy.bits .f32 = 32 ∨ (Rect.block (s := S64x1) S64x1.size (cc7_transform_8 i) (hinb7_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf
def dot_S64x1_S1x1_S64x1_1_0_0_1_n_n : DotDims S64x1 S1x1 S64x1 where
  lhsContracting := [1]
  rhsContracting := [0]
  lhsNonContracting := [0]
  rhsNonContracting := [1]
  lhsBatch := []
  rhsBatch := []
  wf := dot_S64x1_S1x1_S64x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v31) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v79) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v81_0) S64x64.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81_1) S64x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v81_0) S64x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v81_1) S64x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S64x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v82) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg12) S32x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v83) S1x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg14) S1x1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v84) S1x1.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v85) S64x1.size cc7_transform_8 reads7_8 true true 1 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x1 : Shape := ⟨2, ![1600000, 1]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1 : Shape := ⟨2, ![1, 1]⟩
abbrev S1x1600000 : Shape := ⟨2, ![1, 1600000]⟩
abbrev S1600000 : Shape := ⟨1, ![1600000]⟩
abbrev S_ : Shape := ⟨0, ![]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x32 : Shape := ⟨2, ![1, 32]⟩

abbrev nBuf : Space → Nat
  | .hbm => 238
  | .vmem => 0
  | .smem => 0
  | _ => 0

abbrev hbmTy0_0 (i : Nat) : BufTy := match i % 128 with
  | 0 => ⟨S100000x64, .f32⟩
  | 1 => ⟨S2x1600000, .i32⟩
  | 2 => ⟨S1600000x1, .f32⟩
  | 3 => ⟨S100000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x32, .f32⟩
  | 11 => ⟨S32, .f32⟩
  | 12 => ⟨S32x1, .f32⟩
  | 13 => ⟨S1, .f32⟩
  | 14 => ⟨S1x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S1600000, .f32⟩
  | 21 => ⟨S100000x64, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x1, .f32⟩
  | 67 => ⟨S1600000x64, .f32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S100000, .f32⟩
  | 74 => ⟨S100000x1, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x64, .f32⟩
  | 85 => ⟨S_, .f32⟩
  | 86 => ⟨S100000, .f32⟩
  | 87 => ⟨S1600000x1, .i32⟩
  | 88 => ⟨S100000, .f32⟩
  | 89 => ⟨S_, .f32⟩
  | 90 => ⟨S100000, .f32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S1600000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x64, .f32⟩

abbrev hbmTy0_1 (i : Nat) : BufTy := match i % 128 with
  | 0 => ⟨S1600000x64, .f32⟩
  | 1 => ⟨S1600000x1, .f32⟩
  | 2 => ⟨S1600000x64, .f32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000, .f32⟩
  | 9 => ⟨S100000x1, .f32⟩
  | 10 => ⟨S100000x64, .f32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S100000x64, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1600000x1, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000, .f32⟩
  | 72 => ⟨S100000x1, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S64x64, .f32⟩
  | 81 => ⟨S100000x1, .i32⟩
  | 82 => ⟨S64x64, .f32⟩
  | 83 => ⟨S_, .f32⟩
  | 84 => ⟨S100000, .f32⟩
  | 85 => ⟨S_, .f32⟩
  | 86 => ⟨S64, .f32⟩
  | 87 => ⟨S100000x1, .i32⟩
  | 88 => ⟨S64, .f32⟩
  | 89 => ⟨S_, .f32⟩
  | 90 => ⟨S64, .f32⟩
  | 91 => ⟨S64, .f32⟩
  | 92 => ⟨S64x1, .f32⟩
  | 93 => ⟨S64x64, .f32⟩
  | 94 => ⟨S64x64, .f32⟩
  | 95 => ⟨S64x32, .f32⟩
  | 96 => ⟨S1x32, .f32⟩
  | 97 => ⟨S64x32, .f32⟩
  | 98 => ⟨S64x32, .f32⟩
  | 99 => ⟨S_, .f32⟩
  | 100 => ⟨S64x32, .f32⟩
  | 101 => ⟨S64x32, .f32⟩
  | 102 => ⟨S64x1, .f32⟩
  | 103 => ⟨S1x1, .f32⟩
  | 104 => ⟨S64x1, .f32⟩
  | 105 => ⟨S64x1, .f32⟩
  | 106 => ⟨S64x1, .f32⟩
  | 107 => ⟨S1x1, .f32⟩
  | 108 => ⟨S64x1, .f32⟩
  | 109 => ⟨S64x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call1_cst : Ref sig .tc := ⟨.hbm, 81, rfl⟩
abbrev main_call1_v0 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_v62 : Ref sig .tc := ⟨.hbm, 99, rfl⟩
abbrev main_c_13 : Ref sig .tc := ⟨.hbm, 100, rfl⟩
abbrev main_v63 : Ref sig .tc := ⟨.hbm, 101, rfl⟩
abbrev main_v64 : Ref sig .tc := ⟨.hbm, 102, rfl⟩
abbrev main_c_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_15 : Ref sig .tc := ⟨.hbm, 110, rfl⟩
abbrev main_v71 : Ref sig .tc := ⟨.hbm, 111, rfl⟩
abbrev main_v72 : Ref sig .tc := ⟨.hbm, 112, rfl⟩
abbrev main_c_16 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_17 : Ref sig .tc := ⟨.hbm, 120, rfl⟩
abbrev main_v79 : Ref sig .tc := ⟨.hbm, 121, rfl⟩
abbrev main_v80 : Ref sig .tc := ⟨.hbm, 122, rfl⟩
abbrev main_c_18 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_call3_cst : Ref sig .tc := ⟨.hbm, 144, rfl⟩
abbrev main_call3_v0 : Ref sig .tc := ⟨.hbm, 145, rfl⟩
abbrev main_v100 : Ref sig .tc := ⟨.hbm, 146, rfl⟩
abbrev main_v101 : Ref sig .tc := ⟨.hbm, 147, rfl⟩
abbrev main_cst_20 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_21 : Ref sig .tc := ⟨.hbm, 152, rfl⟩
abbrev main_v105 : Ref sig .tc := ⟨.hbm, 153, rfl⟩
abbrev main_v106 : Ref sig .tc := ⟨.hbm, 154, rfl⟩
abbrev main_cst_22 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_23 : Ref sig .tc := ⟨.hbm, 159, rfl⟩
abbrev main_call4_v0 : Ref sig .tc := ⟨.hbm, 160, rfl⟩
abbrev main_call4_v1 : Ref sig .tc := ⟨.hbm, 161, rfl⟩
abbrev main_v110 : Ref sig .tc := ⟨.hbm, 162, rfl⟩
abbrev main_c_24 : Ref sig .tc := ⟨.hbm, 163, rfl⟩
abbrev main_v111 : Ref sig .tc := ⟨.hbm, 164, rfl⟩
abbrev main_v112 : Ref sig .tc := ⟨.hbm, 165, rfl⟩
abbrev main_c_25 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_c_26 : Ref sig .tc := ⟨.hbm, 173, rfl⟩
abbrev main_v119 : Ref sig .tc := ⟨.hbm, 174, rfl⟩
abbrev main_v120 : Ref sig .tc := ⟨.hbm, 175, rfl⟩
abbrev main_c_27 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_c_28 : Ref sig .tc := ⟨.hbm, 183, rfl⟩
abbrev main_v127 : Ref sig .tc := ⟨.hbm, 184, rfl⟩
abbrev main_v128 : Ref sig .tc := ⟨.hbm, 185, rfl⟩
abbrev main_c_29 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_30 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_31 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_32 : Ref sig .tc := ⟨.hbm, 211, rfl⟩
abbrev main_v151 : Ref sig .tc := ⟨.hbm, 212, rfl⟩
abbrev main_cst_33 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_34 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_call5_cst : Ref sig .tc := ⟨.hbm, 227, rfl⟩
abbrev main_call5_v0 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S1600000 : S1600000x1.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  dot_S64x1_S1x1_S64x1_1_0_0_1_n_n_wf : DotDims.WF S64x1 S1x1 S64x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf
def dot_S64x1_S1x1_S64x1_1_0_0_1_n_n : DotDims S64x1 S1x1 S64x1 where
  lhsContracting := [1]
  rhsContracting := [0]
  lhsNonContracting := [0]
  rhsNonContracting := [1]
  lhsBatch := []
  rhsBatch := []
  wf := dot_S64x1_S1x1_S64x1_1_0_0_1_n_n_wf

class Facts : Prop extends Facts₀ where

variable [Facts]
-- ==== Proof.Spec.lean ====
/-
  The mathematics of the network, index by index over the extended reals, for a graph of 100000 nodes with 64
  features, 64 graphs and a head 64 -> 32 -> 1 -> 1:
  * mm      : a node table times a 64 x 64 weight, entry (r, j) the sum over k of x(r, k) * w(k, j);
  * comb    : the aggregated messages plus the node's own row scaled by its squared inverse root degree, plus the bias;
  * combRelu: the same followed by the maximum with zero;
  * poolS   : per graph g and feature k, the sum of the rows whose graph id is g;
  * poolC   : per graph g, the number of rows whose graph id is g;
  * gmean, fc1, fc2, outl : the mean per graph (the count floored at one) and the three dense layers of the head.
  A graph id is a 32-bit word read signed; a row whose id is not one of 0..63 belongs to no graph.
-/
import Idealize.ShloMosaic.PureOps.Ideal
import Idealize.ShloMosaic.Lib.ValueIdx

noncomputable section

namespace Cert.Gcn

open Idealize.ShloMosaic Idealize.ShloMosaic.ValueIdx

abbrev SNxH : Shape := ⟨2, ![100000, 64]⟩
abbrev SNx1 : Shape := ⟨2, ![100000, 1]⟩
abbrev SHxH : Shape := ⟨2, ![64, 64]⟩
abbrev S1xH : Shape := ⟨2, ![1, 64]⟩
abbrev SGx1 : Shape := ⟨2, ![64, 1]⟩
abbrev SHx32 : Shape := ⟨2, ![64, 32]⟩
abbrev S1x32 : Shape := ⟨2, ![1, 32]⟩
abbrev S32x1 : Shape := ⟨2, ![32, 1]⟩
abbrev S1x1 : Shape := ⟨2, ![1, 1]⟩

/-- The f32 words of 0.0 and 1.0, kept as words: both programs spell them the same. -/
abbrev zeroW : EReal := Ideal.ofBits .f32 0x00000000#32
abbrev oneW : EReal := Ideal.ofBits .f32 0x3F800000#32

/-- Entry (r, j) of a node table times a weight. -/
def mmAt (x : SNxH.Idx → EReal) (w : SHxH.Idx → EReal) (r : Fin 100000) (j : Fin 64) : EReal :=
  ∑ k : Fin 64, x (ix2 r k) * w (ix2 k j)

def mm (x : SNxH.Idx → EReal) (w : SHxH.Idx → EReal) : SNxH.Idx → EReal := fun i => mmAt x w (i 0) (i 1)

theorem mm_ix2 (x : SNxH.Idx → EReal) (w : SHxH.Idx → EReal) (r : Fin 100000) (j : Fin 64) :
    mm x w (ix2 r j) = mmAt x w r j := rfl

/-- Entry (r, j) of the combined layer output before any rectifier. -/
def combAt (agg h : SNxH.Idx → EReal) (d : SNx1.Idx → EReal) (b : S1xH.Idx → EReal) (r : Fin 100000) (j : Fin 64) : EReal :=
  agg (ix2 r j) + h (ix2 r j) * d (ix2 r 0) + b (ix2 0 j)

def comb (agg h : SNxH.Idx → EReal) (d : SNx1.Idx → EReal) (b : S1xH.Idx → EReal) : SNxH.Idx → EReal :=
  fun i => combAt agg h d b (i 0) (i 1)

theorem comb_ix2 (agg h : SNxH.Idx → EReal) (d : SNx1.Idx → EReal) (b : S1xH.Idx → EReal) (r : Fin 100000) (j : Fin 64) :
    comb agg h d b (ix2 r j) = combAt agg h d b r j := rfl

def combRelu (agg h : SNxH.Idx → EReal) (d : SNx1.Idx → EReal) (b : S1xH.Idx → EReal) : SNxH.Idx → EReal :=
  fun i => max (combAt agg h d b (i 0) (i 1)) zeroW

theorem combRelu_ix2 (agg h : SNxH.Idx → EReal) (d : SNx1.Idx → EReal) (b : S1xH.Idx → EReal) (r : Fin 100000) (j : Fin 64) :
    combRelu agg h d b (ix2 r j) = max (combAt agg h d b r j) zeroW := rfl

/-- The sum over the rows of graph g of feature k. -/
def poolSAt (h : SNxH.Idx → EReal) (bt : SNx1.Idx → BitVec 32) (g k : Fin 64) : EReal :=
  ∑ r : Fin 100000, (if (bt (ix2 r 0)).toInt = (g.val : ℤ) then h (ix2 r k) else 0)

def poolS (h : SNxH.Idx → EReal) (bt : SNx1.Idx → BitVec 32) : SHxH.Idx → EReal := fun i => poolSAt h bt (i 0) (i 1)

theorem poolS_ix2 (h : SNxH.Idx → EReal) (bt : SNx1.Idx → BitVec 32) (g k : Fin 64) :
    poolS h bt (ix2 g k) = poolSAt h bt g k := rfl

/-- The number of rows of graph g. -/
def poolCAt (bt : SNx1.Idx → BitVec 32) (g : Fin 64) : EReal :=
  ∑ r : Fin 100000, (if (bt (ix2 r 0)).toInt = (g.val : ℤ) then (1 : EReal) else 0)

def poolC (bt : SNx1.Idx → BitVec 32) : SGx1.Idx → EReal := fun i => poolCAt bt (i 0)

theorem poolC_ix2 (bt : SNx1.Idx → BitVec 32) (g : Fin 64) (q : Fin 1) : poolC bt (ix2 g q) = poolCAt bt g := rfl

/-- The mean row of each graph, the count floored at one. -/
def gmean (s : SHxH.Idx → EReal) (cn : SGx1.Idx → EReal) : SHxH.Idx → EReal :=
  fun i => Ideal.div (s i) (max (cn (ix2 (i 0) 0)) oneW)

theorem gmean_ix2 (s : SHxH.Idx → EReal) (cn : SGx1.Idx → EReal) (g k : Fin 64) :
    gmean s cn (ix2 g k) = Ideal.div (s (ix2 g k)) (max (cn (ix2 g 0)) oneW) := rfl

/-- The first dense layer of the head with its rectifier. -/
def fc1 (a : SHxH.Idx → EReal) (w : SHx32.Idx → EReal) (b : S1x32.Idx → EReal) : SHx32.Idx → EReal :=
  fun i => max ((∑ k : Fin 64, a (ix2 (i 0) k) * w (ix2 k (i 1))) + b (ix2 0 (i 1))) zeroW

theorem fc1_ix2 (a : SHxH.Idx → EReal) (w : SHx32.Idx → EReal) (b : S1x32.Idx → EReal) (g : Fin 64) (j : Fin 32) :
    fc1 a w b (ix2 g j) = max ((∑ k : Fin 64, a (ix2 g k) * w (ix2 k j)) + b (ix2 0 j)) zeroW := rfl

/-- The second dense layer of the head. -/
def fc2 (a : SHx32.Idx → EReal) (w : S32x1.Idx → EReal) (b : S1x1.Idx → EReal) : SGx1.Idx → EReal :=
  fun i => (∑ k : Fin 32, a (ix2 (i 0) k) * w (ix2 k (i 1))) + b (ix2 0 (i 1))

theorem fc2_ix2 (a : SHx32.Idx → EReal) (w : S32x1.Idx → EReal) (b : S1x1.Idx → EReal) (g : Fin 64) (q : Fin 1) :
    fc2 a w b (ix2 g q) = (∑ k : Fin 32, a (ix2 g k) * w (ix2 k q)) + b (ix2 0 q) := rfl

/-- The output layer of the head. -/
def outl (a : SGx1.Idx → EReal) (w : S1x1.Idx → EReal) (b : S1x1.Idx → EReal) : SGx1.Idx → EReal :=
  fun i => (∑ k : Fin 1, a (ix2 (i 0) k) * w (ix2 k (i 1))) + b (ix2 0 (i 1))

theorem outl_ix2 (a : SGx1.Idx → EReal) (w : S1x1.Idx → EReal) (b : S1x1.Idx → EReal) (g : Fin 64) (q : Fin 1) :
    outl a w b (ix2 g q) = (∑ k : Fin 1, a (ix2 g k) * w (ix2 k q)) + b (ix2 0 q) := rfl

/-- The whole head: mean per graph, then the three dense layers. -/
def head (s : SHxH.Idx → EReal) (cn : SGx1.Idx → EReal) (w1 : SHx32.Idx → EReal) (b1 : S1x32.Idx → EReal)
    (w2 : S32x1.Idx → EReal) (b2 : S1x1.Idx → EReal) (w3 : S1x1.Idx → EReal) (b3 : S1x1.Idx → EReal) : SGx1.Idx → EReal :=
  outl (fc2 (fc1 (gmean s cn) w1 b1) w2 b2) w3 b3

end Cert.Gcn

end
-- ==== Proof.KSpec.lean ====
/-
  The result both programs compute, as ONE function of the sixteen arguments. The topology-only quantities come first:
  the edge rows and columns, the edge weights, each node's degree (the weights of its incoming edges plus one for the
  self loop), its inverse square root where the degree is positive (zero elsewhere), the per-edge normalisation
  dinv(row) * weight * dinv(col), and the squared inverse root as a column. A layer multiplies the node table by
  its weight, gathers the rows at the edges' sources, scales them by the normalisation, adds them up at the edges'
  targets, and combines the result with the node's own scaled row and the bias. Three layers (the first two rectified),
  the per-graph sums and counts, and the head.
  The gather, the scatter-add and the elementwise host operations are written with the operations the kernel's
  host program uses, so that program's buffers meet these terms without being opened.
-/
import proofs.«408533_j44195213476076_1_alg».proof.KernelIdeal
import proofs.«408533_j44195213476076_1_alg».proof.Proof.Gen.KernelIdeal
import proofs.«408533_j44195213476076_1_alg».proof.Proof.Spec

noncomputable section

namespace Cert.KernelIdeal.Val

open Cert.KernelIdeal Idealize.ShloMosaic Idealize.ShloMosaic.TcCoe
open Facts₀ Facts

/-- The edges' source nodes: row 0 of the edge table. -/
def row (ei : IVec S2x1600000 32) : IVec S1600000 32 :=
  shapeCast _ (extractStridedSlice S1x1600000 ![0, 0] ei slices_S2x1600000_S1x1600000_0_0) shapeCasts_S1x1600000_S1600000

/-- The edges' target nodes: row 1 of the edge table. -/
def col (ei : IVec S2x1600000 32) : IVec S1600000 32 :=
  shapeCast _ (extractStridedSlice S1x1600000 ![1, 0] ei slices_S2x1600000_S1x1600000_1_0) shapeCasts_S1x1600000_S1600000

/-- The edge weights as a vector. -/
def ew (ea : FVec Ideal S1600000x1 .f32) : FVec Ideal S1600000 .f32 :=
  shapeCast _ ea shapeCasts_S1600000x1_S1600000

/-- A node index made non-negative the way array indexing does (a negative one counts from the end), as a column. -/
def nidx (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- Each node's degree: the weights of the edges that end at it, plus one. -/
def deg (ei : IVec S2x1600000 32) (ea : FVec Ideal S1600000x1 .f32) : FVec Ideal S100000 .f32 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (col ei)) (ew ea))
    (broadcastInDim S100000 ![] bcast_S_S100000 (constant (F := Ideal) S_ .f32 0x3F800000#32))

/-- The inverse square root of the degree where it is positive, zero elsewhere. -/
def dinv (ei : IVec S2x1600000 32) (ea : FVec Ideal S1600000x1 .f32) : FVec Ideal S100000 .f32 :=
  select (cmpf .ogt (deg ei ea) (broadcastInDim S100000 ![] bcast_S_S100000 (constant (F := Ideal) S_ .f32 0x00000000#32)))
    (Host.rsqrt (deg ei ea))
    (broadcastInDim S100000 ![] bcast_S_S100000 (id (constant (F := Ideal) S_ .f32 0x00000000#32)))

/-- The per-edge normalisation dinv(source) * weight * dinv(target). -/
def norm (ei : IVec S2x1600000 32) (ea : FVec Ideal S1600000x1 .f32) : FVec Ideal S1600000 .f32 :=
  mulf (mulf (Host.gather gather_S100000_S1600000x1_S1600000_n_0_n_n_0_1_1 (dinv ei ea) (nidx (row ei))) (ew ea))
    (Host.gather gather_S100000_S1600000x1_S1600000_n_0_n_n_0_1_1 (dinv ei ea) (nidx (col ei)))

/-- The squared inverse root degree, as a column. -/
def dinv2 (ei : IVec S2x1600000 32) (ea : FVec Ideal S1600000x1 .f32) : FVec Ideal S100000x1 .f32 :=
  shapeCast _ (mulf (dinv ei ea) (dinv ei ea)) shapeCasts_S100000_S100000x1

/-- The messages added up at each target: the source rows of h, scaled by the normalisation. -/
def agg (ei : IVec S2x1600000 32) (ea : FVec Ideal S1600000x1 .f32) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (col ei))
    (mulf (Host.gather gather_S100000x64_S1600000x1_S1600000x64_1_0_n_n_0_1_164 h (nidx (row ei)))
      (broadcastInDim S1600000x64 ![0, 1] bcast_S1600000x1_S1600000x64_0_1
        (broadcastInDim S1600000x1 ![0] bcast_S1600000_S1600000x1_0 (norm ei ea))))

/-- A bias as a one-row table. -/
def biasRow (b : FVec Ideal S64 .f32) : FVec Ideal S1x64 .f32 := shapeCast _ b shapeCasts_S64_S1x64

/-- One rectified layer. -/
def layerRelu (ei : IVec S2x1600000 32) (ea : FVec Ideal S1600000x1 .f32) (x : FVec Ideal S100000x64 .f32)
    (w : FVec Ideal S64x64 .f32) (b : FVec Ideal S64 .f32) : FVec Ideal S100000x64 .f32 :=
  Gcn.combRelu (agg ei ea (Gcn.mm x w)) (Gcn.mm x w) (dinv2 ei ea) (biasRow b)

/-- One layer without rectifier. -/
def layer (ei : IVec S2x1600000 32) (ea : FVec Ideal S1600000x1 .f32) (x : FVec Ideal S100000x64 .f32)
    (w : FVec Ideal S64x64 .f32) (b : FVec Ideal S64 .f32) : FVec Ideal S100000x64 .f32 :=
  Gcn.comb (agg ei ea (Gcn.mm x w)) (Gcn.mm x w) (dinv2 ei ea) (biasRow b)

/-- The graph ids as a column. -/
def gid (bt : IVec S100000 32) : IVec S100000x1 32 := shapeCast _ bt shapeCasts_S100000_S100000x1

/-- The node table after the three layers. -/
def h3 (x : FVec Ideal S100000x64 .f32) (ei : IVec S2x1600000 32) (ea : FVec Ideal S1600000x1 .f32)
    (w0 : FVec Ideal S64x64 .f32) (b0 : FVec Ideal S64 .f32) (w1 : FVec Ideal S64x64 .f32) (b1 : FVec Ideal S64 .f32)
    (w2 : FVec Ideal S64x64 .f32) (b2 : FVec Ideal S64 .f32) : FVec Ideal S100000x64 .f32 :=
  layer ei ea (layerRelu ei ea (layerRelu ei ea x w0 b0) w1 b1) w2 b2

/-- THE RESULT: the head on the per-graph sums and counts of the third layer's node table. -/
def G (x : FVec Ideal S100000x64 .f32) (ei : IVec S2x1600000 32) (ea : FVec Ideal S1600000x1 .f32) (bt : IVec S100000 32)
    (w0 : FVec Ideal S64x64 .f32) (b0 : FVec Ideal S64 .f32) (w1 : FVec Ideal S64x64 .f32) (b1 : FVec Ideal S64 .f32)
    (w2 : FVec Ideal S64x64 .f32) (b2 : FVec Ideal S64 .f32) (fw1 : FVec Ideal S64x32 .f32) (fb1 : FVec Ideal S32 .f32)
    (fw2 : FVec Ideal S32x1 .f32) (fb2 : FVec Ideal S1 .f32) (ow : FVec Ideal S1x1 .f32) (ob : FVec Ideal S1 .f32) :
    FVec Ideal S64x1 .f32 :=
  Gcn.head (Gcn.poolS (h3 x ei ea w0 b0 w1 b1 w2 b2) (gid bt)) (Gcn.poolC (gid bt))
    fw1 (shapeCast _ fb1 shapeCasts_S32_S1x32) fw2 (shapeCast _ fb2 shapeCasts_S1_S1x1) ow (shapeCast _ ob shapeCasts_S1_S1x1)

end Cert.KernelIdeal.Val

end
-- ==== Proof.ThTopo.lean ====
/- The topology-only buffers of the kernel's host program: what the first three host stretches leave in them (the contents region 0 is entered with), and that no later host stretch or region up to the last layer writes them. -/
import proofs.«408533_j44195213476076_1_alg».proof.Proof.Gen.KernelIdeal.Frame
import proofs.«408533_j44195213476076_1_alg».proof.Proof.Spec
import proofs.«408533_j44195213476076_1_alg».proof.Proof.KSpec

import Idealize.ShloMosaic.Lib.StableHlo.Run

noncomputable section

namespace Cert.KernelIdeal.ThTopo

open Cert.KernelIdeal Cert.KernelIdeal.Gen Idealize.ShloMosaic Idealize.ShloMosaic.TcCoe Idealize.SL.Sem Idealize.ShloMosaic.StableHlo

-- the launch memory and generator registers
variable (m : (ℓ : Loc nD τ sig) → Buf (Elt Ideal) ℓ) (ρ : Dev nD → PrngReg)

/-- A buffer's contents at launch. -/
abbrev A (c : Dev nD) (b : Ref sig .tc) : Buf (Elt Ideal) ((c : Thread nD τ).loc b) := m ((c : Thread nD τ).loc b)

/-- A host stretch leaves every buffer it does not write as it found it: none of the stretch's operations has the buffer as its result. -/
local macro "unwritten_by " ops:ident " at " b:term : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The first stretch, over any entry contents -/

/-- The edges' sources after the first stretch: row 0 of the edge table it was entered with. -/
theorem first_v1 (X : Valuation τ sig (Elt Ideal)) :
    StableHlo.after hostOps0 X (Proc.devRef .tc main_v1) = Val.row (X (Proc.devRef .tc main_arg1)) := by
  after_results; rfl
/-- The edges' targets after the first stretch. -/
theorem first_v3 (X : Valuation τ sig (Elt Ideal)) :
    StableHlo.after hostOps0 X (Proc.devRef .tc main_v3) = Val.col (X (Proc.devRef .tc main_arg1)) := by
  after_results; rfl
/-- The edge weights as a vector after the first stretch. -/
theorem first_v4 (X : Valuation τ sig (Elt Ideal)) :
    StableHlo.after hostOps0 X (Proc.devRef .tc main_v4) = Val.ew (X (Proc.devRef .tc main_arg2)) := by
  after_results; rfl
/-- Where the degree is positive, after the first stretch. -/
theorem first_v11 (X : Valuation τ sig (Elt Ideal)) :
    StableHlo.after hostOps0 X (Proc.devRef .tc main_v11)
      = cmpf .ogt (Val.deg (X (Proc.devRef .tc main_arg1)) (X (Proc.devRef .tc main_arg2)))
          (broadcastInDim S100000 ![] Facts₀.bcast_S_S100000 (constant (F := Ideal) S_ .f32 0x00000000#32)) := by
  after_results; rfl
/-- The inverse square roots of the degrees, after the first stretch. -/
theorem first_v12 (X : Valuation τ sig (Elt Ideal)) :
    StableHlo.after hostOps0 X (Proc.devRef .tc main_v12)
      = Host.rsqrt (Val.deg (X (Proc.devRef .tc main_arg1)) (X (Proc.devRef .tc main_arg2))) := by
  after_results; rfl
/-- The zero the selection falls back to, after the first stretch. -/
theorem first_cst2 (X : Valuation τ sig (Elt Ideal)) :
    StableHlo.after hostOps0 X (Proc.devRef .tc main_cst_2) = constant (F := Ideal) S_ .f32 0x00000000#32 := by
  after_results

/-! ## The second stretch (the selection), over any entry contents -/

/-- The selection's result, from the three buffers it reads. -/
theorem second_v13 (X : Valuation τ sig (Elt Ideal)) :
    StableHlo.after hostOps0_1 X (Proc.devRef .tc main_v13)
      = select (X (Proc.devRef .tc main_v11)) (X (Proc.devRef .tc main_v12))
          (broadcastInDim S100000 ![] Facts₀.bcast_S_S100000 (id (X (Proc.devRef .tc main_cst_2)))) := by
  after_results; rfl

/-! ## The third stretch, over any entry contents -/

/-- The per-edge normalisation, from the four buffers the third stretch reads. -/
theorem third_v29 (X : Valuation τ sig (Elt Ideal)) :
    StableHlo.after hostOps0_2 X (Proc.devRef .tc main_v29)
      = (mulf (mulf (Host.gather gather_S100000_S1600000x1_S1600000_n_0_n_n_0_1_1
                (X (Proc.devRef .tc main_v13) : FVec Ideal S100000 .f32) (Val.nidx (X (Proc.devRef .tc main_v1))))
              (X (Proc.devRef .tc main_v4) : FVec Ideal S1600000 .f32))
          (Host.gather gather_S100000_S1600000x1_S1600000_n_0_n_n_0_1_1
            (X (Proc.devRef .tc main_v13) : FVec Ideal S100000 .f32) (Val.nidx (X (Proc.devRef .tc main_v3))))
          : FVec Ideal S1600000 .f32) := by
  after_results_simp; rfl
/-- The squared inverse root as a column, from the buffer the third stretch reads. -/
theorem third_v31 (X : Valuation τ sig (Elt Ideal)) :
    StableHlo.after hostOps0_2 X (Proc.devRef .tc main_v31)
      = (shapeCast S100000x1 (mulf (X (Proc.devRef .tc main_v13) : FVec Ideal S100000 .f32) (X (Proc.devRef .tc main_v13)))
          Facts₀.shapeCasts_S100000_S100000x1 : FVec Ideal S100000x1 .f32) := by
  after_results; rfl

/-! ## The boundaries -/

/-- The edges' sources after the first stretch. -/
theorem row1 (c : Dev nD) : W1 m ρ c (Proc.devRef .tc main_v1) = Val.row (A m c main_arg1) := first_v1 (W0 m ρ c)
/-- The edges' targets after the first stretch. -/
theorem col1 (c : Dev nD) : W1 m ρ c (Proc.devRef .tc main_v3) = Val.col (A m c main_arg1) := first_v3 (W0 m ρ c)
/-- The edge weights as a vector after the first stretch. -/
theorem ew1 (c : Dev nD) : W1 m ρ c (Proc.devRef .tc main_v4) = Val.ew (A m c main_arg2) := first_v4 (W0 m ρ c)
/-- Where the degree is positive, after the first stretch. -/
theorem pos1 (c : Dev nD) : W1 m ρ c (Proc.devRef .tc main_v11)
    = cmpf .ogt (Val.deg (A m c main_arg1) (A m c main_arg2))
        (broadcastInDim S100000 ![] Facts₀.bcast_S_S100000 (constant (F := Ideal) S_ .f32 0x00000000#32)) := first_v11 (W0 m ρ c)
/-- The inverse square roots of the degrees, after the first stretch. -/
theorem rsqrt1 (c : Dev nD) : W1 m ρ c (Proc.devRef .tc main_v12)
    = Host.rsqrt (Val.deg (A m c main_arg1) (A m c main_arg2)) := first_v12 (W0 m ρ c)
/-- The zero the selection falls back to, after the first stretch. -/
theorem zero1 (c : Dev nD) : W1 m ρ c (Proc.devRef .tc main_cst_2) = constant (F := Ideal) S_ .f32 0x00000000#32 :=
  first_cst2 (W0 m ρ c)

/-- The edges' sources after the second stretch. -/
theorem row2 (c : Dev nD) : W2 m ρ c (Proc.devRef .tc main_v1) = Val.row (A m c main_arg1) :=
  (unwritten_by hostOps0_1 at main_v1).trans (row1 m ρ c)
/-- The edges' targets after the second stretch. -/
theorem col2 (c : Dev nD) : W2 m ρ c (Proc.devRef .tc main_v3) = Val.col (A m c main_arg1) :=
  (unwritten_by hostOps0_1 at main_v3).trans (col1 m ρ c)
/-- The edge weights as a vector after the second stretch. -/
theorem ew2 (c : Dev nD) : W2 m ρ c (Proc.devRef .tc main_v4) = Val.ew (A m c main_arg2) :=
  (unwritten_by hostOps0_1 at main_v4).trans (ew1 m ρ c)
/-- The inverse root degrees after the second stretch. -/
theorem dinv2nd (c : Dev nD) : W2 m ρ c (Proc.devRef .tc main_v13) = Val.dinv (A m c main_arg1) (A m c main_arg2) :=
  (second_v13 (W1 m ρ c)).trans (by rw [pos1 m ρ c, rsqrt1 m ρ c, zero1 m ρ c]; rfl)

/-- The edges' sources when region 0 is entered. -/
theorem row3 (c : Dev nD) : W3 m ρ c (Proc.devRef .tc main_v1) = Val.row (A m c main_arg1) :=
  (unwritten_by hostOps0_2 at main_v1).trans (row2 m ρ c)
/-- The edges' targets when region 0 is entered. -/
theorem col3 (c : Dev nD) : W3 m ρ c (Proc.devRef .tc main_v3) = Val.col (A m c main_arg1) :=
  (unwritten_by hostOps0_2 at main_v3).trans (col2 m ρ c)
/-- The per-edge normalisation when region 0 is entered. -/
theorem norm3 (c : Dev nD) : W3 m ρ c (Proc.devRef .tc main_v29) = Val.norm (A m c main_arg1) (A m c main_arg2) :=
  (third_v29 (W2 m ρ c)).trans (by rw [dinv2nd m ρ c, row2 m ρ c, col2 m ρ c, ew2 m ρ c]; rfl)
/-- The squared inverse root degrees when region 0 is entered. -/
theorem dinv23 (c : Dev nD) : W3 m ρ c (Proc.devRef .tc main_v31) = Val.dinv2 (A m c main_arg1) (A m c main_arg2) :=
  (third_v31 (W2 m ρ c)).trans (by rw [dinv2nd m ρ c]; rfl)
/-- Unwritten between region 0's entry and boundary 4. -/
theorem keep4_v1 (c : Dev nD) : W4 m ρ c (Proc.devRef .tc main_v1) = W3 m ρ c (Proc.devRef .tc main_v1) :=
  W4_of_ne m ρ c main_v1 (by decide)
/-- Unwritten between region 0's entry and boundary 4. -/
theorem keep4_v3 (c : Dev nD) : W4 m ρ c (Proc.devRef .tc main_v3) = W3 m ρ c (Proc.devRef .tc main_v3) :=
  W4_of_ne m ρ c main_v3 (by decide)
/-- Unwritten between region 0's entry and boundary 4. -/
theorem keep4_v29 (c : Dev nD) : W4 m ρ c (Proc.devRef .tc main_v29) = W3 m ρ c (Proc.devRef .tc main_v29) :=
  W4_of_ne m ρ c main_v29 (by decide)
/-- Unwritten between region 0's entry and boundary 4. -/
theorem keep4_v31 (c : Dev nD) : W4 m ρ c (Proc.devRef .tc main_v31) = W3 m ρ c (Proc.devRef .tc main_v31) :=
  W4_of_ne m ρ c main_v31 (by decide)
/-- Unwritten between region 0's entry and boundary 7. -/
theorem keep7_v1 (c : Dev nD) : W7 m ρ c (Proc.devRef .tc main_v1) = W3 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := unwritten_by hostOps1 at main_v1
    _ = W3 m ρ c (Proc.devRef .tc main_v1) := keep4_v1 m ρ c
/-- Unwritten between region 0's entry and boundary 7. -/
theorem keep7_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := unwritten_by hostOps1 at main_v3
    _ = W3 m ρ c (Proc.devRef .tc main_v3) := keep4_v3 m ρ c
/-- Unwritten between region 0's entry and boundary 7. -/
theorem keep7_v29 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := unwritten_by hostOps1 at main_v29
    _ = W3 m ρ c (Proc.devRef .tc main_v29) := keep4_v29 m ρ c
/-- Unwritten between region 0's entry and boundary 7. -/
theorem keep7_v31 (c : Dev nD) : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := (W6_arr m ρ c 2).trans (((dat1 (V5 m ρ) c).arrAt_in 2 rfl _).trans (A_eq1 (V5 m ρ) c 2))
    _ = W4 m ρ c (Proc.devRef .tc main_v31) := unwritten_by hostOps1 at main_v31
    _ = W3 m ρ c (Proc.devRef .tc main_v31) := keep4_v31 m ρ c
/-- Unwritten between region 0's entry and boundary 10. -/
theorem keep10_v1 (c : Dev nD) : W10 m ρ c (Proc.devRef .tc main_v1) = W3 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := W9_of_ne m ρ c main_v1 (by decide)
    _ = W7 m ρ c (Proc.devRef .tc main_v1) := unwritten_by hostOps3 at main_v1
    _ = W3 m ρ c (Proc.devRef .tc main_v1) := keep7_v1 m ρ c
/-- Unwritten between region 0's entry and boundary 10. -/
theorem keep10_v3 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := unwritten_by hostOps3 at main_v3
    _ = W3 m ρ c (Proc.devRef .tc main_v3) := keep7_v3 m ρ c
/-- Unwritten between region 0's entry and boundary 10. -/
theorem keep10_v29 (c : Dev nD) : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := unwritten_by hostOps3 at main_v29
    _ = W3 m ρ c (Proc.devRef .tc main_v29) := keep7_v29 m ρ c
/-- Unwritten between region 0's entry and boundary 10. -/
theorem keep10_v31 (c : Dev nD) : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := (W9_arr m ρ c 2).trans (((dat3 (V8 m ρ) c).arrAt_in 2 rfl _).trans (A_eq3 (V8 m ρ) c 2))
    _ = W7 m ρ c (Proc.devRef .tc main_v31) := unwritten_by hostOps3 at main_v31
    _ = W3 m ρ c (Proc.devRef .tc main_v31) := keep7_v31 m ρ c
/-- Unwritten between region 0's entry and boundary 5. -/
theorem keep5_v31 (c : Dev nD) : W5 m ρ c (Proc.devRef .tc main_v31) = W3 m ρ c (Proc.devRef .tc main_v31) :=
  calc W5 m ρ c (Proc.devRef .tc main_v31)
    _ = W4 m ρ c (Proc.devRef .tc main_v31) := unwritten_by hostOps1 at main_v31
    _ = W3 m ρ c (Proc.devRef .tc main_v31) := keep4_v31 m ρ c
/-- Unwritten between region 0's entry and boundary 8. -/
theorem keep8_v31 (c : Dev nD) : W8 m ρ c (Proc.devRef .tc main_v31) = W3 m ρ c (Proc.devRef .tc main_v31) :=
  calc W8 m ρ c (Proc.devRef .tc main_v31)
    _ = W7 m ρ c (Proc.devRef .tc main_v31) := unwritten_by hostOps3 at main_v31
    _ = W3 m ρ c (Proc.devRef .tc main_v31) := keep7_v31 m ρ c
/-- Unwritten between region 0's entry and boundary 11. -/
theorem keep11_v31 (c : Dev nD) : W11 m ρ c (Proc.devRef .tc main_v31) = W3 m ρ c (Proc.devRef .tc main_v31) :=
  calc W11 m ρ c (Proc.devRef .tc main_v31)
    _ = W10 m ρ c (Proc.devRef .tc main_v31) := unwritten_by hostOps5 at main_v31
    _ = W3 m ρ c (Proc.devRef .tc main_v31) := keep10_v31 m ρ c

end Cert.KernelIdeal.ThTopo

end
-- ==== Proof.Mm0.lean ====
/- Region 0 (a node table times a weight, 20 row blocks of 5000): the output array after the region is the product of the two arrays the region is entered with. -/
import proofs.«408533_j44195213476076_1_alg».proof.Proof.Gen.KernelIdeal.Frame
import proofs.«408533_j44195213476076_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mm0

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- The zero offsets of a whole-block access, however the zeros are spelt. -/
theorem hz : (![0, 0] : Fin 2 → Nat) = fun _ => 0 :=
  funext fun a => by match a with | ⟨0, _⟩ => rfl | ⟨1, _⟩ => rfl

/-- The left operand is read at the output's row -/
theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and the contraction index, -/
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contraction index -/
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and the output's column. -/
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows times the weight, accumulated into zero, at entry (r, j): the sum over k of x(r, k) * w(k, j). -/
theorem matmul_block_apply (a : FVec Ideal S5000x64 .bf16) (b : FVec Ideal S64x64 .bf16) (r : Fin 5000) (j : Fin 64) :
    FloatOps.matmul dot_S5000x64_S64x64_S5000x64_1_0_0_1_n_n none a b (constant (F := Ideal) S5000x64 .f32 0x00000000#32) (ix2 r j)
      = ∑ k : Fin 64, a (ix2 r k) * b (ix2 k j) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (rhs_0 _ _).trans hk
    | ⟨1, _⟩ => exact rhs_1 _ _)
  rw [el, er]

/-- The body's payload at entry (r, j) of its block: the narrowing of the operands is exact, so it is the block product. -/
theorem pay_apply (x0 : Vec Ideal S5000x64 .f32) (x1 : Vec Ideal S64x64 .f32) (r : Fin 5000) (j : Fin 64) :
    k0_pay1 (F := Ideal) x0 x1 (ix2 r j) = ∑ k : Fin 64, x0 (ix2 r k) * x1 (ix2 k j) := by
  unfold k0_pay1
  refine (matmul_block_apply _ _ r j).trans ?_
  refine Finset.sum_congr rfl fun k _ => ?_
  rfl

/-! ## From the blocks to the array -/

-- the buffer contents the region is entered with
variable (V : (c : Dev nD) → (b : Ref sig .tc) → Buf (Elt Ideal) ((c : Thread nD τ).loc b))

/-- The index maps, decided over the grid's 20 points: the table's and the output's block of point t is row block t, the weight's block is the whole weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- What point t writes back is block t of the product of the two arrays the region is entered with. -/
theorem flushed_eq (c : Dev nD) (t : Fin cfg0.N) :
    (dat0 (F := Ideal) V c).flushed 2 t = ((cfg0.win 2).blk t).view.read (Elt Ideal) (Gcn.mm (V c main_arg0) (V c main_arg4)) := by
  show (cfg0.win 2).cut (grid0.coords t) ((dat0 (F := Ideal) V c).after 2 t) = _
  rw [after0_2]
  unfold out0_2
  rw [View.canon_unit_zero hz]
  simp only [View.ld_unit_zero (S := S5000x64) hz, View.ld_unit_zero (S := S64x64) hz]
  obtain ⟨e00, e01, e10, e11, e20, e21, ht⟩ := idx_facts t
  funext y
  obtain ⟨p, q, rfl⟩ : ∃ (p : Fin 5000) (q : Fin 64), y = ix2 p q := ⟨y 0, y 1, eq_ix2 y⟩
  show k0_pay1 (iblk0 V c 0 t) (iblk0 V c 1 t) (ix2 p q) = Gcn.mm (V c main_arg0) (V c main_arg4) (((cfg0.win 2).blk t).view.emb (ix2 p q))
  refine (pay_apply _ _ p q).trans ?_
  have hrow : ((cfg0.win 2).blk t).view.emb (ix2 p q) = ix2 (⟨t.val * 5000 + p.val, by have := p.isLt; omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  rw [hrow, Gcn.mm_ix2]
  unfold Gcn.mmAt
  refine Finset.sum_congr rfl fun k _ => ?_
  have hx : ((cfg0.win 0).blk t).view.emb (ix2 p k) = ix2 (⟨t.val * 5000 + p.val, by have := p.isLt; omega⟩ : Fin 100000) k := by
    funext a; apply Fin.ext
    match a with
    | ⟨0, _⟩ => show win0_0.index t (0 : Fin 2) * 5000 + 1 * p.val = t.val * 5000 + p.val; omega
    | ⟨1, _⟩ => show win0_0.index t (1 : Fin 2) * 64 + 1 * k.val = k.val; omega
  have hw : ((cfg0.win 1).blk t).view.emb (ix2 k q) = ix2 k q := by
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  refine congrArg₂ (fun a b : EReal => a * b) ?_ ?_
  · show V c main_arg0 (((cfg0.win 0).blk t).view.emb (ix2 p k)) = _
    rw [hx]
  · show V c main_arg4 (((cfg0.win 1).blk t).view.emb (ix2 k q)) = _
    rw [hw]

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row of the array is in the block of the point that is its row block: row r in block r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 5000 < cfg0.N := by rw [show cfg0.N = 20 from N_0]; omega
  obtain ⟨e00, e01, e10, e11, e20, e21, ht⟩ := idx_facts ⟨(i 0).val / 5000, hN⟩
  refine ⟨⟨(i 0).val / 5000, hN⟩, flush0_2 _, ?_⟩
  rw [mem_blk]
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; rw [e20]; show (i 0).val / 5000 * 5000 ≤ (i 0).val ∧ (i 0).val < (i 0).val / 5000 * 5000 + 5000; omega
  | ⟨1, _⟩ => show win0_2.index ⟨(i 0).val / 5000, hN⟩ (1 : Fin 2) * 64 ≤ (i 1).val ∧ (i 1).val < win0_2.index ⟨(i 0).val / 5000, hN⟩ (1 : Fin 2) * 64 + 64; rw [e21]; omega

/-- The output array after the region: entry (r, j) is the sum over k of x(r, k) * w(k, j). -/
theorem final (c : Dev nD) : (dat0 (F := Ideal) V c).arrAt 2 cfg0.N = Gcn.mm (V c main_arg0) (V c main_arg4) :=
  (dat0 (F := Ideal) V c).arrAt_eq_of_cover 2 _ (fun t _ => flushed_eq V c t) cover

end Cert.KernelIdeal.Mm0

end
-- ==== Proof.Comb1.lean ====
/- Region 1 (the combine step, 20 row blocks of 5000): the output array after the region is agg + h * d + bias, rectified, entry by entry, of the arrays the region is entered with. -/
import proofs.«408533_j44195213476076_1_alg».proof.Proof.Gen.KernelIdeal.Frame
import proofs.«408533_j44195213476076_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Comb1

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with
variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- A column of a rows broadcast to b columns reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at row r, column j of a block: agg + h * d + bias, then the maximum with the zero word. -/
theorem pay_ix2 (x0 x1 : Vec Ideal S5000x64 .f32) (x2 : Vec Ideal S5000x1 .f32) (x3 : Vec Ideal S1x64 .f32)
    (r : Fin 5000) (j : Fin 64) :
    k1_pay1 x0 x1 x2 x3 (ix2 r j)
      = max (x0 (ix2 r j) + x1 (ix2 r j) * x2 (ix2 r 0) + x3 (ix2 0 j)) (Ideal.ofBits .f32 0x00000000#32) := by
  unfold k1_pay1
  simp only [shapeCast_self]
  rw [maximumf_apply, addf_apply, addf_apply, mulf_apply, broadcast_apply, broadcastTo_a1_ab_apply,
    broadcastTo_1b_ab_apply]
  rfl

/-- The rectified combination at row R, column q, from the four entries it reads. -/
theorem combRelu_point (A H : Gcn.SNxH.Idx → EReal) (D : Gcn.SNx1.Idx → EReal) (B : Gcn.S1xH.Idx → EReal)
    (R : Fin 100000) (q : Fin 64) {i0 i1 i4 : Gcn.SNxH.Idx} {i2 : Gcn.SNx1.Idx} {i3 : Gcn.S1xH.Idx}
    (h0 : i0 = ix2 R q) (h1 : i1 = ix2 R q) (h2 : i2 = ix2 R (0 : Fin 1)) (h3 : i3 = ix2 (0 : Fin 1) q) (h4 : i4 = ix2 R q) :
    max (A i0 + H i1 * D i2 + B i3) (Ideal.ofBits .f32 0x00000000#32) = Gcn.combRelu A H D B i4 := by
  subst h0 h1 h2 h3 h4; rfl

/-- The windows' block indices over the grid: the four row-blocked windows sit at block (t, 0), the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the rectified combination of the arrays the region is entered with:
    row p of block t is row t * 5000 + p of each row-blocked array, and the bias row is read whole. -/
theorem flushed_eq (c : Dev nD) (t : Fin cfg1.N) :
    (dat1 (F := Ideal) V c).flushed 4 t = ((cfg1.win 4).blk t).view.read (Elt Ideal)
      (Gcn.combRelu (V c main_v45) (V c main_v32) (V c main_v31) (V c main_v46)) := by
  show (cfg1.win 4).cut (grid1.coords t) ((dat1 (F := Ideal) V c).after 4 t) = _
  rw [after1_4]
  unfold out1_4
  rw [View.canon_unit_zero hz]
  simp only [View.ld_unit_zero (S := S5000x64) hz, View.ld_unit_zero (S := S5000x1) hz, View.ld_unit_zero (S := S1x64) hz]
  funext y
  obtain ⟨p, q, rfl⟩ : ∃ (p : Fin 5000) (q : Fin 64), y = ix2 p q := ⟨y 0, y 1, eq_ix2 y⟩
  refine (pay_ix2 _ _ _ _ p q).trans ?_
  obtain ⟨e00, e01, e10, e11, e20, e21, e30, e31, e40, e41⟩ := idx_facts t
  have ht : t.val < 20 := lt_of_lt_of_eq t.isLt N_1
  have hp : p.val < 5000 := p.isLt
  have h0 : ((cfg1.win 0).blk t).view.emb (ix2 p q) = ix2 (⟨t.val * 5000 + p.val, by omega⟩ : Fin 100000) q := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * q.val = q.val; omega
  have h1 : ((cfg1.win 1).blk t).view.emb (ix2 p q) = ix2 (⟨t.val * 5000 + p.val, by omega⟩ : Fin 100000) q := by
    funext a; apply Fin.ext
    match a with
    | ⟨0, _⟩ => show win1_1.index t (0 : Fin 2) * 5000 + 1 * p.val = t.val * 5000 + p.val; omega
    | ⟨1, _⟩ => show win1_1.index t (1 : Fin 2) * 64 + 1 * q.val = q.val; omega
  have h2 : ((cfg1.win 2).blk t).view.emb (ix2 p (0 : Fin 1)) = ix2 (⟨t.val * 5000 + p.val, by omega⟩ : Fin 100000) (0 : Fin 1) := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 64 + 1 * q.val = q.val; omega
  have h4 : ((cfg1.win 4).blk t).view.emb (ix2 p q) = ix2 (⟨t.val * 5000 + p.val, by omega⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * q.val = q.val; omega
  exact combRelu_point (V c main_v45) (V c main_v32) (V c main_v31) (V c main_v46) ⟨t.val * 5000 + p.val, by omega⟩ q h0 h1 h2 h3 h4

/-- An index of the array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v47).slice (win1_4.rect t)).set ↔ _
  rw [View.set_slice_whole, Rect.mem_set_unit]
  exact Iff.rfl

/-- Every index of the array is in some point's block: row r is in the block of point r / 5000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨e00, e01, e10, e11, e20, e21, e30, e31, e40, e41⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- The output array after the region. -/
theorem final (c : Dev nD) : (dat1 (F := Ideal) V c).arrAt 4 cfg1.N = Gcn.combRelu (V c main_v45) (V c main_v32) (V c main_v31) (V c main_v46) :=
  (dat1 (F := Ideal) V c).arrAt_eq_of_cover 4 _ (fun t _ => flushed_eq V c t) cover

end Cert.KernelIdeal.Comb1

end
-- ==== Proof.ThLayer1.lean ====
/- The first layer of the kernel's program read through the fold of boundary contents: region 0 (the product), the host stretch after it (gather, scale, scatter-add, the bias row), region 1 (the combine). -/
import proofs.«408533_j44195213476076_1_alg».proof.Proof.Gen.KernelIdeal.Frame
import proofs.«408533_j44195213476076_1_alg».proof.Proof.Spec
import proofs.«408533_j44195213476076_1_alg».proof.Proof.KSpec
import proofs.«408533_j44195213476076_1_alg».proof.Proof.ThTopo
import proofs.«408533_j44195213476076_1_alg».proof.Proof.Mm0
import proofs.«408533_j44195213476076_1_alg».proof.Proof.Comb1
import Idealize.ShloMosaic.Lib.StableHlo.Run

noncomputable section

namespace Cert.KernelIdeal.ThLayer1

open Cert.KernelIdeal Cert.KernelIdeal.Gen Idealize.ShloMosaic Idealize.ShloMosaic.TcCoe Idealize.SL.Sem Idealize.ShloMosaic.StableHlo

-- the launch memory and generator registers
variable (m : (ℓ : Loc nD τ sig) → Buf (Elt Ideal) ℓ) (ρ : Dev nD → PrngReg)

/-- A buffer's contents at launch. -/
abbrev A (c : Dev nD) (b : Ref sig .tc) : Buf (Elt Ideal) ((c : Thread nD τ).loc b) := m ((c : Thread nD τ).loc b)

/-- A host stretch leaves every buffer it does not write as it found it: none of the stretch's operations has the buffer as its result. -/
local macro "unwritten_by " ops:ident " at " b:term : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The arguments at the boundaries of the first layer: no host stretch before region 0 writes an argument -/

/-- The node features when region 0 is entered are the launch contents. -/
private theorem arg0_at3 (c : Dev nD) : W3 m ρ c (Proc.devRef .tc main_arg0) = A m c main_arg0 :=
  calc W3 m ρ c (Proc.devRef .tc main_arg0)
    _ = W2 m ρ c (Proc.devRef .tc main_arg0) := unwritten_by hostOps0_2 at main_arg0
    _ = W1 m ρ c (Proc.devRef .tc main_arg0) := unwritten_by hostOps0_1 at main_arg0
    _ = W0 m ρ c (Proc.devRef .tc main_arg0) := unwritten_by hostOps0 at main_arg0
    _ = A m c main_arg0 := rfl

/-- The first weight when region 0 is entered is the launch contents. -/
private theorem arg4_at3 (c : Dev nD) : W3 m ρ c (Proc.devRef .tc main_arg4) = A m c main_arg4 :=
  calc W3 m ρ c (Proc.devRef .tc main_arg4)
    _ = W2 m ρ c (Proc.devRef .tc main_arg4) := unwritten_by hostOps0_2 at main_arg4
    _ = W1 m ρ c (Proc.devRef .tc main_arg4) := unwritten_by hostOps0_1 at main_arg4
    _ = W0 m ρ c (Proc.devRef .tc main_arg4) := unwritten_by hostOps0 at main_arg4
    _ = A m c main_arg4 := rfl

/-- The first bias at region 0's exit is the launch contents: region 0 has no window on it. -/
private theorem arg5_at4 (c : Dev nD) : W4 m ρ c (Proc.devRef .tc main_arg5) = A m c main_arg5 :=
  calc W4 m ρ c (Proc.devRef .tc main_arg5)
    _ = W3 m ρ c (Proc.devRef .tc main_arg5) := W4_of_ne m ρ c main_arg5 (by decide)
    _ = W2 m ρ c (Proc.devRef .tc main_arg5) := unwritten_by hostOps0_2 at main_arg5
    _ = W1 m ρ c (Proc.devRef .tc main_arg5) := unwritten_by hostOps0_1 at main_arg5
    _ = W0 m ρ c (Proc.devRef .tc main_arg5) := unwritten_by hostOps0 at main_arg5
    _ = A m c main_arg5 := rfl

/-! ## Region 0: the product -/

/-- At region 0's exit its output array is the node features times the first weight. -/
private theorem prod4 (c : Dev nD) :
    W4 m ρ c (Proc.devRef .tc main_v32) = Gcn.mm (A m c main_arg0) (A m c main_arg4) := by
  refine (W4_arr m ρ c 2).trans ((Mm0.final (V3 m ρ) c).trans ?_)
  rw [show V3 m ρ c main_arg0 = A m c main_arg0 from arg0_at3 m ρ c,
    show V3 m ρ c main_arg4 = A m c main_arg4 from arg4_at3 m ρ c]

/-! ## The host stretch between the product and the combine -/

/-- The aggregated messages when region 1 is entered: the product's rows gathered at the edges' sources, scaled by the
    normalisation and added up at the edges' targets. -/
private theorem agg5 (c : Dev nD) :
    W5 m ρ c (Proc.devRef .tc main_v45)
      = Val.agg (A m c main_arg1) (A m c main_arg2) (Gcn.mm (A m c main_arg0) (A m c main_arg4)) := by
  show StableHlo.after hostOps1 (W4 m ρ c) (Proc.devRef .tc main_v45) = _
  after_results_simp
  rw [prod4 m ρ c, ThTopo.keep4_v1 m ρ c, ThTopo.keep4_v3 m ρ c, ThTopo.keep4_v29 m ρ c,
    ThTopo.row3 m ρ c, ThTopo.col3 m ρ c, ThTopo.norm3 m ρ c]
  rfl

/-- The bias row when region 1 is entered. -/
private theorem bias5 (c : Dev nD) :
    W5 m ρ c (Proc.devRef .tc main_v46) = Val.biasRow (A m c main_arg5) := by
  show StableHlo.after hostOps1 (W4 m ρ c) (Proc.devRef .tc main_v46) = _
  after_results
  rw [arg5_at4 m ρ c]
  rfl

/-- The product is still there when region 1 is entered: the host stretch reads it and does not write it. -/
private theorem prod5 (c : Dev nD) :
    W5 m ρ c (Proc.devRef .tc main_v32) = Gcn.mm (A m c main_arg0) (A m c main_arg4) :=
  calc W5 m ρ c (Proc.devRef .tc main_v32)
    _ = W4 m ρ c (Proc.devRef .tc main_v32) := unwritten_by hostOps1 at main_v32
    _ = Gcn.mm (A m c main_arg0) (A m c main_arg4) := prod4 m ρ c

/-- The squared inverse root degrees when region 1 is entered. -/
private theorem dinv25 (c : Dev nD) :
    W5 m ρ c (Proc.devRef .tc main_v31) = Val.dinv2 (A m c main_arg1) (A m c main_arg2) :=
  (ThTopo.keep5_v31 m ρ c).trans (ThTopo.dinv23 m ρ c)

/-! ## Region 1: the combine -/

/-- The node table after the first layer (region 1's output array at region 1's exit). -/
theorem layer1 (c : Dev nD) : W6 m ρ c (Proc.devRef .tc main_v47)
    = Val.layerRelu (A m c main_arg1) (A m c main_arg2) (A m c main_arg0) (A m c main_arg4) (A m c main_arg5) := by
  refine (W6_arr m ρ c 4).trans ((Comb1.final (V5 m ρ) c).trans ?_)
  rw [show V5 m ρ c main_v45 = _ from agg5 m ρ c, show V5 m ρ c main_v32 = _ from prod5 m ρ c,
    show V5 m ρ c main_v31 = _ from dinv25 m ρ c, show V5 m ρ c main_v46 = _ from bias5 m ρ c]
  rfl

end Cert.KernelIdeal.ThLayer1

end
-- ==== Proof.Mm2.lean ====
/- Region 2 (a node table times a weight, 20 row blocks of 5000): the output array after the region is the product of the two arrays the region is entered with. -/
import proofs.«408533_j44195213476076_1_alg».proof.Proof.Gen.KernelIdeal.Frame
import proofs.«408533_j44195213476076_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mm2

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- The zero offsets of a whole-block access, however the zeros are spelt. -/
theorem hz : (![0, 0] : Fin 2 → Nat) = fun _ => 0 :=
  funext fun a => by match a with | ⟨0, _⟩ => rfl | ⟨1, _⟩ => rfl

/-- The left operand is read at the output's row -/
theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and the contraction index, -/
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contraction index -/
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and the output's column. -/
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows times the weight, accumulated into zero, at entry (r, j): the sum over k of x(r, k) * w(k, j). -/
theorem matmul_block_apply (a : FVec Ideal S5000x64 .bf16) (b : FVec Ideal S64x64 .bf16) (r : Fin 5000) (j : Fin 64) :
    FloatOps.matmul dot_S5000x64_S64x64_S5000x64_1_0_0_1_n_n none a b (constant (F := Ideal) S5000x64 .f32 0x00000000#32) (ix2 r j)
      = ∑ k : Fin 64, a (ix2 r k) * b (ix2 k j) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (rhs_0 _ _).trans hk
    | ⟨1, _⟩ => exact rhs_1 _ _)
  rw [el, er]

/-- The body's payload at entry (r, j) of its block: the narrowing of the operands is exact, so it is the block product. -/
theorem pay_apply (x0 : Vec Ideal S5000x64 .f32) (x1 : Vec Ideal S64x64 .f32) (r : Fin 5000) (j : Fin 64) :
    k2_pay1 (F := Ideal) x0 x1 (ix2 r j) = ∑ k : Fin 64, x0 (ix2 r k) * x1 (ix2 k j) := by
  unfold k2_pay1
  refine (matmul_block_apply _ _ r j).trans ?_
  refine Finset.sum_congr rfl fun k _ => ?_
  exact congrArg (fun v : Vec Ideal S5000x64 .f32 => v (ix2 r k) * x1 (ix2 k j)) (shapeCast_self x0 _)

/-! ## From the blocks to the array -/

-- the buffer contents the region is entered with
variable (V : (c : Dev nD) → (b : Ref sig .tc) → Buf (Elt Ideal) ((c : Thread nD τ).loc b))

/-- The index maps, decided over the grid's 20 points: the table's and the output's block of point t is row block t, the weight's block is the whole weight. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 20 :=
  (by decide +kernel : ∀ t : Fin grid2.N, _)

/-- What point t writes back is block t of the product of the two arrays the region is entered with. -/
theorem flushed_eq (c : Dev nD) (t : Fin cfg2.N) :
    (dat2 (F := Ideal) V c).flushed 2 t = ((cfg2.win 2).blk t).view.read (Elt Ideal) (Gcn.mm (V c main_v47) (V c main_arg6)) := by
  show (cfg2.win 2).cut (grid2.coords t) ((dat2 (F := Ideal) V c).after 2 t) = _
  rw [after2_2]
  unfold out2_2
  rw [View.canon_unit_zero hz]
  simp only [View.ld_unit_zero (S := S5000x64) hz, View.ld_unit_zero (S := S64x64) hz]
  obtain ⟨e00, e01, e10, e11, e20, e21, ht⟩ := idx_facts t
  funext y
  obtain ⟨p, q, rfl⟩ : ∃ (p : Fin 5000) (q : Fin 64), y = ix2 p q := ⟨y 0, y 1, eq_ix2 y⟩
  show k2_pay1 (iblk2 V c 0 t) (iblk2 V c 1 t) (ix2 p q) = Gcn.mm (V c main_v47) (V c main_arg6) (((cfg2.win 2).blk t).view.emb (ix2 p q))
  refine (pay_apply _ _ p q).trans ?_
  have hrow : ((cfg2.win 2).blk t).view.emb (ix2 p q) = ix2 (⟨t.val * 5000 + p.val, by have := p.isLt; omega⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  rw [hrow, Gcn.mm_ix2]
  unfold Gcn.mmAt
  refine Finset.sum_congr rfl fun k _ => ?_
  have hx : ((cfg2.win 0).blk t).view.emb (ix2 p k) = ix2 (⟨t.val * 5000 + p.val, by have := p.isLt; omega⟩ : Fin 100000) k := by
    funext a; apply Fin.ext
    match a with
    | ⟨0, _⟩ => show win2_0.index t (0 : Fin 2) * 5000 + 1 * p.val = t.val * 5000 + p.val; omega
    | ⟨1, _⟩ => show win2_0.index t (1 : Fin 2) * 64 + 1 * k.val = k.val; omega
  have hw : ((cfg2.win 1).blk t).view.emb (ix2 k q) = ix2 k q := by
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  refine congrArg₂ (fun a b : EReal => a * b) ?_ ?_
  · show V c main_v47 (((cfg2.win 0).blk t).view.emb (ix2 p k)) = _
    rw [hx]
  · show V c main_arg6 (((cfg2.win 1).blk t).view.emb (ix2 k q)) = _
    rw [hw]

/-- An index of the array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Every row of the array is in the block of the point that is its row block: row r in block r / 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 5000 < cfg2.N := by rw [show cfg2.N = 20 from N_2]; omega
  obtain ⟨e00, e01, e10, e11, e20, e21, ht⟩ := idx_facts ⟨(i 0).val / 5000, hN⟩
  refine ⟨⟨(i 0).val / 5000, hN⟩, flush2_2 _, ?_⟩
  rw [mem_blk]
  intro a
  match a with
  | ⟨0, _⟩ => show win2_2.index ⟨(i 0).val / 5000, hN⟩ (0 : Fin 2) * 5000 ≤ (i 0).val ∧ (i 0).val < win2_2.index ⟨(i 0).val / 5000, hN⟩ (0 : Fin 2) * 5000 + 5000; rw [e20]; show (i 0).val / 5000 * 5000 ≤ (i 0).val ∧ (i 0).val < (i 0).val / 5000 * 5000 + 5000; omega
  | ⟨1, _⟩ => show win2_2.index ⟨(i 0).val / 5000, hN⟩ (1 : Fin 2) * 64 ≤ (i 1).val ∧ (i 1).val < win2_2.index ⟨(i 0).val / 5000, hN⟩ (1 : Fin 2) * 64 + 64; rw [e21]; omega

/-- The output array after the region: entry (r, j) is the sum over k of x(r, k) * w(k, j). -/
theorem final (c : Dev nD) : (dat2 (F := Ideal) V c).arrAt 2 cfg2.N = Gcn.mm (V c main_v47) (V c main_arg6) :=
  (dat2 (F := Ideal) V c).arrAt_eq_of_cover 2 _ (fun t _ => flushed_eq V c t) cover

end Cert.KernelIdeal.Mm2

end
-- ==== Proof.Comb3.lean ====
/- Region 3 (the combine step, 20 row blocks of 5000): the output array after the region is agg + h * d + bias, rectified, entry by entry, of the arrays the region is entered with. -/
import proofs.«408533_j44195213476076_1_alg».proof.Proof.Gen.KernelIdeal.Frame
import proofs.«408533_j44195213476076_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Comb3

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with
variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- A column of a rows broadcast to b columns reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at row r, column j of a block: agg + h * d + bias, then the maximum with the zero word. -/
theorem pay_ix2 (x0 x1 : Vec Ideal S5000x64 .f32) (x2 : Vec Ideal S5000x1 .f32) (x3 : Vec Ideal S1x64 .f32)
    (r : Fin 5000) (j : Fin 64) :
    k3_pay1 x0 x1 x2 x3 (ix2 r j)
      = max (x0 (ix2 r j) + x1 (ix2 r j) * x2 (ix2 r 0) + x3 (ix2 0 j)) (Ideal.ofBits .f32 0x00000000#32) := by
  unfold k3_pay1
  simp only [shapeCast_self]
  rw [maximumf_apply, addf_apply, addf_apply, mulf_apply, broadcast_apply, broadcastTo_a1_ab_apply,
    broadcastTo_1b_ab_apply]
  rfl

/-- The rectified combination at row R, column q, from the four entries it reads. -/
theorem combRelu_point (A H : Gcn.SNxH.Idx → EReal) (D : Gcn.SNx1.Idx → EReal) (B : Gcn.S1xH.Idx → EReal)
    (R : Fin 100000) (q : Fin 64) {i0 i1 i4 : Gcn.SNxH.Idx} {i2 : Gcn.SNx1.Idx} {i3 : Gcn.S1xH.Idx}
    (h0 : i0 = ix2 R q) (h1 : i1 = ix2 R q) (h2 : i2 = ix2 R (0 : Fin 1)) (h3 : i3 = ix2 (0 : Fin 1) q) (h4 : i4 = ix2 R q) :
    max (A i0 + H i1 * D i2 + B i3) (Ideal.ofBits .f32 0x00000000#32) = Gcn.combRelu A H D B i4 := by
  subst h0 h1 h2 h3 h4; rfl

/-- The windows' block indices over the grid: the four row-blocked windows sit at block (t, 0), the bias at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the rectified combination of the arrays the region is entered with:
    row p of block t is row t * 5000 + p of each row-blocked array, and the bias row is read whole. -/
theorem flushed_eq (c : Dev nD) (t : Fin cfg3.N) :
    (dat3 (F := Ideal) V c).flushed 4 t = ((cfg3.win 4).blk t).view.read (Elt Ideal)
      (Gcn.combRelu (V c main_v61) (V c main_v48) (V c main_v31) (V c main_v62)) := by
  show (cfg3.win 4).cut (grid3.coords t) ((dat3 (F := Ideal) V c).after 4 t) = _
  rw [after3_4]
  unfold out3_4
  rw [View.canon_unit_zero hz]
  simp only [View.ld_unit_zero (S := S5000x64) hz, View.ld_unit_zero (S := S5000x1) hz, View.ld_unit_zero (S := S1x64) hz]
  funext y
  obtain ⟨p, q, rfl⟩ : ∃ (p : Fin 5000) (q : Fin 64), y = ix2 p q := ⟨y 0, y 1, eq_ix2 y⟩
  refine (pay_ix2 _ _ _ _ p q).trans ?_
  obtain ⟨e00, e01, e10, e11, e20, e21, e30, e31, e40, e41⟩ := idx_facts t
  have ht : t.val < 20 := lt_of_lt_of_eq t.isLt N_3
  have hp : p.val < 5000 := p.isLt
  have h0 : ((cfg3.win 0).blk t).view.emb (ix2 p q) = ix2 (⟨t.val * 5000 + p.val, by omega⟩ : Fin 100000) q := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have h1 : ((cfg3.win 1).blk t).view.emb (ix2 p q) = ix2 (⟨t.val * 5000 + p.val, by omega⟩ : Fin 100000) q := by
    funext a; apply Fin.ext
    match a with
    | ⟨0, _⟩ => show win3_1.index t (0 : Fin 2) * 5000 + 1 * p.val = t.val * 5000 + p.val; omega
    | ⟨1, _⟩ => show win3_1.index t (1 : Fin 2) * 64 + 1 * q.val = q.val; omega
  have h2 : ((cfg3.win 2).blk t).view.emb (ix2 p (0 : Fin 1)) = ix2 (⟨t.val * 5000 + p.val, by omega⟩ : Fin 100000) (0 : Fin 1) := by
    funext a; apply Fin.ext
    match a with
    | ⟨0, _⟩ => show win3_2.index t (0 : Fin 2) * 5000 + 1 * p.val = t.val * 5000 + p.val; omega
    | ⟨1, _⟩ => show win3_2.index t (1 : Fin 2) * 1 + 1 * 0 = 0; omega
  have h3 : ((cfg3.win 3).blk t).view.emb (ix2 (0 : Fin 1) q) = ix2 (0 : Fin 1) q := by
    funext a; apply Fin.ext
    match a with
    | ⟨0, _⟩ => show win3_3.index t (0 : Fin 2) * 1 + 1 * 0 = 0; omega
    | ⟨1, _⟩ => show win3_3.index t (1 : Fin 2) * 64 + 1 * q.val = q.val; omega
  have h4 : ((cfg3.win 4).blk t).view.emb (ix2 p q) = ix2 (⟨t.val * 5000 + p.val, by omega⟩ : Fin 100000) q := by
    funext a; apply Fin.ext
    match a with
    | ⟨0, _⟩ => show win3_4.index t (0 : Fin 2) * 5000 + 1 * p.val = t.val * 5000 + p.val; omega
    | ⟨1, _⟩ => show win3_4.index t (1 : Fin 2) * 64 + 1 * q.val = q.val; omega
  exact combRelu_point (V c main_v61) (V c main_v48) (V c main_v31) (V c main_v62) ⟨t.val * 5000 + p.val, by omega⟩ q h0 h1 h2 h3 h4

/-- An index of the array is in point t's block iff each coordinate is in the block's range on its axis. -/
theorem mem_blk (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v63).slice (win3_4.rect t)).set ↔ _
  rw [View.set_slice_whole, Rect.mem_set_unit]
  exact Iff.rfl

/-- Every index of the array is in some point's block: row r is in the block of point r / 5000. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  obtain ⟨e00, e01, e10, e11, e20, e21, e30, e31, e40, e41⟩ := idx_facts t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 64 ≤ (i 1).val ∧ (i 1).val < win3_4.index t (1 : Fin 2) * 64 + 64
    omega

/-- The output array after the region. -/
theorem final (c : Dev nD) : (dat3 (F := Ideal) V c).arrAt 4 cfg3.N = Gcn.combRelu (V c main_v61) (V c main_v48) (V c main_v31) (V c main_v62) :=
  (dat3 (F := Ideal) V c).arrAt_eq_of_cover 4 _ (fun t _ => flushed_eq V c t) cover

end Cert.KernelIdeal.Comb3

end
-- ==== Proof.ThLayer2.lean ====
/- The second layer of the kernel's program read through the fold of boundary contents: region 2 (the product), the host stretch after it, region 3 (the combine). -/
import proofs.«408533_j44195213476076_1_alg».proof.Proof.Gen.KernelIdeal.Frame
import proofs.«408533_j44195213476076_1_alg».proof.Proof.Spec
import proofs.«408533_j44195213476076_1_alg».proof.Proof.KSpec
import proofs.«408533_j44195213476076_1_alg».proof.Proof.ThTopo
import proofs.«408533_j44195213476076_1_alg».proof.Proof.Mm2
import proofs.«408533_j44195213476076_1_alg».proof.Proof.Comb3
import Idealize.ShloMosaic.Lib.StableHlo.Run

noncomputable section

namespace Cert.KernelIdeal.ThLayer2

open Cert.KernelIdeal Cert.KernelIdeal.Gen Idealize.ShloMosaic Idealize.ShloMosaic.TcCoe Idealize.SL.Sem Idealize.ShloMosaic.StableHlo

-- the launch memory and generator registers
variable (m : (ℓ : Loc nD τ sig) → Buf (Elt Ideal) ℓ) (ρ : Dev nD → PrngReg)

/-- A buffer's contents at launch. -/
abbrev A (c : Dev nD) (b : Ref sig .tc) : Buf (Elt Ideal) ((c : Thread nD τ).loc b) := m ((c : Thread nD τ).loc b)

/-- A stretch of host operations leaves a buffer that none of them writes as it was. -/
local macro "host_unwritten" : tactic => `(tactic| (
  refine StableHlo.after_of_forall_not_mem _ _ (List.forall_iff_forall_mem.mp ?_)
  simp only [hostOps0, hostOps0_1, hostOps0_2, hostOps1, hostOps3, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments of the layer, as launched -/

/-- The second weight when region 2 is entered: no host operation and no region before it writes an argument. -/
private theorem arg6_at6 (c : Dev nD) : W6 m ρ c (Proc.devRef .tc main_arg6) = A m c main_arg6 :=
  calc W6 m ρ c (Proc.devRef .tc main_arg6)
    _ = W5 m ρ c (Proc.devRef .tc main_arg6) := W6_of_ne m ρ c main_arg6 (by decide)
    _ = W4 m ρ c (Proc.devRef .tc main_arg6) := by host_unwritten
    _ = W3 m ρ c (Proc.devRef .tc main_arg6) := W4_of_ne m ρ c main_arg6 (by decide)
    _ = W2 m ρ c (Proc.devRef .tc main_arg6) := by host_unwritten
    _ = W1 m ρ c (Proc.devRef .tc main_arg6) := by host_unwritten
    _ = W0 m ρ c (Proc.devRef .tc main_arg6) := by host_unwritten
    _ = A m c main_arg6 := rfl

/-- The second bias when region 2 is left. -/
private theorem arg7_at7 (c : Dev nD) : W7 m ρ c (Proc.devRef .tc main_arg7) = A m c main_arg7 :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_unwritten
    _ = W3 m ρ c (Proc.devRef .tc main_arg7) := W4_of_ne m ρ c main_arg7 (by decide)
    _ = W2 m ρ c (Proc.devRef .tc main_arg7) := by host_unwritten
    _ = W1 m ρ c (Proc.devRef .tc main_arg7) := by host_unwritten
    _ = W0 m ρ c (Proc.devRef .tc main_arg7) := by host_unwritten
    _ = A m c main_arg7 := rfl

/-! ## Region 2: the product -/

/-- The product when region 2 is left: the first layer's table times the second weight. -/
private theorem v48_at7 (c : Dev nD) (X : FVec Ideal S100000x64 .f32) (hX : W6 m ρ c (Proc.devRef .tc main_v47) = X) :
    W7 m ρ c (Proc.devRef .tc main_v48) = Gcn.mm X (A m c main_arg6) := by
  refine (W7_arr m ρ c 2).trans ((Mm2.final (V6 m ρ) c).trans ?_)
  show Gcn.mm (W6 m ρ c (Proc.devRef .tc main_v47)) (W6 m ρ c (Proc.devRef .tc main_arg6)) = _
  rw [hX, arg6_at6]

/-! ## The host stretch between the product and the combine -/

/-- The host stretch does not write the product. -/
private theorem v48_at8 (c : Dev nD) : W8 m ρ c (Proc.devRef .tc main_v48) = W7 m ρ c (Proc.devRef .tc main_v48) := by
  host_unwritten

/-- The aggregated messages when region 3 is entered: the rows of the product at the edges' sources, scaled by the
    normalisation and added up at the edges' targets. -/
private theorem v61_at8 (c : Dev nD) (H : FVec Ideal S100000x64 .f32) (hH : W7 m ρ c (Proc.devRef .tc main_v48) = H) :
    W8 m ρ c (Proc.devRef .tc main_v61) = Val.agg (A m c main_arg1) (A m c main_arg2) H := by
  show StableHlo.after hostOps3 (W7 m ρ c) (Proc.devRef .tc main_v61) = _
  after_results_simp
  rw [hH, ThTopo.keep7_v1, ThTopo.keep7_v3, ThTopo.keep7_v29, ThTopo.row3, ThTopo.col3, ThTopo.norm3]
  rfl

/-- The bias as a one-row table when region 3 is entered. -/
private theorem v62_at8 (c : Dev nD) : W8 m ρ c (Proc.devRef .tc main_v62) = Val.biasRow (A m c main_arg7) := by
  show StableHlo.after hostOps3 (W7 m ρ c) (Proc.devRef .tc main_v62) = _
  after_results
  rw [arg7_at7]
  rfl

/-- The squared inverse root degrees when region 3 is entered. -/
private theorem v31_at8 (c : Dev nD) : W8 m ρ c (Proc.devRef .tc main_v31) = Val.dinv2 (A m c main_arg1) (A m c main_arg2) :=
  (ThTopo.keep8_v31 m ρ c).trans (ThTopo.dinv23 m ρ c)

/-! ## Region 3: the combine -/

/-- The node table after the second layer, from the first layer's. -/
theorem layer2 (c : Dev nD) (X : FVec Ideal S100000x64 .f32) (hX : W6 m ρ c (Proc.devRef .tc main_v47) = X) :
    W9 m ρ c (Proc.devRef .tc main_v63) = Val.layerRelu (A m c main_arg1) (A m c main_arg2) X (A m c main_arg6) (A m c main_arg7) := by
  have h48 := v48_at7 m ρ c X hX
  refine (W9_arr m ρ c 4).trans ((Comb3.final (V8 m ρ) c).trans ?_)
  show Gcn.combRelu (W8 m ρ c (Proc.devRef .tc main_v61)) (W8 m ρ c (Proc.devRef .tc main_v48))
    (W8 m ρ c (Proc.devRef .tc main_v31)) (W8 m ρ c (Proc.devRef .tc main_v62)) = _
  rw [v61_at8 m ρ c _ h48, v48_at8, h48, v31_at8, v62_at8]
  rfl

end Cert.KernelIdeal.ThLayer2

end
-- ==== Proof.Mm4.lean ====
/- Region 4 (a node table times a weight, 20 row blocks of 5000): the output array after the region is the product of the two arrays the region is entered with. -/
import proofs.«408533_j44195213476076_1_alg».proof.Proof.Gen.KernelIdeal.Frame
import proofs.«408533_j44195213476076_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mm4

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- The zero offsets of a whole-block access, however the zeros are spelt. -/
theorem hz : (![0, 0] : Fin 2 → Nat) = fun _ => 0 :=
  funext fun a => by match a with | ⟨0, _⟩ => rfl | ⟨1, _⟩ => rfl

/-- The left operand is read at the output's row -/
theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and the contraction index, -/
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contraction index -/
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and the output's column. -/
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows times the weight, accumulated into zero, at entry (r, j): the sum over k of x(r, k) * w(k, j). -/
theorem matmul_block_apply (a : FVec Ideal S5000x64 .bf16) (b : FVec Ideal S64x64 .bf16) (r : Fin 5000) (j : Fin 64) :
    FloatOps.matmul dot_S5000x64_S64x64_S5000x64_1_0_0_1_n_n none a b (constant (F := Ideal) S5000x64 .f32 0x00000000#32) (ix2 r j)
      = ∑ k : Fin 64, a (ix2 r k) * b (ix2 k j) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (rhs_0 _ _).trans hk
    | ⟨1, _⟩ => exact rhs_1 _ _)
  rw [el, er]

/-- The body's payload at entry (r, j) of its block: the narrowing of the operands is exact, so it is the block product. -/
theorem pay_apply (x0 : Vec Ideal S5000x64 .f32) (x1 : Vec Ideal S64x64 .f32) (r : Fin 5000) (j : Fin 64) :
    k4_pay1 (F := Ideal) x0 x1 (ix2 r j) = ∑ k : Fin 64, x0 (ix2 r k) * x1 (ix2 k j) := by
  unfold k4_pay1
  refine (matmul_block_apply _ _ r j).trans ?_
  refine Finset.sum_congr rfl fun k _ => ?_
  exact congrArg (fun v : Vec Ideal S5000x64 .f32 => v (ix2 r k) * x1 (ix2 k j)) (shapeCast_self x0 _)

/-! ## From the blocks to the array -/

-- the buffer contents the region is entered with
variable (V : (c : Dev nD) → (b : Ref sig .tc) → Buf (Elt Ideal) ((c : Thread nD τ).loc b))

/-- The index maps, decided over the grid's 20 points: the table's and the output's block of point t is row block t, the weight's block is the whole weight. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 20 :=
  (by decide +kernel : ∀ t : Fin grid4.N, _)

/-- What point t writes back is block t of the product of the two arrays the region is entered with. -/
theorem flushed_eq (c : Dev nD) (t : Fin cfg4.N) :
    (dat4 (F := Ideal) V c).flushed 2 t = ((cfg4.win 2).blk t).view.read (Elt Ideal) (Gcn.mm (V c main_v63) (V c main_arg8)) := by
  show (cfg4.win 2).cut (grid4.coords t) ((dat4 (F := Ideal) V c).after 2 t) = _
  rw [after4_2]
  unfold out4_2
  rw [View.canon_unit_zero hz]
  simp only [View.ld_unit_zero (S := S5000x64) hz, View.ld_unit_zero (S := S64x64) hz]
  obtain ⟨e00, e01, e10, e11, e20, e21, ht⟩ := idx_facts t
  funext y
  obtain ⟨p, q, rfl⟩ : ∃ (p : Fin 5000) (q : Fin 64), y = ix2 p q := ⟨y 0, y 1, eq_ix2 y⟩
  show k4_pay1 (iblk4 V c 0 t) (iblk4 V c 1 t) (ix2 p q) = Gcn.mm (V c main_v63) (V c main_arg8) (((cfg4.win 2).blk t).view.emb (ix2 p q))
  refine (pay_apply _ _ p q).trans ?_
  have hrow : ((cfg4.win 2).blk t).view.emb (ix2 p q) = ix2 (⟨t.val * 5000 + p.val, by have := p.isLt; omega⟩ : Fin 100000) q := by
    funext a; apply Fin.ext
    match a with
    | ⟨0, _⟩ => show win4_2.index t (0 : Fin 2) * 5000 + 1 * p.val = t.val * 5000 + p.val; omega
    | ⟨1, _⟩ => show win4_2.index t (1 : Fin 2) * 64 + 1 * q.val = q.val; omega
  rw [hrow, Gcn.mm_ix2]
  unfold Gcn.mmAt
  refine Finset.sum_congr rfl fun k _ => ?_
  have hx : ((cfg4.win 0).blk t).view.emb (ix2 p k) = ix2 (⟨t.val * 5000 + p.val, by have := p.isLt; omega⟩ : Fin 100000) k := by
    funext a; apply Fin.ext
    match a with
    | ⟨0, _⟩ => show win4_0.index t (0 : Fin 2) * 5000 + 1 * p.val = t.val * 5000 + p.val; omega
    | ⟨1, _⟩ => show win4_0.index t (1 : Fin 2) * 64 + 1 * k.val = k.val; omega
  have hw : ((cfg4.win 1).blk t).view.emb (ix2 k q) = ix2 k q := by
    funext a; apply Fin.ext
    match a with
    | ⟨0, _⟩ => show win4_1.index t (0 : Fin 2) * 64 + 1 * k.val = k.val; omega
    | ⟨1, _⟩ => show win4_1.index t (1 : Fin 2) * 64 + 1 * q.val = q.val; omega
  refine congrArg₂ (fun a b : EReal => a * b) ?_ ?_
  · show V c main_v63 (((cfg4.win 0).blk t).view.emb (ix2 p k)) = _
    rw [hx]
  · show V c main_arg8 (((cfg4.win 1).blk t).view.emb (ix2 k q)) = _
    rw [hw]

/-- An index of the array is in point t's block iff each coordinate is in the block's range on its axis. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v64).slice (win4_2.rect t)).set ↔ _
  rw [View.set_slice_whole, Rect.mem_set_unit]
  exact Iff.rfl

/-- Every row of the array is in the block of the point that is its row block: row r in block r / 5000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : (i 0).val / 5000 < cfg4.N := by rw [show cfg4.N = 20 from N_4]; omega
  obtain ⟨e00, e01, e10, e11, e20, e21, ht⟩ := idx_facts ⟨(i 0).val / 5000, hN⟩
  refine ⟨⟨(i 0).val / 5000, hN⟩, flush4_2 _, ?_⟩
  rw [mem_blk]
  intro a
  match a with
  | ⟨0, _⟩ => show win4_2.index ⟨(i 0).val / 5000, hN⟩ (0 : Fin 2) * 5000 ≤ (i 0).val ∧ (i 0).val < win4_2.index ⟨(i 0).val / 5000, hN⟩ (0 : Fin 2) * 5000 + 5000; rw [e20]; show (i 0).val / 5000 * 5000 ≤ (i 0).val ∧ (i 0).val < (i 0).val / 5000 * 5000 + 5000; omega
  | ⟨1, _⟩ => show win4_2.index ⟨(i 0).val / 5000, hN⟩ (1 : Fin 2) * 64 ≤ (i 1).val ∧ (i 1).val < win4_2.index ⟨(i 0).val / 5000, hN⟩ (1 : Fin 2) * 64 + 64; rw [e21]; omega

/-- The output array after the region: entry (r, j) is the sum over k of x(r, k) * w(k, j). -/
theorem final (c : Dev nD) : (dat4 (F := Ideal) V c).arrAt 2 cfg4.N = Gcn.mm (V c main_v63) (V c main_arg8) :=
  (dat4 (F := Ideal) V c).arrAt_eq_of_cover 2 _ (fun t _ => flushed_eq V c t) cover

end Cert.KernelIdeal.Mm4

end
-- ==== Proof.Comb5.lean ====
/- Region 5 (the combine step, 20 row blocks of 5000): the output array after the region is agg + h * d + bias, entry by entry, of the arrays the region is entered with. -/
import proofs.«408533_j44195213476076_1_alg».proof.Proof.Gen.KernelIdeal.Frame
import proofs.«408533_j44195213476076_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Comb5

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with
variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- A column of a rows broadcast to b columns reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at row r, column j of a block: agg + h * d + bias. -/
theorem pay_ix2 (x0 x1 : Vec Ideal S5000x64 .f32) (x2 : Vec Ideal S5000x1 .f32) (x3 : Vec Ideal S1x64 .f32)
    (r : Fin 5000) (j : Fin 64) :
    k5_pay1 x0 x1 x2 x3 (ix2 r j) = x0 (ix2 r j) + x1 (ix2 r j) * x2 (ix2 r 0) + x3 (ix2 0 j) := by
  unfold k5_pay1
  simp only [shapeCast_self]
  rw [addf_apply, addf_apply, mulf_apply, broadcastTo_a1_ab_apply, broadcastTo_1b_ab_apply]

/-- The combination at row R, column q, from the four entries it reads. -/
theorem comb_point (A H : Gcn.SNxH.Idx → EReal) (D : Gcn.SNx1.Idx → EReal) (B : Gcn.S1xH.Idx → EReal)
    (R : Fin 100000) (q : Fin 64) {i0 i1 i4 : Gcn.SNxH.Idx} {i2 : Gcn.SNx1.Idx} {i3 : Gcn.S1xH.Idx}
    (h0 : i0 = ix2 R q) (h1 : i1 = ix2 R q) (h2 : i2 = ix2 R (0 : Fin 1)) (h3 : i3 = ix2 (0 : Fin 1) q) (h4 : i4 = ix2 R q) :
    A i0 + H i1 * D i2 + B i3 = Gcn.comb A H D B i4 := by
  subst h0 h1 h2 h3 h4; rfl

/-- The windows' block indices over the grid: the four row-blocked windows sit at block (t, 0), the bias at block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point t writes back is block t of the combination of the arrays the region is entered with:
    row p of block t is row t * 5000 + p of each row-blocked array, and the bias row is read whole. -/
theorem flushed_eq (c : Dev nD) (t : Fin cfg5.N) :
    (dat5 (F := Ideal) V c).flushed 4 t = ((cfg5.win 4).blk t).view.read (Elt Ideal)
      (Gcn.comb (V c main_v77) (V c main_v64) (V c main_v31) (V c main_v78)) := by
  show (cfg5.win 4).cut (grid5.coords t) ((dat5 (F := Ideal) V c).after 4 t) = _
  rw [after5_4]
  unfold out5_4
  rw [View.canon_unit_zero hz]
  simp only [View.ld_unit_zero (S := S5000x64) hz, View.ld_unit_zero (S := S5000x1) hz, View.ld_unit_zero (S := S1x64) hz]
  funext y
  obtain ⟨p, q, rfl⟩ : ∃ (p : Fin 5000) (q : Fin 64), y = ix2 p q := ⟨y 0, y 1, eq_ix2 y⟩
  refine (pay_ix2 _ _ _ _ p q).trans ?_
  obtain ⟨e00, e01, e10, e11, e20, e21, e30, e31, e40, e41⟩ := idx_facts t
  have ht : t.val < 20 := lt_of_lt_of_eq t.isLt N_5
  have hp : p.val < 5000 := p.isLt
  have h0 : ((cfg5.win 0).blk t).view.emb (ix2 p q) = ix2 (⟨t.val * 5000 + p.val, by omega⟩ : Fin 100000) q := by
    funext a; apply Fin.ext
    match a with
    | ⟨0, _⟩ => show win5_0.index t (0 : Fin 2) * 5000 + 1 * p.val = t.val * 5000 + p.val; omega
    | ⟨1, _⟩ => show win5_0.index t (1 : Fin 2) * 64 + 1 * q.val = q.val; omega
  have h1 : ((cfg5.win 1).blk t).view.emb (ix2 p q) = ix2 (⟨t.val * 5000 + p.val, by omega⟩ : Fin 100000) q := by
    funext a; apply Fin.ext
    match a with
    | ⟨0, _⟩ => show win5_1.index t (0 : Fin 2) * 5000 + 1 * p.val = t.val * 5000 + p.val; omega
    | ⟨1, _⟩ => show win5_1.index t (1 : Fin 2) * 64 + 1 * q.val = q.val; omega
  have h2 : ((cfg5.win 2).blk t).view.emb (ix2 p (0 : Fin 1)) = ix2 (⟨t.val * 5000 + p.val, by omega⟩ : Fin 100000) (0 : Fin 1) := by
    funext a; apply Fin.ext
    match a with
    | ⟨0, _⟩ => show win5_2.index t (0 : Fin 2) * 5000 + 1 * p.val = t.val * 5000 + p.val; omega
    | ⟨1, _⟩ => show win5_2.index t (1 : Fin 2) * 1 + 1 * 0 = 0; omega
  have h3 : ((cfg5.win 3).blk t).view.emb (ix2 (0 : Fin 1) q) = ix2 (0 : Fin 1) q := by
    funext a; apply Fin.ext
    match a with
    | ⟨0, _⟩ => show win5_3.index t (0 : Fin 2) * 1 + 1 * 0 = 0; omega
    | ⟨1, _⟩ => show win5_3.index t (1 : Fin 2) * 64 + 1 * q.val = q.val; omega
  have h4 : ((cfg5.win 4).blk t).view.emb (ix2 p q) = ix2 (⟨t.val * 5000 + p.val, by omega⟩ : Fin 100000) q := by
    funext a; apply Fin.ext
    match a with
    | ⟨0, _⟩ => show win5_4.index t (0 : Fin 2) * 5000 + 1 * p.val = t.val * 5000 + p.val; omega
    | ⟨1, _⟩ => show win5_4.index t (1 : Fin 2) * 64 + 1 * q.val = q.val; omega
  exact comb_point (V c main_v77) (V c main_v64) (V c main_v31) (V c main_v78) ⟨t.val * 5000 + p.val, by omega⟩ q h0 h1 h2 h3 h4

/-- An index of the array is in point t's block iff each coordinate is in the block's range on its axis. -/
theorem mem_blk (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v79).slice (win5_4.rect t)).set ↔ _
  rw [View.set_slice_whole, Rect.mem_set_unit]
  exact Iff.rfl

/-- Every index of the array is in some point's block: row r is in the block of point r / 5000. -/
theorem cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, lt_of_lt_of_eq (by omega : (i 0).val / 5000 < 20) N_5.symm⟩, rfl⟩
  obtain ⟨e00, e01, e10, e11, e20, e21, e30, e31, e40, e41⟩ := idx_facts t
  refine ⟨t, flush5_4 t, ?_⟩
  rw [mem_blk]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 64 ≤ (i 1).val ∧ (i 1).val < win5_4.index t (1 : Fin 2) * 64 + 64
    omega

/-- The output array after the region. -/
theorem final (c : Dev nD) : (dat5 (F := Ideal) V c).arrAt 4 cfg5.N = Gcn.comb (V c main_v77) (V c main_v64) (V c main_v31) (V c main_v78) :=
  (dat5 (F := Ideal) V c).arrAt_eq_of_cover 4 _ (fun t _ => flushed_eq V c t) cover

end Cert.KernelIdeal.Comb5

end
-- ==== Proof.ThLayer3.lean ====
/- The third layer of the kernel's program read through the fold of boundary contents: region 4 (the product), the host stretch after it, region 5 (the combine, not rectified). -/
import proofs.«408533_j44195213476076_1_alg».proof.Proof.Gen.KernelIdeal.Frame
import proofs.«408533_j44195213476076_1_alg».proof.Proof.Spec
import proofs.«408533_j44195213476076_1_alg».proof.Proof.KSpec
import proofs.«408533_j44195213476076_1_alg».proof.Proof.ThTopo
import proofs.«408533_j44195213476076_1_alg».proof.Proof.Mm4
import proofs.«408533_j44195213476076_1_alg».proof.Proof.Comb5
import Idealize.ShloMosaic.Lib.StableHlo.Run

noncomputable section

namespace Cert.KernelIdeal.ThLayer3

open Cert.KernelIdeal Cert.KernelIdeal.Gen Idealize.ShloMosaic Idealize.ShloMosaic.TcCoe Idealize.SL.Sem Idealize.ShloMosaic.StableHlo

-- the launch memory and generator registers
variable (m : (ℓ : Loc nD τ sig) → Buf (Elt Ideal) ℓ) (ρ : Dev nD → PrngReg)

/-- A buffer's contents at launch. -/
abbrev A (c : Dev nD) (b : Ref sig .tc) : Buf (Elt Ideal) ((c : Thread nD τ).loc b) := m ((c : Thread nD τ).loc b)

/-- A buffer that no operation of a host stretch writes holds after the stretch what it held before it. -/
local macro "unwritten_by " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The third weight when region 4 is entered: nothing before it writes an argument. -/
private theorem w_at9 (c : Dev nD) : W9 m ρ c (Proc.devRef .tc main_arg8) = A m c main_arg8 :=
  calc W9 m ρ c (Proc.devRef .tc main_arg8)
    _ = W8 m ρ c (Proc.devRef .tc main_arg8) := W9_of_ne m ρ c main_arg8 (by decide)
    _ = W7 m ρ c (Proc.devRef .tc main_arg8) := by unwritten_by hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by unwritten_by hostOps1
    _ = W3 m ρ c (Proc.devRef .tc main_arg8) := W4_of_ne m ρ c main_arg8 (by decide)
    _ = W2 m ρ c (Proc.devRef .tc main_arg8) := by unwritten_by hostOps0_2
    _ = W1 m ρ c (Proc.devRef .tc main_arg8) := by unwritten_by hostOps0_1
    _ = W0 m ρ c (Proc.devRef .tc main_arg8) := by unwritten_by hostOps0
    _ = A m c main_arg8 := rfl

/-- The third bias after region 4: nothing before that boundary writes an argument. -/
private theorem b_at10 (c : Dev nD) : W10 m ρ c (Proc.devRef .tc main_arg9) = A m c main_arg9 :=
  calc W10 m ρ c (Proc.devRef .tc main_arg9)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by unwritten_by hostOps3
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by unwritten_by hostOps1
    _ = W3 m ρ c (Proc.devRef .tc main_arg9) := W4_of_ne m ρ c main_arg9 (by decide)
    _ = W2 m ρ c (Proc.devRef .tc main_arg9) := by unwritten_by hostOps0_2
    _ = W1 m ρ c (Proc.devRef .tc main_arg9) := by unwritten_by hostOps0_1
    _ = W0 m ρ c (Proc.devRef .tc main_arg9) := by unwritten_by hostOps0
    _ = A m c main_arg9 := rfl

/-- The product region's output: the second layer's node table times the third weight. -/
private theorem h_at10 (c : Dev nD) (X : FVec Ideal S100000x64 .f32) (hX : W9 m ρ c (Proc.devRef .tc main_v63) = X) :
    W10 m ρ c (Proc.devRef .tc main_v64) = Gcn.mm X (A m c main_arg8) := by
  refine (W10_arr m ρ c 2).trans ((Mm4.final (V9 m ρ) c).trans ?_)
  show Gcn.mm (W9 m ρ c (Proc.devRef .tc main_v63)) (W9 m ρ c (Proc.devRef .tc main_arg8)) = _
  rw [hX, w_at9 m ρ c]

/-- The host stretch after the product leaves the product alone. -/
private theorem h_at11 (c : Dev nD) : W11 m ρ c (Proc.devRef .tc main_v64) = W10 m ρ c (Proc.devRef .tc main_v64) := by
  unwritten_by hostOps5

/-- The bias row when the combine region is entered. -/
private theorem bias_at11 (c : Dev nD) : W11 m ρ c (Proc.devRef .tc main_v78) = Val.biasRow (A m c main_arg9) := by
  show StableHlo.after hostOps5 (W10 m ρ c) (Proc.devRef .tc main_v78) = _
  after_results
  rw [b_at10 m ρ c]
  rfl

/-- The aggregated messages when the combine region is entered, from the product as the host stretch finds it. -/
private theorem agg_at11 (c : Dev nD) :
    W11 m ρ c (Proc.devRef .tc main_v77) =
      Val.agg (A m c main_arg1) (A m c main_arg2) (W10 m ρ c (Proc.devRef .tc main_v64)) := by
  show StableHlo.after hostOps5 (W10 m ρ c) (Proc.devRef .tc main_v77) = _
  after_results_simp
  rw [ThTopo.keep10_v1 m ρ c, ThTopo.keep10_v3 m ρ c, ThTopo.keep10_v29 m ρ c,
    ThTopo.row3 m ρ c, ThTopo.col3 m ρ c, ThTopo.norm3 m ρ c]
  rfl

/-- The squared inverse root degrees when the combine region is entered. -/
private theorem d_at11 (c : Dev nD) :
    W11 m ρ c (Proc.devRef .tc main_v31) = Val.dinv2 (A m c main_arg1) (A m c main_arg2) :=
  (ThTopo.keep11_v31 m ρ c).trans (ThTopo.dinv23 m ρ c)

/-- The node table after the third layer, from the second layer's. -/
theorem layer3 (c : Dev nD) (X : FVec Ideal S100000x64 .f32) (hX : W9 m ρ c (Proc.devRef .tc main_v63) = X) :
    W12 m ρ c (Proc.devRef .tc main_v79) = Val.layer (A m c main_arg1) (A m c main_arg2) X (A m c main_arg8) (A m c main_arg9) := by
  refine (W12_arr m ρ c 4).trans ((Comb5.final (V11 m ρ) c).trans ?_)
  show Gcn.comb (W11 m ρ c (Proc.devRef .tc main_v77)) (W11 m ρ c (Proc.devRef .tc main_v64))
      (W11 m ρ c (Proc.devRef .tc main_v31)) (W11 m ρ c (Proc.devRef .tc main_v78)) = _
  rw [agg_at11 m ρ c, h_at11 m ρ c, h_at10 m ρ c X hX, d_at11 m ρ c, bias_at11 m ρ c]
  rfl

end Cert.KernelIdeal.ThLayer3

end
-- ==== Proof.Pool6.lean ====
/- Region 6 (pooling, 20 row blocks of 5000 accumulated into one 64 x 64 block and one 64 x 1 block): after the region the two output arrays hold the per-graph sums and counts of the node table the region is entered with.
   The first point resets both blocks to zero and adds its block's share; every later point adds its share to what
   the point before left. A block's share of entry (g, k) is the sum over its 5000 rows of onehot(r, g) * h(r, k), the
   one-hot entry being one where row r's graph id, read signed, is g and zero elsewhere; zero and one times any
   extended real are zero and the real itself, so the share is the sum of the rows of graph g. The twenty shares
   regroup into the sum over all 100000 rows through r = 5000 t + r'. -/
import proofs.«408533_j44195213476076_1_alg».proof.Proof.Gen.KernelIdeal.Frame
import proofs.«408533_j44195213476076_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pool6

open Cert.KernelIdeal Cert.KernelIdeal.Gen Idealize.ShloMosaic Idealize.ShloMosaic.TcCoe Idealize.SL.Sem
open Idealize.ShloMosaic.ValueIdx
open Idealize.ShloMosaic.Pipeline (Dat)

/-! ## What each control case leaves in the two output blocks -/

section Pieces

variable {F : FTy → Type} [FloatOps F]

theorem hz : (![0, 0] : Fin 2 → Nat) = fun _ => 0 := funext fun a => by fin_cases a <;> rfl

/-- At the first point the sums block is reset to zero, read back, and the block's share added. -/
theorem out_A_2 (c : Dev nD) (i : grid6.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (a4 : Memref sig .tc .vmem S64x1 .f32) (h4 : a4.IsWhole) (hc : cond6_0 i)
    (x0 : Vec F S5000x64 .f32) (x1 : Vec F S5000x1 .i32) :
    out6_A_2 c i a1 h1 a2 h2 a3 h3 a4 h4 hc x0 x1 = k6_pay4 x0 x1 (k6_pay1 (F := F)) := by
  unfold out6_A_2
  rw [View.read_writes_eq_canon _ _ _ (cover6_A_2 c i a1 h1 a2 h2 a3 h3 a4 h4 hc x0 x1)]
  unfold kernelRun6_A
  dsimp only
  sl_unfold_words
  rw [View.canon_cons_unit_zero (S := S64x64) hz, View.readCov_unit_zero (S := S64x64) _ hz]
  simp only [View.readAt_eq_ld, h1.read_unread, h2.read_unread, View.ld_unit_zero (S := S5000x64) hz,
    View.ld_unit_zero (S := S5000x1) hz]

/-- At the first point the counts block is reset to zero, read back, and the block's share added. -/
theorem out_A_3 (c : Dev nD) (i : grid6.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (a4 : Memref sig .tc .vmem S64x1 .f32) (h4 : a4.IsWhole) (hc : cond6_0 i)
    (x0 : Vec F S5000x64 .f32) (x1 : Vec F S5000x1 .i32) :
    out6_A_3 c i a1 h1 a2 h2 a3 h3 a4 h4 hc x0 x1 = k6_pay5 x1 (k6_pay2 (F := F)) := by
  unfold out6_A_3
  rw [View.read_writes_eq_canon _ _ _ (cover6_A_3 c i a1 h1 a2 h2 a3 h3 a4 h4 hc x0 x1)]
  unfold kernelRun6_A
  dsimp only
  sl_unfold_words
  rw [View.canon_cons_unit_zero (S := S64x1) hz, View.readCov_unit_zero (S := S64x1) _ hz]
  simp only [View.readAt_eq_ld, h1.read_unread, h2.read_unread, View.ld_unit_zero (S := S5000x64) hz,
    View.ld_unit_zero (S := S5000x1) hz]

/-- At every later point the sums block is what the point before left plus the block's share. -/
theorem out_B_2 (c : Dev nD) (i : grid6.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (a4 : Memref sig .tc .vmem S64x1 .f32) (h4 : a4.IsWhole) (hc : ¬cond6_0 i)
    (x0 : Vec F S5000x64 .f32) (x1 : Vec F S5000x1 .i32) (xo2 : Vec F S64x64 .f32) (xo3 : Vec F S64x1 .f32) :
    out6_B_2 c i a1 h1 a2 h2 a3 h3 a4 h4 hc x0 x1 xo2 xo3 = k6_pay4 x0 x1 xo2 := by
  unfold out6_B_2
  rw [View.read_writes_eq_canon _ _ _ (cover6_B_2 c i a1 h1 a2 h2 a3 h3 a4 h4 hc x0 x1 xo2 xo3)]
  unfold kernelRun6_B
  dsimp only
  sl_unfold_words
  rw [View.canon_unit_zero hz]
  simp only [View.readAt_eq_ld, h1.read_unread, h2.read_unread, h3.read_unread, View.ld_unit_zero (S := S5000x64) hz,
    View.ld_unit_zero (S := S5000x1) hz, View.ld_unit_zero (S := S64x64) hz]

/-- At every later point the counts block is what the point before left plus the block's share. -/
theorem out_B_3 (c : Dev nD) (i : grid6.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (a4 : Memref sig .tc .vmem S64x1 .f32) (h4 : a4.IsWhole) (hc : ¬cond6_0 i)
    (x0 : Vec F S5000x64 .f32) (x1 : Vec F S5000x1 .i32) (xo2 : Vec F S64x64 .f32) (xo3 : Vec F S64x1 .f32) :
    out6_B_3 c i a1 h1 a2 h2 a3 h3 a4 h4 hc x0 x1 xo2 xo3 = k6_pay5 x1 xo3 := by
  unfold out6_B_3
  rw [View.read_writes_eq_canon _ _ _ (cover6_B_3 c i a1 h1 a2 h2 a3 h3 a4 h4 hc x0 x1 xo2 xo3)]
  unfold kernelRun6_B
  dsimp only
  sl_unfold_words
  rw [View.canon_unit_zero hz]
  simp only [View.readAt_eq_ld, h1.read_unread, h2.read_unread, h4.read_unread, View.ld_unit_zero (S := S5000x64) hz,
    View.ld_unit_zero (S := S5000x1) hz, View.ld_unit_zero (S := S64x1) hz]

end Pieces

/-! ## The payloads read at an index, over the extended reals -/

/-- A column number below 64, as a 32-bit word read signed, is itself. -/
theorem toInt_col : ∀ g : Fin 64, (BitVec.ofNat 32 g.val).toInt = (g.val : ℤ) := by decide

/-- A word read signed is the column number exactly when it is that column's word. -/
theorem toInt_eq_col_iff (b : BitVec 32) (g : Fin 64) : b.toInt = (g.val : ℤ) ↔ b = BitVec.ofNat 32 g.val := by
  rw [← toInt_col g, BitVec.toInt_inj]

/-- The widened comparison of a word with a column number, converted: one where they agree, zero elsewhere. -/
theorem onehot_val (b : BitVec 32) (g : Fin 64) :
    (FloatOps.sitofp (F := Ideal) .f32 ((IntOp.cmpi .eq b (BitVec.ofNat 32 g.val)).setWidth 32) : EReal)
      = if b.toInt = (g.val : ℤ) then 1 else 0 := by
  by_cases h : b = BitVec.ofNat 32 g.val
  · rw [if_pos ((toInt_eq_col_iff b g).mpr h)]
    have e : (IntOp.cmpi .eq b (BitVec.ofNat 32 g.val)).setWidth 32 = 1#32 := by
      subst h; simp [IntOp.cmpi]
    rw [e]
    show (((1#32 : BitVec 32).toInt : ℝ) : EReal) = 1
    simp
  · rw [if_neg (fun e => h ((toInt_eq_col_iff b g).mp e))]
    have e : (IntOp.cmpi .eq b (BitVec.ofNat 32 g.val)).setWidth 32 = 0#32 := by
      have hb : (b == BitVec.ofNat 32 g.val) = false := beq_eq_false_iff_ne.mpr h
      simp [IntOp.cmpi, hb]
    rw [e]
    show (((0#32 : BitVec 32).toInt : ℝ) : EReal) = 0
    simp

/-- The one-hot block: entry (r, g) is one where row r's graph id is g, zero elsewhere. -/
theorem onehot_apply (v6 : Vec Ideal S5000x1 .i32) (r : Fin 5000) (g : Fin 64) :
    k6_pay3 (F := Ideal) v6 (ix2 r g) = if (v6 (ix2 r 0)).toInt = (g.val : ℤ) then 1 else 0 := by
  unfold k6_pay3
  refine Eq.trans ?_ (onehot_val (v6 (ix2 r 0)) g)
  show FloatOps.sitofp (F := Ideal) .f32 ((IntOp.cmpi .eq (broadcastTo S5000x64 (shapeCast S5000x1 v6 shapeCasts_S5000x1_S5000x1) broadcasts_S5000x1_S5000x64 (ix2 r g))
      (iota .tc S5000x64 32 [1] iota_S5000x64_d1_w32 (ix2 r g))).setWidth 32) = _
  rw [iota_single_apply, shapeCast_self]
  rw [broadcastTo_apply v6 broadcasts_S5000x1_S5000x64 (ix2 r g) (ix2 r 0) (fun a => by
    match a with
    | ⟨0, _⟩ => rfl
    | ⟨1, _⟩ => rfl)]

/-- One block's share of the sums: the rows of the block whose graph id is g, feature k. -/
def blockS (h : S5000x64.Idx → EReal) (ids : S5000x1.Idx → BitVec 32) (g k : Fin 64) : EReal :=
  ∑ r : Fin 5000, (if (ids (ix2 r 0)).toInt = (g.val : ℤ) then h (ix2 r k) else 0)

/-- One block's share of the counts: the number of rows of the block whose graph id is g. -/
def blockC (ids : S5000x1.Idx → BitVec 32) (g : Fin 64) : EReal :=
  ∑ r : Fin 5000, (if (ids (ix2 r 0)).toInt = (g.val : ℤ) then (1 : EReal) else 0)

abbrev dotS := dot_S5000x64_S5000x64_S64x64_0_0_1_1_n_n
abbrev dotC := dot_S5000x64_S5000x1_S64x1_0_0_1_1_n_n

theorem dotS_lhs1 (j : S64x64.Idx) (q : dotS.contr.Idx) : (dotS.lhsIdx j q 1).val = (j 0).val := by
  unfold DotDims.lhsIdx
  rw [dif_neg (show ¬(1 : Fin S5000x64.rank) ∈ dotS.lhsBatch by decide), dif_pos (show (1 : Fin S5000x64.rank) ∈ dotS.lhsNonContracting by decide)]
  rfl

theorem dotS_rhs1 (j : S64x64.Idx) (q : dotS.contr.Idx) : (dotS.rhsIdx j q 1).val = (j 1).val := by
  unfold DotDims.rhsIdx
  rw [dif_neg (show ¬(1 : Fin S5000x64.rank) ∈ dotS.rhsBatch by decide), dif_pos (show (1 : Fin S5000x64.rank) ∈ dotS.rhsNonContracting by decide)]
  rfl

/-- The sums' product contracts the rows: at entry (g, k) and row r the one-hot block is read at (r, g) -/
theorem dotS_lhs (g k : Fin 64) (r : Fin 5000) :
    dotS.lhsIdx (ix2 g k) ((contrEquiv1 dotS 5000 rfl rfl).symm r) = ix2 r g := funext fun a => Fin.ext (by
  have hk := contrEquiv1_symm_val dotS 5000 rfl rfl r
  match a with
  | ⟨0, _⟩ => exact (dotS.lhsIdx_val_of_single rfl _ _).trans hk
  | ⟨1, _⟩ => exact dotS_lhs1 _ _)

/-- and the node block at (r, k). -/
theorem dotS_rhs (g k : Fin 64) (r : Fin 5000) :
    dotS.rhsIdx (ix2 g k) ((contrEquiv1 dotS 5000 rfl rfl).symm r) = ix2 r k := funext fun a => Fin.ext (by
  have hk := contrEquiv1_symm_val dotS 5000 rfl rfl r
  match a with
  | ⟨0, _⟩ => exact (dotS.rhsIdx_val_of_single rfl _ _).trans hk
  | ⟨1, _⟩ => exact dotS_rhs1 _ _)

/-- The accumulated sums block: entry (g, k) is what was there plus the block's share. -/
theorem pay4_apply (x0 : Vec Ideal S5000x64 .f32) (x1 : Vec Ideal S5000x1 .i32) (xo : Vec Ideal S64x64 .f32) (g k : Fin 64) :
    k6_pay4 (F := Ideal) x0 x1 xo (ix2 g k) = xo (ix2 g k) + blockS x0 x1 g k := by
  unfold k6_pay4
  simp only [matmul]
  rw [addf_apply, shapeCast_self, Ideal.matmul_constant_zero_apply,
    ← Equiv.sum_comp (contrEquiv1 dotS 5000 rfl rfl).symm]
  refine congrArg (xo (ix2 g k) + ·) (Finset.sum_congr rfl fun r _ => ?_)
  rw [dotS_lhs, dotS_rhs, onehot_apply, truncf_apply, shapeCast_self]
  split
  · exact one_mul _
  · exact zero_mul _

theorem dotC_lhs1 (j : S64x1.Idx) (q : dotC.contr.Idx) : (dotC.lhsIdx j q 1).val = (j 0).val := by
  unfold DotDims.lhsIdx
  rw [dif_neg (show ¬(1 : Fin S5000x64.rank) ∈ dotC.lhsBatch by decide), dif_pos (show (1 : Fin S5000x64.rank) ∈ dotC.lhsNonContracting by decide)]
  rfl

/-- The counts' product contracts the rows too: at entry g and row r the one-hot block is read at (r, g). -/
theorem dotC_lhs (g : Fin 64) (q : Fin 1) (r : Fin 5000) :
    dotC.lhsIdx (ix2 g q) ((contrEquiv1 dotC 5000 rfl rfl).symm r) = ix2 r g := funext fun a => Fin.ext (by
  have hk := contrEquiv1_symm_val dotC 5000 rfl rfl r
  match a with
  | ⟨0, _⟩ => exact (dotC.lhsIdx_val_of_single rfl _ _).trans hk
  | ⟨1, _⟩ => exact dotC_lhs1 _ _)

/-- The bf16 word of 1.0 is the extended real one. -/
theorem one_bf16 : (Scalar.ofBits (F := Ideal) .bf16 0x3F80#16 : EReal) = 1 :=
  IdealRules.sign_bit.ideal_onePat .bf16

/-- The accumulated counts block: entry g is what was there plus the block's share. -/
theorem pay5_apply (x1 : Vec Ideal S5000x1 .i32) (xo : Vec Ideal S64x1 .f32) (g : Fin 64) (q : Fin 1) :
    k6_pay5 (F := Ideal) x1 xo (ix2 g q) = xo (ix2 g q) + blockC x1 g := by
  unfold k6_pay5
  simp only [matmul]
  rw [addf_apply, shapeCast_self, Ideal.matmul_constant_zero_apply,
    ← Equiv.sum_comp (contrEquiv1 dotC 5000 rfl rfl).symm]
  refine congrArg (xo (ix2 g q) + ·) (Finset.sum_congr rfl fun r _ => ?_)
  rw [dotC_lhs, onehot_apply, broadcast_apply, one_bf16]
  split
  · exact one_mul _
  · exact zero_mul _

/-- The reset blocks are zero. -/
theorem pay1_apply (i : S64x64.Idx) : k6_pay1 (F := Ideal) i = 0 := Ideal.ofBits_zero_f32
theorem pay2_apply (i : S64x1.Idx) : k6_pay2 (F := Ideal) i = 0 := Ideal.ofBits_zero_f32

/-! ## Regrouping the rows -/

/-- Row 5000 t + r' of the table is row r' of block t: the rows are the pairs (block, row in the block). -/
def rowEquiv : Fin 20 × Fin 5000 ≃ Fin 100000 where
  toFun p := ⟨5000 * p.1.val + p.2.val, by have := p.1.isLt; have := p.2.isLt; omega⟩
  invFun r := (⟨r.val / 5000, by have := r.isLt; omega⟩, ⟨r.val % 5000, by omega⟩)
  left_inv p := by
    have h1 := p.1.isLt; have h2 := p.2.isLt
    refine Prod.ext (Fin.ext ?_) (Fin.ext ?_)
    · show (5000 * p.1.val + p.2.val) / 5000 = p.1.val; omega
    · show (5000 * p.1.val + p.2.val) % 5000 = p.2.val; omega
  right_inv r := by
    refine Fin.ext ?_
    show 5000 * (r.val / 5000) + r.val % 5000 = r.val; omega

/-- A sum over the 100000 rows is the sum over the twenty blocks of the sums over each block's 5000 rows. -/
theorem sum_rows_blocks (f : Fin 100000 → EReal) :
    ∑ r : Fin 100000, f r
      = ∑ t : Fin 20, ∑ r' : Fin 5000, f ⟨5000 * t.val + r'.val, by have := t.isLt; have := r'.isLt; omega⟩ := by
  rw [← Equiv.sum_comp rowEquiv f, Fintype.sum_prod_type]
  rfl

/-! ## The region -/

-- the buffer contents the region is entered with
variable (V : (c : Dev nD) → (b : Ref sig .tc) → Buf (Elt Ideal) ((c : Thread nD τ).loc b))

/-- The node block and the graph-id block the region reads at point t. -/
abbrev hblk (c : Dev nD) (t : Fin cfg6.N) : Vec Ideal S5000x64 .f32 := iblk6 V c 0 t
abbrev idblk (c : Dev nD) (t : Fin cfg6.N) : Vec Ideal S5000x1 .i32 := iblk6 V c 1 t

/-- Block t of either input starts at row 5000 t, column 0. -/
theorem idx6_0 : ∀ t : Fin cfg6.N, win6_0.index t 0 = t.val ∧ win6_0.index t 1 = 0 :=
  (by decide +kernel : ∀ t : Fin grid6.N, win6_0.index t 0 = t.val ∧ win6_0.index t 1 = 0)
theorem idx6_1 : ∀ t : Fin cfg6.N, win6_1.index t 0 = t.val ∧ win6_1.index t 1 = 0 :=
  (by decide +kernel : ∀ t : Fin grid6.N, win6_1.index t 0 = t.val ∧ win6_1.index t 1 = 0)

theorem row_lt (t : Fin cfg6.N) (r : Fin 5000) : 5000 * t.val + r.val < 100000 := by
  have := lt_of_lt_of_eq t.isLt (show cfg6.N = 20 from N_6); have := r.isLt; omega

/-- Row r of the node block at point t is row 5000 t + r of the node table. -/
theorem hblk_apply (c : Dev nD) (t : Fin cfg6.N) (r : Fin 5000) (k : Fin 64) :
    hblk V c t (ix2 r k) = V c main_v79 (ix2 ⟨5000 * t.val + r.val, row_lt t r⟩ k) := by
  have hi := idx6_0 t
  show iblk6 V c 0 t (ix2 r k) = _
  unfold iblk6
  rw [View.read_apply]
  show V c main_v79 _ = V c main_v79 _
  congr 1
  funext a
  apply Fin.ext
  match a with
  | ⟨0, _⟩ => show win6_0.index t 0 * 5000 + 1 * r.val = 5000 * t.val + r.val; rw [hi.1]; omega
  | ⟨1, _⟩ => show win6_0.index t 1 * 64 + 1 * k.val = k.val; rw [hi.2]; omega

/-- Row r of the graph-id block at point t is row 5000 t + r of the graph ids. -/
theorem idblk_apply (c : Dev nD) (t : Fin cfg6.N) (r : Fin 5000) (q : Fin 1) :
    idblk V c t (ix2 r q) = V c main_v80 (ix2 ⟨5000 * t.val + r.val, row_lt t r⟩ q) := by
  have hi := idx6_1 t
  show iblk6 V c 1 t (ix2 r q) = _
  unfold iblk6
  rw [View.read_apply]
  show V c main_v80 _ = V c main_v80 _
  congr 1
  funext a
  apply Fin.ext
  match a with
  | ⟨0, _⟩ => show win6_1.index t 0 * 5000 + 1 * r.val = 5000 * t.val + r.val; rw [hi.1]; omega
  | ⟨1, _⟩ => show win6_1.index t 1 * 1 + 1 * q.val = q.val; rw [hi.2]; omega

/-- The first point leaves the first block's share. -/
theorem stepS_A (c : Dev nD) (t : Fin cfg6.N) (h0 : t.val % 20 = 0) (g k : Fin 64) :
    (outsAt6 V c t.val t.isLt).1 (ix2 g k) = blockS (hblk V c t) (idblk V c t) g k := by
  rw [outsAt6_A V c t h0]
  dsimp only
  refine (congrFun (out_A_2 (F := Ideal) c (grid6.coords t) (ms6_0 t) (hs6_0 t) (ms6_1 t) (hs6_1 t) (ms6_2 t) (hs6_2 t)
    (ms6_3 t) (hs6_3 t) ((hcond6_0 t).mpr h0) (hblk V c t) (idblk V c t)) (ix2 g k)).trans ?_
  rw [pay4_apply, pay1_apply, zero_add]

theorem stepC_A (c : Dev nD) (t : Fin cfg6.N) (h0 : t.val % 20 = 0) (g : Fin 64) (q : Fin 1) :
    (outsAt6 V c t.val t.isLt).2 (ix2 g q) = blockC (idblk V c t) g := by
  rw [outsAt6_A V c t h0]
  dsimp only
  refine (congrFun (out_A_3 (F := Ideal) c (grid6.coords t) (ms6_0 t) (hs6_0 t) (ms6_1 t) (hs6_1 t) (ms6_2 t) (hs6_2 t)
    (ms6_3 t) (hs6_3 t) ((hcond6_0 t).mpr h0) (hblk V c t) (idblk V c t)) (ix2 g q)).trans ?_
  rw [pay5_apply, pay2_apply, zero_add]

/-- Every later point adds its block's share to what the point before left. -/
theorem stepS_B (c : Dev nD) (t : Fin cfg6.N) (h0 : ¬t.val % 20 = 0) (g k : Fin 64) :
    (outsAt6 V c t.val t.isLt).1 (ix2 g k)
      = (outsAt6 V c (t.val - 1) (Nat.lt_of_le_of_lt (Nat.sub_le _ _) t.isLt)).1 (ix2 g k)
        + blockS (hblk V c t) (idblk V c t) g k := by
  rw [outsAt6_B V c t h0]
  dsimp only
  refine (congrFun (out_B_2 (F := Ideal) c (grid6.coords t) (ms6_0 t) (hs6_0 t) (ms6_1 t) (hs6_1 t) (ms6_2 t) (hs6_2 t)
    (ms6_3 t) (hs6_3 t) (fun h => h0 ((hcond6_0 t).mp h)) (hblk V c t) (idblk V c t)
    (outsAt6 V c (t.val - 1) (Nat.lt_of_le_of_lt (Nat.sub_le _ _) t.isLt)).1
    (outsAt6 V c (t.val - 1) (Nat.lt_of_le_of_lt (Nat.sub_le _ _) t.isLt)).2) (ix2 g k)).trans ?_
  rw [pay4_apply]

theorem stepC_B (c : Dev nD) (t : Fin cfg6.N) (h0 : ¬t.val % 20 = 0) (g : Fin 64) (q : Fin 1) :
    (outsAt6 V c t.val t.isLt).2 (ix2 g q)
      = (outsAt6 V c (t.val - 1) (Nat.lt_of_le_of_lt (Nat.sub_le _ _) t.isLt)).2 (ix2 g q)
        + blockC (idblk V c t) g := by
  rw [outsAt6_B V c t h0]
  dsimp only
  refine (congrFun (out_B_3 (F := Ideal) c (grid6.coords t) (ms6_0 t) (hs6_0 t) (ms6_1 t) (hs6_1 t) (ms6_2 t) (hs6_2 t)
    (ms6_3 t) (hs6_3 t) (fun h => h0 ((hcond6_0 t).mp h)) (hblk V c t) (idblk V c t)
    (outsAt6 V c (t.val - 1) (Nat.lt_of_le_of_lt (Nat.sub_le _ _) t.isLt)).1
    (outsAt6 V c (t.val - 1) (Nat.lt_of_le_of_lt (Nat.sub_le _ _) t.isLt)).2) (ix2 g q)).trans ?_
  rw [pay5_apply]

/-- After point n the sums block holds the shares of blocks 0 .. n. -/
theorem invS (c : Dev nD) (g k : Fin 64) : ∀ (n : ℕ) (hn : n < cfg6.N),
    (outsAt6 V c n hn).1 (ix2 g k)
      = ∑ t : Fin (n + 1), blockS (hblk V c ⟨t.val, Nat.lt_of_lt_of_le t.isLt hn⟩) (idblk V c ⟨t.val, Nat.lt_of_lt_of_le t.isLt hn⟩) g k
  | 0, hn => by
    rw [stepS_A V c ⟨0, hn⟩ (Nat.zero_mod _) g k, Fin.sum_univ_one]
    rfl
  | n + 1, hn => by
    have hN : cfg6.N = 20 := N_6
    have hB : ¬(⟨n + 1, hn⟩ : Fin cfg6.N).val % 20 = 0 := by dsimp only; omega
    rw [stepS_B V c ⟨n + 1, hn⟩ hB g k, Fin.sum_univ_castSucc]
    exact congrArg₂ (· + ·) (invS c g k n (Nat.lt_of_succ_lt hn)) rfl

/-- After point n the counts block holds the shares of blocks 0 .. n. -/
theorem invC (c : Dev nD) (g : Fin 64) (q : Fin 1) : ∀ (n : ℕ) (hn : n < cfg6.N),
    (outsAt6 V c n hn).2 (ix2 g q)
      = ∑ t : Fin (n + 1), blockC (idblk V c ⟨t.val, Nat.lt_of_lt_of_le t.isLt hn⟩) g
  | 0, hn => by
    rw [stepC_A V c ⟨0, hn⟩ (Nat.zero_mod _) g q, Fin.sum_univ_one]
    rfl
  | n + 1, hn => by
    have hN : cfg6.N = 20 := N_6
    have hB : ¬(⟨n + 1, hn⟩ : Fin cfg6.N).val % 20 = 0 := by dsimp only; omega
    rw [stepC_B V c ⟨n + 1, hn⟩ hB g q, Fin.sum_univ_castSucc]
    exact congrArg₂ (· + ·) (invC c g q n (Nat.lt_of_succ_lt hn)) rfl

theorem lt19 : 19 < cfg6.N := by rw [show cfg6.N = 20 from N_6]; decide

/-- The last point. -/
abbrev t19 : Fin cfg6.N := ⟨19, lt19⟩

/-- After the last point the sums block holds the per-graph sums of the whole node table. -/
theorem lastS (c : Dev nD) : (outsAt6 V c 19 lt19).1 = Gcn.poolS (V c main_v79) (V c main_v80) := by
  funext j
  obtain ⟨g, k, rfl⟩ : ∃ (g : Fin 64) (k : Fin 64), j = ix2 g k := ⟨j 0, j 1, eq_ix2 j⟩
  rw [invS V c g k 19 lt19, Gcn.poolS_ix2]
  unfold Gcn.poolSAt
  rw [sum_rows_blocks]
  refine Finset.sum_congr rfl fun t _ => ?_
  unfold blockS
  refine Finset.sum_congr rfl fun r _ => ?_
  rw [hblk_apply, idblk_apply]

/-- After the last point the counts block holds the per-graph row counts. -/
theorem lastC (c : Dev nD) : (outsAt6 V c 19 lt19).2 = Gcn.poolC (V c main_v80) := by
  funext j
  obtain ⟨g, q, rfl⟩ : ∃ (g : Fin 64) (q : Fin 1), j = ix2 g q := ⟨j 0, j 1, eq_ix2 j⟩
  rw [invC V c g q 19 lt19, Gcn.poolC_ix2]
  unfold Gcn.poolCAt
  rw [sum_rows_blocks]
  refine Finset.sum_congr rfl fun t _ => ?_
  unfold blockC
  refine Finset.sum_congr rfl fun r _ => ?_
  rw [idblk_apply]

/-- The one write-back of the sums, after the last point: the block is the whole array. -/
theorem flushedS (c : Dev nD) (t : Fin cfg6.N) (hf : (cfg6.win 2).flush t = true) :
    (dat6 (F := Ideal) V c).flushed 2 t
      = ((cfg6.win 2).blk t).view.read (Elt Ideal) (Gcn.poolS (V c main_v79) (V c main_v80)) := by
  have hN : cfg6.N = 20 := N_6
  have h19 : t.val = 19 := by have := (flush6_2 t).mp hf; have := t.isLt; omega
  obtain rfl : t = t19 := Fin.ext h19
  have e : (dat6 (F := Ideal) V c).after 2 t19 = Gcn.poolS (V c main_v79) (V c main_v80) :=
    (after6_2 V c t19).trans (lastS V c)
  show (cfg6.win 2).cut (grid6.coords t19) ((dat6 V c).after 2 t19) = _
  rw [e]
  have hz' : (fun a => win6_2.index t19 a * main_v81_0.ty.shape.size a) = fun _ => 0 :=
    funext fun a => by fin_cases a <;> decide
  exact (Memref.read_access_unit_zero (Elt Ideal) main_v81_0 hz' (fun a => by rw [congrFun hz' a]; simp)
    (Gcn.poolS (V c main_v79) (V c main_v80))).symm

/-- The one write-back of the counts, after the last point: the block is the whole array. -/
theorem flushedC (c : Dev nD) (t : Fin cfg6.N) (hf : (cfg6.win 3).flush t = true) :
    (dat6 (F := Ideal) V c).flushed 3 t
      = ((cfg6.win 3).blk t).view.read (Elt Ideal) (Gcn.poolC (V c main_v80)) := by
  have hN : cfg6.N = 20 := N_6
  have h19 : t.val = 19 := by have := (flush6_3 t).mp hf; have := t.isLt; omega
  obtain rfl : t = t19 := Fin.ext h19
  have e : (dat6 (F := Ideal) V c).after 3 t19 = Gcn.poolC (V c main_v80) :=
    (after6_3 V c t19).trans (lastC V c)
  show (cfg6.win 3).cut (grid6.coords t19) ((dat6 V c).after 3 t19) = _
  rw [e]
  have hz' : (fun a => win6_3.index t19 a * main_v81_1.ty.shape.size a) = fun _ => 0 :=
    funext fun a => by fin_cases a <;> decide
  exact (Memref.read_access_unit_zero (Elt Ideal) main_v81_1 hz' (fun a => by rw [congrFun hz' a]; simp)
    (Gcn.poolC (V c main_v80))).symm

/-- The sums: entry (g, k) is the sum over the rows of graph g of feature k. -/
theorem finalS (c : Dev nD) : (dat6 (F := Ideal) V c).arrAt 2 cfg6.N = Gcn.poolS (V c main_v79) (V c main_v80) :=
  (dat6 (F := Ideal) V c).arrAt_eq_of_cover 2 (Gcn.poolS (V c main_v79) (V c main_v80)) (flushedS V c) fun i =>
    ⟨t19, (flush6_2 t19).mpr rfl, by
      show i ∈ ((View.whole main_v81_0).slice (win6_2.rect t19)).set
      rw [View.set_slice_whole, Rect.mem_set_unit]
      intro a
      have h0 : (i 0 : Nat) < 64 := (i 0).isLt
      have h1 : (i 1 : Nat) < 64 := (i 1).isLt
      match a with
      | ⟨0, _⟩ =>
        show win6_2.index t19 0 * win6_2.size 0 ≤ (i 0 : Nat)
          ∧ (i 0 : Nat) < win6_2.index t19 0 * win6_2.size 0 + win6_2.xsize (grid6.coords t19) 0
        rw [show win6_2.index t19 0 * win6_2.size 0 = 0 from by decide +kernel,
          show win6_2.xsize (grid6.coords t19) 0 = 64 from by decide +kernel]
        omega
      | ⟨1, _⟩ =>
        show win6_2.index t19 1 * win6_2.size 1 ≤ (i 1 : Nat)
          ∧ (i 1 : Nat) < win6_2.index t19 1 * win6_2.size 1 + win6_2.xsize (grid6.coords t19) 1
        rw [show win6_2.index t19 1 * win6_2.size 1 = 0 from by decide +kernel,
          show win6_2.xsize (grid6.coords t19) 1 = 64 from by decide +kernel]
        omega⟩

/-- The counts: entry g is the number of rows of graph g. -/
theorem finalC (c : Dev nD) : (dat6 (F := Ideal) V c).arrAt 3 cfg6.N = Gcn.poolC (V c main_v80) :=
  (dat6 (F := Ideal) V c).arrAt_eq_of_cover 3 (Gcn.poolC (V c main_v80)) (flushedC V c) fun i =>
    ⟨t19, (flush6_3 t19).mpr rfl, by
      show i ∈ ((View.whole main_v81_1).slice (win6_3.rect t19)).set
      rw [View.set_slice_whole, Rect.mem_set_unit]
      intro a
      have h0 : (i 0 : Nat) < 64 := (i 0).isLt
      have h1 : (i 1 : Nat) < 1 := (i 1).isLt
      match a with
      | ⟨0, _⟩ =>
        show win6_3.index t19 0 * win6_3.size 0 ≤ (i 0 : Nat)
          ∧ (i 0 : Nat) < win6_3.index t19 0 * win6_3.size 0 + win6_3.xsize (grid6.coords t19) 0
        rw [show win6_3.index t19 0 * win6_3.size 0 = 0 from by decide +kernel,
          show win6_3.xsize (grid6.coords t19) 0 = 64 from by decide +kernel]
        omega
      | ⟨1, _⟩ =>
        show win6_3.index t19 1 * win6_3.size 1 ≤ (i 1 : Nat)
          ∧ (i 1 : Nat) < win6_3.index t19 1 * win6_3.size 1 + win6_3.xsize (grid6.coords t19) 1
        rw [show win6_3.index t19 1 * win6_3.size 1 = 0 from by decide +kernel,
          show win6_3.xsize (grid6.coords t19) 1 = 1 from by decide +kernel]
        omega⟩

end Cert.KernelIdeal.Pool6

end
-- ==== Proof.Head7.lean ====
/- Region 7 (the head, one grid point, every block its whole array): the output array after the region is the head of the arrays the region is entered with. -/
import proofs.«408533_j44195213476076_1_alg».proof.Proof.Gen.KernelIdeal.Frame
import proofs.«408533_j44195213476076_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Head7

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with
variable (V : (c : Dev nD) → (b : Ref sig .tc) → Buf (Elt Ideal) ((c : Thread nD τ).loc b))

/-! ## The three products read at an index -/

/-- First product, left factor: its row coordinate is the output's row. -/
theorem lhs_dot_S64x64_S64x32_0 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl
/-- First product, left factor: its column coordinate is the summation index. -/
theorem lhs_dot_S64x64_S64x32_1 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q
/-- First product, right factor: its row coordinate is the summation index. -/
theorem rhs_dot_S64x64_S64x32_0 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q
/-- First product, right factor: its column coordinate is the output's column. -/
theorem rhs_dot_S64x64_S64x32_1 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

/-- The first product into a zero accumulator, entry (g, j): the sum over k of a(g, k) * w(k, j). -/
theorem prod1_at (a : FVec Ideal S64x64 .bf16) (w : FVec Ideal S64x32 .bf16) (g : Fin 64) (j : Fin 32) :
    matmul dot_S64x64_S64x32_S64x32_1_0_0_1_n_n none a w (constant (F := Ideal) S64x32 .f32 0x00000000#32) (ix2 g j)
      = ∑ k : Fin 64, a (ix2 g k) * w (ix2 k j) := by
  simp only [matmul]
  rw [Ideal.matmul_constant_zero_apply, ← Equiv.sum_comp (ValueIdx.contrEquiv1 dot_S64x64_S64x32_S64x32_1_0_0_1_n_n 64 rfl rfl).symm]
  refine Finset.sum_congr rfl fun k _ => ?_
  have hk := ValueIdx.contrEquiv1_symm_val dot_S64x64_S64x32_S64x32_1_0_0_1_n_n 64 rfl rfl k
  have el : dot_S64x64_S64x32_S64x32_1_0_0_1_n_n.lhsIdx (ix2 g j) ((ValueIdx.contrEquiv1 dot_S64x64_S64x32_S64x32_1_0_0_1_n_n 64 rfl rfl).symm k) = ix2 g k := funext fun ax => Fin.ext (by
    match ax with
    | ⟨0, _⟩ => exact lhs_dot_S64x64_S64x32_0 _ _
    | ⟨1, _⟩ => exact (lhs_dot_S64x64_S64x32_1 _ _).trans hk)
  have er : dot_S64x64_S64x32_S64x32_1_0_0_1_n_n.rhsIdx (ix2 g j) ((ValueIdx.contrEquiv1 dot_S64x64_S64x32_S64x32_1_0_0_1_n_n 64 rfl rfl).symm k) = ix2 k j := funext fun ax => Fin.ext (by
    match ax with
    | ⟨0, _⟩ => exact (rhs_dot_S64x64_S64x32_0 _ _).trans hk
    | ⟨1, _⟩ => exact rhs_dot_S64x64_S64x32_1 _ _)
  rw [el, er]

/-- Second product, left factor: its row coordinate is the output's row. -/
theorem lhs_dot_S64x32_S32x1_0 (i : S64x1.Idx) (q : dot_S64x32_S32x1_S64x1_1_0_0_1_n_n.contr.Idx) :
    (dot_S64x32_S32x1_S64x1_1_0_0_1_n_n.lhsIdx i q 0).val = (i 0).val := by
  unfold DotDims.lhsIdx
  rw [dif_neg (show ¬(0 : Fin S64x32.rank) ∈ dot_S64x32_S32x1_S64x1_1_0_0_1_n_n.lhsBatch by decide), dif_pos (show (0 : Fin S64x32.rank) ∈ dot_S64x32_S32x1_S64x1_1_0_0_1_n_n.lhsNonContracting by decide)]
  rfl
/-- Second product, left factor: its column coordinate is the summation index. -/
theorem lhs_dot_S64x32_S32x1_1 (i : S64x1.Idx) (q : dot_S64x32_S32x1_S64x1_1_0_0_1_n_n.contr.Idx) :
    (dot_S64x32_S32x1_S64x1_1_0_0_1_n_n.lhsIdx i q 1).val = (q ⟨0, by decide⟩).val :=
  dot_S64x32_S32x1_S64x1_1_0_0_1_n_n.lhsIdx_val_of_single rfl i q
/-- Second product, right factor: its row coordinate is the summation index. -/
theorem rhs_dot_S64x32_S32x1_0 (i : S64x1.Idx) (q : dot_S64x32_S32x1_S64x1_1_0_0_1_n_n.contr.Idx) :
    (dot_S64x32_S32x1_S64x1_1_0_0_1_n_n.rhsIdx i q 0).val = (q ⟨0, by decide⟩).val :=
  dot_S64x32_S32x1_S64x1_1_0_0_1_n_n.rhsIdx_val_of_single rfl i q
/-- Second product, right factor: its column coordinate is the output's column. -/
theorem rhs_dot_S64x32_S32x1_1 (i : S64x1.Idx) (q : dot_S64x32_S32x1_S64x1_1_0_0_1_n_n.contr.Idx) :
    (dot_S64x32_S32x1_S64x1_1_0_0_1_n_n.rhsIdx i q 1).val = (i 1).val := by
  unfold DotDims.rhsIdx
  rw [dif_neg (show ¬(1 : Fin S32x1.rank) ∈ dot_S64x32_S32x1_S64x1_1_0_0_1_n_n.rhsBatch by decide), dif_pos (show (1 : Fin S32x1.rank) ∈ dot_S64x32_S32x1_S64x1_1_0_0_1_n_n.rhsNonContracting by decide)]
  rfl

/-- The second product into a zero accumulator, entry (g, j): the sum over k of a(g, k) * w(k, j). -/
theorem prod2_at (a : FVec Ideal S64x32 .bf16) (w : FVec Ideal S32x1 .bf16) (g : Fin 64) (j : Fin 1) :
    matmul dot_S64x32_S32x1_S64x1_1_0_0_1_n_n none a w (constant (F := Ideal) S64x1 .f32 0x00000000#32) (ix2 g j)
      = ∑ k : Fin 32, a (ix2 g k) * w (ix2 k j) := by
  simp only [matmul]
  rw [Ideal.matmul_constant_zero_apply, ← Equiv.sum_comp (ValueIdx.contrEquiv1 dot_S64x32_S32x1_S64x1_1_0_0_1_n_n 32 rfl rfl).symm]
  refine Finset.sum_congr rfl fun k _ => ?_
  have hk := ValueIdx.contrEquiv1_symm_val dot_S64x32_S32x1_S64x1_1_0_0_1_n_n 32 rfl rfl k
  have el : dot_S64x32_S32x1_S64x1_1_0_0_1_n_n.lhsIdx (ix2 g j) ((ValueIdx.contrEquiv1 dot_S64x32_S32x1_S64x1_1_0_0_1_n_n 32 rfl rfl).symm k) = ix2 g k := funext fun ax => Fin.ext (by
    match ax with
    | ⟨0, _⟩ => exact lhs_dot_S64x32_S32x1_0 _ _
    | ⟨1, _⟩ => exact (lhs_dot_S64x32_S32x1_1 _ _).trans hk)
  have er : dot_S64x32_S32x1_S64x1_1_0_0_1_n_n.rhsIdx (ix2 g j) ((ValueIdx.contrEquiv1 dot_S64x32_S32x1_S64x1_1_0_0_1_n_n 32 rfl rfl).symm k) = ix2 k j := funext fun ax => Fin.ext (by
    match ax with
    | ⟨0, _⟩ => exact (rhs_dot_S64x32_S32x1_0 _ _).trans hk
    | ⟨1, _⟩ => exact rhs_dot_S64x32_S32x1_1 _ _)
  rw [el, er]

/-- Third product, left factor: its row coordinate is the output's row. -/
theorem lhs_dot_S64x1_S1x1_0 (i : S64x1.Idx) (q : dot_S64x1_S1x1_S64x1_1_0_0_1_n_n.contr.Idx) :
    (dot_S64x1_S1x1_S64x1_1_0_0_1_n_n.lhsIdx i q 0).val = (i 0).val := by
  unfold DotDims.lhsIdx
  rw [dif_neg (show ¬(0 : Fin S64x1.rank) ∈ dot_S64x1_S1x1_S64x1_1_0_0_1_n_n.lhsBatch by decide), dif_pos (show (0 : Fin S64x1.rank) ∈ dot_S64x1_S1x1_S64x1_1_0_0_1_n_n.lhsNonContracting by decide)]
  rfl
/-- Third product, left factor: its column coordinate is the summation index. -/
theorem lhs_dot_S64x1_S1x1_1 (i : S64x1.Idx) (q : dot_S64x1_S1x1_S64x1_1_0_0_1_n_n.contr.Idx) :
    (dot_S64x1_S1x1_S64x1_1_0_0_1_n_n.lhsIdx i q 1).val = (q ⟨0, by decide⟩).val :=
  dot_S64x1_S1x1_S64x1_1_0_0_1_n_n.lhsIdx_val_of_single rfl i q
/-- Third product, right factor: its row coordinate is the summation index. -/
theorem rhs_dot_S64x1_S1x1_0 (i : S64x1.Idx) (q : dot_S64x1_S1x1_S64x1_1_0_0_1_n_n.contr.Idx) :
    (dot_S64x1_S1x1_S64x1_1_0_0_1_n_n.rhsIdx i q 0).val = (q ⟨0, by decide⟩).val :=
  dot_S64x1_S1x1_S64x1_1_0_0_1_n_n.rhsIdx_val_of_single rfl i q
/-- Third product, right factor: its column coordinate is the output's column. -/
theorem rhs_dot_S64x1_S1x1_1 (i : S64x1.Idx) (q : dot_S64x1_S1x1_S64x1_1_0_0_1_n_n.contr.Idx) :
    (dot_S64x1_S1x1_S64x1_1_0_0_1_n_n.rhsIdx i q 1).val = (i 1).val := by
  unfold DotDims.rhsIdx
  rw [dif_neg (show ¬(1 : Fin S1x1.rank) ∈ dot_S64x1_S1x1_S64x1_1_0_0_1_n_n.rhsBatch by decide), dif_pos (show (1 : Fin S1x1.rank) ∈ dot_S64x1_S1x1_S64x1_1_0_0_1_n_n.rhsNonContracting by decide)]
  rfl

/-- The third product into a zero accumulator, entry (g, j): the sum over k of a(g, k) * w(k, j). -/
theorem prod3_at (a : FVec Ideal S64x1 .bf16) (w : FVec Ideal S1x1 .bf16) (g : Fin 64) (j : Fin 1) :
    matmul dot_S64x1_S1x1_S64x1_1_0_0_1_n_n none a w (constant (F := Ideal) S64x1 .f32 0x00000000#32) (ix2 g j)
      = ∑ k : Fin 1, a (ix2 g k) * w (ix2 k j) := by
  simp only [matmul]
  rw [Ideal.matmul_constant_zero_apply, ← Equiv.sum_comp (ValueIdx.contrEquiv1 dot_S64x1_S1x1_S64x1_1_0_0_1_n_n 1 rfl rfl).symm]
  refine Finset.sum_congr rfl fun k _ => ?_
  have hk := ValueIdx.contrEquiv1_symm_val dot_S64x1_S1x1_S64x1_1_0_0_1_n_n 1 rfl rfl k
  have el : dot_S64x1_S1x1_S64x1_1_0_0_1_n_n.lhsIdx (ix2 g j) ((ValueIdx.contrEquiv1 dot_S64x1_S1x1_S64x1_1_0_0_1_n_n 1 rfl rfl).symm k) = ix2 g k := funext fun ax => Fin.ext (by
    match ax with
    | ⟨0, _⟩ => exact lhs_dot_S64x1_S1x1_0 _ _
    | ⟨1, _⟩ => exact (lhs_dot_S64x1_S1x1_1 _ _).trans hk)
  have er : dot_S64x1_S1x1_S64x1_1_0_0_1_n_n.rhsIdx (ix2 g j) ((ValueIdx.contrEquiv1 dot_S64x1_S1x1_S64x1_1_0_0_1_n_n 1 rfl rfl).symm k) = ix2 k j := funext fun ax => Fin.ext (by
    match ax with
    | ⟨0, _⟩ => exact (rhs_dot_S64x1_S1x1_0 _ _).trans hk
    | ⟨1, _⟩ => exact rhs_dot_S64x1_S1x1_1 _ _)
  rw [el, er]

/-! ## One column broadcast over many -/

/-- An [a, 1] array broadcast to [a, b] reads, at (p, c), the operand's row p at its one column. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stages of the head, each as one array -/

/-- The sums divided by the counts floored at one: the mean row of each graph. -/
theorem mean_eq (x0 : Vec Ideal S64x64 .f32) (x1 : Vec Ideal S64x1 .f32) :
    (divf (shapeCast S64x64 x0 shapeCasts_S64x64_S64x64)
        (broadcastTo S64x64 (maximumf (shapeCast S64x1 x1 shapeCasts_S64x1_S64x1) (broadcast S64x1 (Scalar.ofBits (F := Ideal) .f32 0x3F800000#32))) broadcasts_S64x1_S64x64) : FVec Ideal S64x64 .f32)
      = Gcn.gmean x0 x1 := by
  funext i
  obtain ⟨g, k, rfl⟩ : ∃ (g : Fin 64) (k : Fin 64), i = ix2 g k := ⟨i 0, i 1, eq_ix2 i⟩
  rw [Gcn.gmean_ix2, divf_apply, shapeCast_self, shapeCast_self, broadcastTo_a1_ab_apply]
  rfl

/-- The first dense layer: product, bias row, rectifier. -/
theorem fc1_eq (a : FVec Ideal S64x64 .f32) (x2 : Vec Ideal S64x32 .f32) (x3 : Vec Ideal S1x32 .f32) :
    (maximumf (addf (matmul dot_S64x64_S64x32_S64x32_1_0_0_1_n_n none (truncf .bf16 a bitsLt_bf16_f32) (truncf .bf16 x2 bitsLt_bf16_f32) (constant (F := Ideal) S64x32 .f32 0x00000000#32))
          (broadcastTo S64x32 (shapeCast S1x32 x3 shapeCasts_S1x32_S1x32) broadcasts_S1x32_S64x32))
        (broadcast S64x32 (Scalar.ofBits (F := Ideal) .f32 0x00000000#32)) : FVec Ideal S64x32 .f32)
      = Gcn.fc1 a x2 x3 := by
  funext i
  obtain ⟨g, j, rfl⟩ : ∃ (g : Fin 64) (j : Fin 32), i = ix2 g j := ⟨i 0, i 1, eq_ix2 i⟩
  rw [Gcn.fc1_ix2, maximumf_apply, addf_apply, prod1_at, broadcastTo_1b_ab_apply, shapeCast_self]
  rfl

/-- The second dense layer: product and bias. -/
theorem fc2_eq (a : FVec Ideal S64x32 .f32) (x4 : Vec Ideal S32x1 .f32) (x5 : Vec Ideal S1x1 .f32) :
    (addf (matmul dot_S64x32_S32x1_S64x1_1_0_0_1_n_n none (truncf .bf16 a bitsLt_bf16_f32) (truncf .bf16 x4 bitsLt_bf16_f32) (constant (F := Ideal) S64x1 .f32 0x00000000#32))
        (broadcastTo S64x1 (shapeCast S1x1 x5 shapeCasts_S1x1_S1x1) broadcasts_S1x1_S64x1) : FVec Ideal S64x1 .f32)
      = Gcn.fc2 a x4 x5 := by
  funext i
  obtain ⟨g, q, rfl⟩ : ∃ (g : Fin 64) (q : Fin 1), i = ix2 g q := ⟨i 0, i 1, eq_ix2 i⟩
  rw [Gcn.fc2_ix2, addf_apply, prod2_at, broadcastTo_1b_ab_apply, shapeCast_self]
  rfl

/-- The output layer: product and bias. -/
theorem outl_eq (a : FVec Ideal S64x1 .f32) (x6 : Vec Ideal S1x1 .f32) (x7 : Vec Ideal S1x1 .f32) :
    (addf (matmul dot_S64x1_S1x1_S64x1_1_0_0_1_n_n none (truncf .bf16 a bitsLt_bf16_f32) (truncf .bf16 x6 bitsLt_bf16_f32) (constant (F := Ideal) S64x1 .f32 0x00000000#32))
        (broadcastTo S64x1 (shapeCast S1x1 x7 shapeCasts_S1x1_S1x1) broadcasts_S1x1_S64x1) : FVec Ideal S64x1 .f32)
      = Gcn.outl a x6 x7 := by
  funext i
  obtain ⟨g, q, rfl⟩ : ∃ (g : Fin 64) (q : Fin 1), i = ix2 g q := ⟨i 0, i 1, eq_ix2 i⟩
  rw [Gcn.outl_ix2, addf_apply, prod3_at, broadcastTo_1b_ab_apply, shapeCast_self]
  rfl

/-- The body's stored value is the head of the blocks it loads. -/
theorem pay_eq (x0 : Vec Ideal S64x64 .f32) (x1 : Vec Ideal S64x1 .f32) (x2 : Vec Ideal S64x32 .f32) (x3 : Vec Ideal S1x32 .f32)
    (x4 : Vec Ideal S32x1 .f32) (x5 : Vec Ideal S1x1 .f32) (x6 : Vec Ideal S1x1 .f32) (x7 : Vec Ideal S1x1 .f32) :
    k7_pay1 (F := Ideal) x0 x1 x2 x3 x4 x5 x6 x7 = Gcn.head x0 x1 x2 x3 x4 x5 x6 x7 := by
  unfold k7_pay1 Gcn.head
  dsimp only
  rw [mean_eq, fc1_eq, fc2_eq, outl_eq]

/-! ## From the one block to the array -/

/-- The zero offsets of a whole-block access, as a constant function. -/
theorem zero_off : (![0, 0] : Fin 2 → Nat) = fun _ => 0 := funext fun a => by fin_cases a <;> rfl

/-- Every window's block at the one grid point sits at the origin of its array. -/
theorem origin : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0 :=
  (by decide +kernel : ∀ t : Fin grid7.N, _)

/-- Window 0's one block is its whole array. -/
theorem blk0 (c : Dev nD) (t : Fin cfg7.N) : (iblk7 (F := Ideal) V c 0 t : Vec Ideal S64x64 .f32) = V c main_v81_0 := by
  funext y
  show V c main_v81_0 (((cfg7.win 0).blk t).view.emb y) = V c main_v81_0 y
  refine congrArg (V c main_v81_0) ?_
  have e0 : win7_0.index t (0 : Fin 2) = 0 := (origin t).1
  have e1 : win7_0.index t (1 : Fin 2) = 0 := (origin t).2.1
  funext a; apply Fin.ext
  match a with
  | ⟨0, _⟩ => show win7_0.index t (0 : Fin 2) * 64 + 1 * (y 0).val = (y 0).val; omega
  | ⟨1, _⟩ => show win7_0.index t (1 : Fin 2) * 64 + 1 * (y 1).val = (y 1).val; omega

/-- Window 1's one block is its whole array. -/
theorem blk1 (c : Dev nD) (t : Fin cfg7.N) : (iblk7 (F := Ideal) V c 1 t : Vec Ideal S64x1 .f32) = V c main_v81_1 := by
  funext y
  show V c main_v81_1 (((cfg7.win 1).blk t).view.emb y) = V c main_v81_1 y
  refine congrArg (V c main_v81_1) ?_
  have e0 : win7_1.index t (0 : Fin 2) = 0 := (origin t).2.2.1
  have e1 : win7_1.index t (1 : Fin 2) = 0 := (origin t).2.2.2.1
  funext a; apply Fin.ext
  match a with
  | ⟨0, _⟩ => show win7_1.index t (0 : Fin 2) * 64 + 1 * (y 0).val = (y 0).val; omega
  | ⟨1, _⟩ => show win7_1.index t (1 : Fin 2) * 1 + 1 * (y 1).val = (y 1).val; omega

/-- Window 2's one block is its whole array. -/
theorem blk2 (c : Dev nD) (t : Fin cfg7.N) : (iblk7 (F := Ideal) V c 2 t : Vec Ideal S64x32 .f32) = V c main_arg10 := by
  funext y
  show V c main_arg10 (((cfg7.win 2).blk t).view.emb y) = V c main_arg10 y
  refine congrArg (V c main_arg10) ?_
  have e0 : win7_2.index t (0 : Fin 2) = 0 := (origin t).2.2.2.2.1
  have e1 : win7_2.index t (1 : Fin 2) = 0 := (origin t).2.2.2.2.2.1
  funext a; apply Fin.ext
  match a with
  | ⟨0, _⟩ => show win7_2.index t (0 : Fin 2) * 64 + 1 * (y 0).val = (y 0).val; omega
  | ⟨1, _⟩ => show win7_2.index t (1 : Fin 2) * 32 + 1 * (y 1).val = (y 1).val; omega

/-- Window 3's one block is its whole array. -/
theorem blk3 (c : Dev nD) (t : Fin cfg7.N) : (iblk7 (F := Ideal) V c 3 t : Vec Ideal S1x32 .f32) = V c main_v82 := by
  funext y
  show V c main_v82 (((cfg7.win 3).blk t).view.emb y) = V c main_v82 y
  refine congrArg (V c main_v82) ?_
  have e0 : win7_3.index t (0 : Fin 2) = 0 := (origin t).2.2.2.2.2.2.1
  have e1 : win7_3.index t (1 : Fin 2) = 0 := (origin t).2.2.2.2.2.2.2.1
  funext a; apply Fin.ext
  match a with
  | ⟨0, _⟩ => show win7_3.index t (0 : Fin 2) * 1 + 1 * (y 0).val = (y 0).val; omega
  | ⟨1, _⟩ => show win7_3.index t (1 : Fin 2) * 32 + 1 * (y 1).val = (y 1).val; omega

/-- Window 4's one block is its whole array. -/
theorem blk4 (c : Dev nD) (t : Fin cfg7.N) : (iblk7 (F := Ideal) V c 4 t : Vec Ideal S32x1 .f32) = V c main_arg12 := by
  funext y
  show V c main_arg12 (((cfg7.win 4).blk t).view.emb y) = V c main_arg12 y
  refine congrArg (V c main_arg12) ?_
  have e0 : win7_4.index t (0 : Fin 2) = 0 := (origin t).2.2.2.2.2.2.2.2.1
  have e1 : win7_4.index t (1 : Fin 2) = 0 := (origin t).2.2.2.2.2.2.2.2.2.1
  funext a; apply Fin.ext
  match a with
  | ⟨0, _⟩ => show win7_4.index t (0 : Fin 2) * 32 + 1 * (y 0).val = (y 0).val; omega
  | ⟨1, _⟩ => show win7_4.index t (1 : Fin 2) * 1 + 1 * (y 1).val = (y 1).val; omega

/-- Window 5's one block is its whole array. -/
theorem blk5 (c : Dev nD) (t : Fin cfg7.N) : (iblk7 (F := Ideal) V c 5 t : Vec Ideal S1x1 .f32) = V c main_v83 := by
  funext y
  show V c main_v83 (((cfg7.win 5).blk t).view.emb y) = V c main_v83 y
  refine congrArg (V c main_v83) ?_
  have e0 : win7_5.index t (0 : Fin 2) = 0 := (origin t).2.2.2.2.2.2.2.2.2.2.1
  have e1 : win7_5.index t (1 : Fin 2) = 0 := (origin t).2.2.2.2.2.2.2.2.2.2.2.1
  funext a; apply Fin.ext
  match a with
  | ⟨0, _⟩ => show win7_5.index t (0 : Fin 2) * 1 + 1 * (y 0).val = (y 0).val; omega
  | ⟨1, _⟩ => show win7_5.index t (1 : Fin 2) * 1 + 1 * (y 1).val = (y 1).val; omega

/-- Window 6's one block is its whole array. -/
theorem blk6 (c : Dev nD) (t : Fin cfg7.N) : (iblk7 (F := Ideal) V c 6 t : Vec Ideal S1x1 .f32) = V c main_arg14 := by
  funext y
  show V c main_arg14 (((cfg7.win 6).blk t).view.emb y) = V c main_arg14 y
  refine congrArg (V c main_arg14) ?_
  have e0 : win7_6.index t (0 : Fin 2) = 0 := (origin t).2.2.2.2.2.2.2.2.2.2.2.2.1
  have e1 : win7_6.index t (1 : Fin 2) = 0 := (origin t).2.2.2.2.2.2.2.2.2.2.2.2.2.1
  funext a; apply Fin.ext
  match a with
  | ⟨0, _⟩ => show win7_6.index t (0 : Fin 2) * 1 + 1 * (y 0).val = (y 0).val; omega
  | ⟨1, _⟩ => show win7_6.index t (1 : Fin 2) * 1 + 1 * (y 1).val = (y 1).val; omega

/-- Window 7's one block is its whole array. -/
theorem blk7 (c : Dev nD) (t : Fin cfg7.N) : (iblk7 (F := Ideal) V c 7 t : Vec Ideal S1x1 .f32) = V c main_v84 := by
  funext y
  show V c main_v84 (((cfg7.win 7).blk t).view.emb y) = V c main_v84 y
  refine congrArg (V c main_v84) ?_
  have e0 : win7_7.index t (0 : Fin 2) = 0 := (origin t).2.2.2.2.2.2.2.2.2.2.2.2.2.2.1
  have e1 : win7_7.index t (1 : Fin 2) = 0 := (origin t).2.2.2.2.2.2.2.2.2.2.2.2.2.2.2.1
  funext a; apply Fin.ext
  match a with
  | ⟨0, _⟩ => show win7_7.index t (0 : Fin 2) * 1 + 1 * (y 0).val = (y 0).val; omega
  | ⟨1, _⟩ => show win7_7.index t (1 : Fin 2) * 1 + 1 * (y 1).val = (y 1).val; omega

/-- Through the output window's one block, cutting a block's contents and reading an array are the same. -/
theorem cut_eq_read (t : Fin cfg7.N) (H : Vec Ideal S64x1 .f32) :
    (cfg7.win 8).cut (grid7.coords t) H = ((cfg7.win 8).blk t).view.read (Elt Ideal) H := by
  have e0 : win7_8.index t (0 : Fin 2) = 0 := (origin t).2.2.2.2.2.2.2.2.2.2.2.2.2.2.2.2.1
  have e1 : win7_8.index t (1 : Fin 2) = 0 := (origin t).2.2.2.2.2.2.2.2.2.2.2.2.2.2.2.2.2
  funext y
  show H ((cfg7.win 8).xinj (grid7.coords t) y) = H (((cfg7.win 8).blk t).view.emb y)
  refine congrArg H ?_
  funext a; apply Fin.ext
  match a with
  | ⟨0, _⟩ => show (y 0).val = win7_8.index t (0 : Fin 2) * 64 + 1 * (y 0).val; omega
  | ⟨1, _⟩ => show (y 1).val = win7_8.index t (1 : Fin 2) * 1 + 1 * (y 1).val; omega

/-- What the one point writes back is the head of the arrays the region is entered with, read through the output's block. -/
theorem flushed_eq (c : Dev nD) (t : Fin cfg7.N) :
    (dat7 (F := Ideal) V c).flushed 8 t
      = ((cfg7.win 8).blk t).view.read (Elt Ideal) (Gcn.head (V c main_v81_0) (V c main_v81_1) (V c main_arg10) (V c main_v82) (V c main_arg12) (V c main_v83) (V c main_arg14) (V c main_v84)) := by
  show (cfg7.win 8).cut (grid7.coords t) ((dat7 V c).after 8 t) = _
  rw [after7_8]
  unfold out7_8
  rw [View.canon_unit_zero zero_off]
  simp only [View.ld_unit_zero (S := S64x64) zero_off, View.ld_unit_zero (S := S64x1) zero_off, View.ld_unit_zero (S := S64x32) zero_off,
    View.ld_unit_zero (S := S1x32) zero_off, View.ld_unit_zero (S := S32x1) zero_off, View.ld_unit_zero (S := S1x1) zero_off]
  rw [blk0 V c t, blk1 V c t, blk2 V c t, blk3 V c t, blk4 V c t, blk5 V c t, blk6 V c t, blk7 V c t]
  rw [pay_eq (V c main_v81_0) (V c main_v81_1) (V c main_arg10) (V c main_v82) (V c main_arg12) (V c main_v83) (V c main_arg14) (V c main_v84)]
  exact cut_eq_read t (Gcn.head (V c main_v81_0) (V c main_v81_1) (V c main_arg10) (V c main_v82) (V c main_arg12) (V c main_v83) (V c main_arg14) (V c main_v84))

/-- An index of the output array is in the one point's block iff each coordinate is in the block's range on its axis. -/
theorem mem_blk (t : Fin cfg7.N) (i : S64x1.Idx) :
    i ∈ ((cfg7.win 8).blk t).view.set ↔ ∀ a : Fin 2, win7_8.index t a * S64x1.size a ≤ (i a).val ∧ (i a).val < win7_8.index t a * S64x1.size a + S64x1.size a := by
  show i ∈ ((View.whole main_v85).slice (win7_8.rect t)).set ↔ _
  rw [View.set_slice_whole, Rect.mem_set_unit]
  exact Iff.rfl

/-- The one point's block is the whole output array. -/
theorem covered (i : S64x1.Idx) : ∃ t : Fin cfg7.N, (cfg7.win 8).flush t = true ∧ i ∈ ((cfg7.win 8).blk t).view.set := by
  refine ⟨t7_0, flush7_8 t7_0, ?_⟩
  rw [mem_blk]
  have e0 : win7_8.index t7_0 (0 : Fin 2) = 0 := (origin t7_0).2.2.2.2.2.2.2.2.2.2.2.2.2.2.2.2.1
  have e1 : win7_8.index t7_0 (1 : Fin 2) = 0 := (origin t7_0).2.2.2.2.2.2.2.2.2.2.2.2.2.2.2.2.2
  have h0 : (i 0).val < 64 := idx2_lt0 i
  have h1 : (i 1).val < 1 := idx2_lt1 i
  intro a
  match a with
  | ⟨0, _⟩ => show win7_8.index t7_0 (0 : Fin 2) * 64 ≤ (i 0).val ∧ (i 0).val < win7_8.index t7_0 (0 : Fin 2) * 64 + 64; omega
  | ⟨1, _⟩ => show win7_8.index t7_0 (1 : Fin 2) * 1 ≤ (i 1).val ∧ (i 1).val < win7_8.index t7_0 (1 : Fin 2) * 1 + 1; omega

/-- The output array after the region. -/
theorem final (c : Dev nD) : (dat7 (F := Ideal) V c).arrAt 8 cfg7.N
    = Gcn.head (V c main_v81_0) (V c main_v81_1) (V c main_arg10) (V c main_v82) (V c main_arg12) (V c main_v83) (V c main_arg14) (V c main_v84) :=
  (dat7 (F := Ideal) V c).arrAt_eq_of_cover 8 (Gcn.head (V c main_v81_0) (V c main_v81_1) (V c main_arg10) (V c main_v82) (V c main_arg12) (V c main_v83) (V c main_arg14) (V c main_v84))
    (fun t _ => flushed_eq V c t) covered

end Cert.KernelIdeal.Head7

end
-- ==== Proof.ThTail.lean ====
/- The end of the kernel's program read through the fold of boundary contents: the graph ids as a column, region 6 (sums and counts per graph), the three bias reshapes, region 7 (the head). -/
import proofs.«408533_j44195213476076_1_alg».proof.Proof.Gen.KernelIdeal.Frame
import proofs.«408533_j44195213476076_1_alg».proof.Proof.Spec
import proofs.«408533_j44195213476076_1_alg».proof.Proof.KSpec
import proofs.«408533_j44195213476076_1_alg».proof.Proof.Pool6
import proofs.«408533_j44195213476076_1_alg».proof.Proof.Head7
import Idealize.ShloMosaic.Lib.StableHlo.Run

noncomputable section

namespace Cert.KernelIdeal.ThTail

open Cert.KernelIdeal Cert.KernelIdeal.Gen Idealize.ShloMosaic Idealize.ShloMosaic.TcCoe Idealize.SL.Sem Idealize.ShloMosaic.StableHlo

-- the launch memory and generator registers
variable (m : (ℓ : Loc nD τ sig) → Buf (Elt Ideal) ℓ) (ρ : Dev nD → PrngReg)

/-- A buffer's contents at launch. -/
abbrev A (c : Dev nD) (b : Ref sig .tc) : Buf (Elt Ideal) ((c : Thread nD τ).loc b) := m ((c : Thread nD τ).loc b)

/-- A stretch of host operations leaves a buffer that none of them writes as it was. -/
local macro "unwritten_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The arguments at the late boundaries: nothing between the boundary and the end writes them -/

/-- The graph ids before the pooling region's host stretch are the launched ones. -/
theorem ids_at12 (c : Dev nD) : W12 m ρ c (Proc.devRef .tc main_arg3) = A m c main_arg3 :=
  calc W12 m ρ c (Proc.devRef .tc main_arg3)
    _ = W13 m ρ c (Proc.devRef .tc main_arg3) := Eq.symm (by unwritten_by hostOps6)
    _ = W14 m ρ c (Proc.devRef .tc main_arg3) := (W14_of_ne m ρ c main_arg3 (by decide)).symm
    _ = W15 m ρ c (Proc.devRef .tc main_arg3) := Eq.symm (by unwritten_by hostOps7)
    _ = W16 m ρ c (Proc.devRef .tc main_arg3) := (W16_of_ne m ρ c main_arg3 (by decide)).symm
    _ = A m c main_arg3 := W16_main_arg3 m ρ c

/-- The first dense bias before the head's host stretch. -/
theorem fb1_at14 (c : Dev nD) : W14 m ρ c (Proc.devRef .tc main_arg11) = A m c main_arg11 :=
  calc W14 m ρ c (Proc.devRef .tc main_arg11)
    _ = W15 m ρ c (Proc.devRef .tc main_arg11) := Eq.symm (by unwritten_by hostOps7)
    _ = W16 m ρ c (Proc.devRef .tc main_arg11) := (W16_of_ne m ρ c main_arg11 (by decide)).symm
    _ = A m c main_arg11 := W16_main_arg11 m ρ c

/-- The second dense bias before the head's host stretch. -/
theorem fb2_at14 (c : Dev nD) : W14 m ρ c (Proc.devRef .tc main_arg13) = A m c main_arg13 :=
  calc W14 m ρ c (Proc.devRef .tc main_arg13)
    _ = W15 m ρ c (Proc.devRef .tc main_arg13) := Eq.symm (by unwritten_by hostOps7)
    _ = W16 m ρ c (Proc.devRef .tc main_arg13) := (W16_of_ne m ρ c main_arg13 (by decide)).symm
    _ = A m c main_arg13 := W16_main_arg13 m ρ c

/-- The output bias before the head's host stretch. -/
theorem ob_at14 (c : Dev nD) : W14 m ρ c (Proc.devRef .tc main_arg15) = A m c main_arg15 :=
  calc W14 m ρ c (Proc.devRef .tc main_arg15)
    _ = W15 m ρ c (Proc.devRef .tc main_arg15) := Eq.symm (by unwritten_by hostOps7)
    _ = W16 m ρ c (Proc.devRef .tc main_arg15) := (W16_of_ne m ρ c main_arg15 (by decide)).symm
    _ = A m c main_arg15 := W16_main_arg15 m ρ c

/-! ## The pooling region's two entry arrays -/

/-- The node table enters the pooling region as the third layer left it. -/
theorem table_at13 (c : Dev nD) (X : FVec Ideal S100000x64 .f32) (hX : W12 m ρ c (Proc.devRef .tc main_v79) = X) :
    V13 m ρ c main_v79 = X :=
  Eq.trans (by unwritten_by hostOps6) hX

/-- The graph ids enter the pooling region as a column. -/
theorem ids_at13 (c : Dev nD) : V13 m ρ c main_v80 = Val.gid (A m c main_arg3) := by
  show StableHlo.after hostOps6 (W12 m ρ c) (Proc.devRef .tc main_v80) = _
  after_results
  rw [ids_at12 m ρ c]
  rfl

/-! ## The head region's eight entry arrays -/

/-- The per-graph sums. -/
theorem sums_at15 (c : Dev nD) (X : FVec Ideal S100000x64 .f32) (hX : W12 m ρ c (Proc.devRef .tc main_v79) = X) :
    V15 m ρ c main_v81_0 = Gcn.poolS X (Val.gid (A m c main_arg3)) :=
  calc V15 m ρ c main_v81_0
    _ = W14 m ρ c (Proc.devRef .tc main_v81_0) := by unwritten_by hostOps7
    _ = (dat6 (V13 m ρ) c).arrAt 2 cfg6.N := W14_arr m ρ c 2
    _ = Gcn.poolS (V13 m ρ c main_v79) (V13 m ρ c main_v80) := Pool6.finalS (V13 m ρ) c
    _ = Gcn.poolS X (Val.gid (A m c main_arg3)) := by rw [table_at13 m ρ c X hX, ids_at13 m ρ c]

/-- The per-graph counts. -/
theorem counts_at15 (c : Dev nD) : V15 m ρ c main_v81_1 = Gcn.poolC (Val.gid (A m c main_arg3)) :=
  calc V15 m ρ c main_v81_1
    _ = W14 m ρ c (Proc.devRef .tc main_v81_1) := by unwritten_by hostOps7
    _ = (dat6 (V13 m ρ) c).arrAt 3 cfg6.N := W14_arr m ρ c 3
    _ = Gcn.poolC (V13 m ρ c main_v80) := Pool6.finalC (V13 m ρ) c
    _ = Gcn.poolC (Val.gid (A m c main_arg3)) := by rw [ids_at13 m ρ c]

/-- The first dense weight. -/
theorem fw1_at15 (c : Dev nD) : V15 m ρ c main_arg10 = A m c main_arg10 :=
  Eq.trans (Eq.symm ((W16_arr m ρ c 2).trans (((dat7 (V15 m ρ) c).arrAt_in 2 rfl _).trans (A_eq7 (V15 m ρ) c 2))))
    (W16_main_arg10 m ρ c)

/-- The second dense weight. -/
theorem fw2_at15 (c : Dev nD) : V15 m ρ c main_arg12 = A m c main_arg12 :=
  Eq.trans (Eq.symm ((W16_arr m ρ c 4).trans (((dat7 (V15 m ρ) c).arrAt_in 4 rfl _).trans (A_eq7 (V15 m ρ) c 4))))
    (W16_main_arg12 m ρ c)

/-- The output weight. -/
theorem ow_at15 (c : Dev nD) : V15 m ρ c main_arg14 = A m c main_arg14 :=
  Eq.trans (Eq.symm ((W16_arr m ρ c 6).trans (((dat7 (V15 m ρ) c).arrAt_in 6 rfl _).trans (A_eq7 (V15 m ρ) c 6))))
    (W16_main_arg14 m ρ c)

/-- The first dense bias as a one-row table. -/
theorem fb1_at15 (c : Dev nD) : V15 m ρ c main_v82 = shapeCast _ (A m c main_arg11) Facts₀.shapeCasts_S32_S1x32 := by
  show StableHlo.after hostOps7 (W14 m ρ c) (Proc.devRef .tc main_v82) = _
  after_results
  rw [fb1_at14 m ρ c]
  rfl

/-- The second dense bias as a one-entry table. -/
theorem fb2_at15 (c : Dev nD) : V15 m ρ c main_v83 = shapeCast _ (A m c main_arg13) Facts₀.shapeCasts_S1_S1x1 := by
  show StableHlo.after hostOps7 (W14 m ρ c) (Proc.devRef .tc main_v83) = _
  after_results
  rw [fb2_at14 m ρ c]
  rfl

/-- The output bias as a one-entry table. -/
theorem ob_at15 (c : Dev nD) : V15 m ρ c main_v84 = shapeCast _ (A m c main_arg15) Facts₀.shapeCasts_S1_S1x1 := by
  show StableHlo.after hostOps7 (W14 m ρ c) (Proc.devRef .tc main_v84) = _
  after_results
  rw [ob_at14 m ρ c]
  rfl

/-- The result buffer at the last boundary, from the third layer's node table. -/
theorem tail (c : Dev nD) (X : FVec Ideal S100000x64 .f32) (hX : W12 m ρ c (Proc.devRef .tc main_v79) = X) :
    W16 m ρ c (Proc.devRef .tc main_v85)
      = Gcn.head (Gcn.poolS X (Val.gid (A m c main_arg3))) (Gcn.poolC (Val.gid (A m c main_arg3)))
          (A m c main_arg10) (shapeCast _ (A m c main_arg11) Facts₀.shapeCasts_S32_S1x32) (A m c main_arg12)
          (shapeCast _ (A m c main_arg13) Facts₀.shapeCasts_S1_S1x1) (A m c main_arg14) (shapeCast _ (A m c main_arg15) Facts₀.shapeCasts_S1_S1x1) := by
  refine ((W16_arr m ρ c 8).trans (Head7.final (V15 m ρ) c)).trans ?_
  rw [sums_at15 m ρ c X hX, counts_at15 m ρ c, fw1_at15 m ρ c, fb1_at15 m ρ c, fw2_at15 m ρ c, fb2_at15 m ρ c,
    ow_at15 m ρ c, ob_at15 m ρ c]

end Cert.KernelIdeal.ThTail

end
-- ==== Proof.Thread.lean ====
/- The kernel's result buffer at the last boundary of the fold is the common result function of the launch contents of the sixteen arguments: the three layers and the tail, chained. -/
import proofs.«408533_j44195213476076_1_alg».proof.Proof.Gen.KernelIdeal.Frame
import proofs.«408533_j44195213476076_1_alg».proof.Proof.Spec
import proofs.«408533_j44195213476076_1_alg».proof.Proof.KSpec
import proofs.«408533_j44195213476076_1_alg».proof.Proof.ThLayer1
import proofs.«408533_j44195213476076_1_alg».proof.Proof.ThLayer2
import proofs.«408533_j44195213476076_1_alg».proof.Proof.ThLayer3
import proofs.«408533_j44195213476076_1_alg».proof.Proof.ThTail
import Idealize.ShloMosaic.Lib.StableHlo.Run

noncomputable section

namespace Cert.KernelIdeal.Th

open Cert.KernelIdeal Cert.KernelIdeal.Gen Idealize.ShloMosaic Idealize.ShloMosaic.TcCoe Idealize.SL.Sem Idealize.ShloMosaic.StableHlo

-- the launch memory and generator registers
variable (m : (ℓ : Loc nD τ sig) → Buf (Elt Ideal) ℓ) (ρ : Dev nD → PrngReg)

/-- A buffer's contents at launch. -/
abbrev A (c : Dev nD) (b : Ref sig .tc) : Buf (Elt Ideal) ((c : Thread nD τ).loc b) := m ((c : Thread nD τ).loc b)

theorem W16_v85 (c : Dev nD) : W16 m ρ c (Proc.devRef .tc main_v85)
    = Val.G (A m c main_arg0) (A m c main_arg1) (A m c main_arg2) (A m c main_arg3) (A m c main_arg4) (A m c main_arg5) (A m c main_arg6)
        (A m c main_arg7) (A m c main_arg8) (A m c main_arg9) (A m c main_arg10) (A m c main_arg11) (A m c main_arg12) (A m c main_arg13)
        (A m c main_arg14) (A m c main_arg15) := by
  unfold Val.G Val.h3
  exact ThTail.tail m ρ c _ (ThLayer3.layer3 m ρ c _ (ThLayer2.layer2 m ρ c _ (ThLayer1.layer1 m ρ c)))

end Cert.KernelIdeal.Th

end
-- ==== Proof.LibRowOps.lean ====
/-
  Host row operations read at an index, over the extended reals and arbitrary sizes: a scatter-add of E scalars
  into a vector of length N, a scatter-add of E rows into an N x C table, a gather of E rows out of an N x C table,
  and a one-row dynamic slice of an N x C table. A scatter index is read signed and not clamped (an update whose
  index is outside 0..N-1 lands nowhere); a gather or slice start is read signed and clamped into 0..N-1.
-/
import Idealize.ShloMosaic.PureOps.Ideal
import Idealize.ShloMosaic.Lib.ValueIdx

noncomputable section

namespace Cert.LibRowOps

open Idealize.ShloMosaic Idealize.ShloMosaic.ValueIdx

/-- The row a clamped signed start z selects in a table of N rows. -/
def clampRow (N : Nat) (hN : 0 < N) (z : Int) : Fin N := ⟨(min (max z 0) ((N - 1 : Nat) : Int)).toNat, by omega⟩

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- An update lands at operand index i exactly when, on every operand axis, its signed start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

/-- Rank 1, one scatter axis and no window: an update lands at n exactly when its signed index is n. -/
theorem vec_resultIdx?_iff {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at hu hi hs hv
  subst hu hi hs hv
  rw [resultIdx?_eq_some_iff, Fin.forall_fin_one]
  have hstart : (ScatterDims.mk (s := ⟨1, ![N]⟩) (si := ⟨2, ![E, 1]⟩) (u := ⟨1, ![E]⟩) [] [0] [0] 1 wf).start (ix1 e) idx 0
      = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk (s := ⟨1, ![N]⟩) (si := ⟨2, ![E, 1]⟩) (u := ⟨1, ![E]⟩) [] [0] [0] 1 wf).window (ix1 e) 0 = 0 := by
    unfold ScatterDims.window
    rw [dif_neg (by simp [Shape.kept])]
  rw [hstart, hwin]
  simp

/-- E scalars added into a vector of length N at signed, unclamped indices: entry n ends at its old value plus
    the updates whose index is n. -/
theorem scatterAdd_vec_apply {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, (if (idx (ix2 e 0)).toInt = (n.val : ℤ) then upd (ix1 e) else 0) := by
  unfold Ideal.hostScatterAdd
  congr 1
  rw [Finset.sum_filter, sum_idx1]
  refine Finset.sum_congr rfl fun e _ => ?_
  simp only [vec_resultIdx?_iff d hu hi hs hv idx e n]

/-- Rank 2, one scatter axis (the rows) and one window axis (the columns): the update at row e, column f' lands
    at (n, f) exactly when f' = f and row e's signed index is n. -/
theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

/-- E rows added into an N x C table at signed, unclamped row indices. -/
theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

/-- E rows gathered out of an N x C table: row e of the result is the table's row at the clamped signed index. -/
theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

/-- A one-row dynamic slice of an N x C table whose column start is 0: the row at the clamped signed start. -/
theorem dynamicSlice_row_apply {α : Type} {N C : Nat} (hN : 0 < N) (x : (⟨2, ![N, C]⟩ : Shape).Idx → α) (start : Fin 2 → Int)
    (h0 : start 1 = 0) (h : (⟨2, ![N, C]⟩ : Shape).Slices (fun _ => 0) ⟨2, ![1, C]⟩) (f : Fin C) :
    Host.dynamicSlice (s := ⟨2, ![N, C]⟩) ⟨2, ![1, C]⟩ x start h (ix2 0 f) = x (ix2 (clampRow N hN (start 0)) f) := by
  show x _ = x _
  congr 1
  funext a
  refine Fin.ext ?_
  match a with
  | ⟨0, _⟩ =>
    show (min (max (start 0) 0) ((N - 1 : Nat) : Int)).toNat + 0 = (min (max (start 0) 0) ((N - 1 : Nat) : Int)).toNat
    rfl
  | ⟨1, _⟩ =>
    show (min (max (start 1) 0) ((C - C : Nat) : Int)).toNat + f.val = f.val
    rw [h0]; simp

end Cert.LibRowOps

end
-- ==== Proof.RefLayers.lean ====
/- The reference's three layers, stage by stage, are the common layer function: its dot_general is the product, its gather / scale / scatter-add the same host operations, and its broadcasts of the squared inverse root degree and of the bias read the same entries as the column and the one-row table. -/
import proofs.«408533_j44195213476076_1_alg».proof.Proof.Gen.ReferenceIdeal.Read
import proofs.«408533_j44195213476076_1_alg».proof.Proof.KSpec
import proofs.«408533_j44195213476076_1_alg».proof.Proof.LibRowOps

import Idealize.ShloMosaic.Lib.ValueLayout

noncomputable section

namespace Cert.ReferenceIdeal.RefLayers

open Cert.ReferenceIdeal Cert.ReferenceIdeal.Gen Idealize.ShloMosaic Idealize.ShloMosaic.TcCoe Idealize.ShloMosaic.ValueIdx
open Cert.ReferenceIdeal.Read

/-- The host's dot_general of a node table with a 64 x 64 weight is the product: entry (r, j) is the sum over k of
    x (r, k) * w (k, j). -/
theorem dot_eq_mm (x : FVec Ideal S100000x64 .f32) (w : FVec Ideal S64x64 .f32) :
    Host.dotGeneral (F := Ideal) dot_S100000x64_S64x64_S100000x64_1_0_0_1_n_n none x w = Cert.Gcn.mm x w := by
  funext i
  obtain ⟨r, j, rfl⟩ : ∃ (r : Fin 100000) (j : Fin 64), i = ix2 r j := ⟨i 0, i 1, eq_ix2 i⟩
  refine (val_main_v5_apply x w (ix2 r j)).trans ?_
  rw [Cert.Gcn.mm_ix2]
  unfold Cert.Gcn.mmAt
  refine Finset.sum_congr rfl fun k _ => ?_
  have el : lidx_main_v5 (ix2 r j) k = ix2 r k := funext fun a => match a with
    | ⟨0, _⟩ => rfl
    | ⟨1, _⟩ => rfl
  have er : ridx_main_v5 (ix2 r j) k = ix2 k j := funext fun a => match a with
    | ⟨0, _⟩ => rfl
    | ⟨1, _⟩ => rfl
  rw [el, er]

/-- A vector over the nodes broadcast to a column and then along the features reads, at (r, j), the vector at r. -/
theorem bcast_col_apply (dd : FVec Ideal S100000 .f32) (r : Fin 100000) (j : Fin 64) :
    broadcastInDim S100000x64 ![0, 1] bcast_S100000x1_S100000x64_0_1
      (broadcastInDim S100000x1 ![0] bcast_S100000_S100000x1_0 dd) (ix2 r j) = dd (ix1 r) := by
  refine (broadcastInDim_apply _ bcast_S100000x1_S100000x64_0_1 _ (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])).trans ?_
  exact broadcastInDim_apply _ bcast_S100000_S100000x1_0 dd (ix2 r (0 : Fin 1)) (ix1 r) (fun a => match a with
    | ⟨0, _⟩ => by show r.val = if (100000 : Nat) = 1 then 0 else r.val; rw [if_neg (by decide)])

/-- A vector over the nodes reshaped to a column reads, at (r, 0), the vector at r. -/
theorem cast_col_apply (dd : FVec Ideal S100000 .f32) (hc : S100000.ShapeCasts S100000x1) (r : Fin 100000) (q : Fin 1) :
    shapeCast S100000x1 dd hc (ix2 r q) = dd (ix1 r) :=
  shapeCast_apply dd hc _ _ (by
    have hq : q.val = 0 := by omega
    rw [Shape.rowMajor_val_two, Shape.rowMajor_val_one]
    show r.val = r.val * 1 + q.val
    rw [hq, Nat.mul_one, Nat.add_zero])

/-- A bias broadcast to a one-row table and then along the nodes reads, at (r, j), the bias at j. -/
theorem bcast_row_apply (b : FVec Ideal S64 .f32) (r : Fin 100000) (j : Fin 64) :
    broadcastInDim S100000x64 ![0, 1] bcast_S1x64_S100000x64_0_1
      (broadcastInDim S1x64 ![1] bcast_S64_S1x64_1 b) (ix2 r j) = b (ix1 j) := by
  refine (broadcastInDim_apply _ bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

/-- The rectifier's zero table reads the word of 0.0 everywhere. -/
theorem zero_table_apply (i : S100000x64.Idx) :
    broadcastInDim S100000x64 ![] bcast_S_S100000x64 (constant (F := Ideal) S_ .f32 0x00000000#32) i = Cert.Gcn.zeroW := rfl

/-- The aggregated messages, plus the node's own row times the squared inverse root degree broadcast along the features,
    plus the bias broadcast along the nodes, then the maximum with the zero table: entry by entry the rectified combination. -/
theorem combine_relu (agg h : FVec Ideal S100000x64 .f32) (dd : FVec Ideal S100000 .f32)
    (b : FVec Ideal S64 .f32) (hc : S100000.ShapeCasts S100000x1) (hb : S64.ShapeCasts S1x64) :
    maximumf (F := Ideal) (addf (addf agg (mulf h (broadcastInDim S100000x64 ![0, 1] bcast_S100000x1_S100000x64_0_1
        (broadcastInDim S100000x1 ![0] bcast_S100000_S100000x1_0 dd))))
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
      = (Cert.Gcn.combRelu agg h (shapeCast S100000x1 dd hc) (shapeCast S1x64 b hb) : FVec Ideal S100000x64 .f32) := by
  funext i
  obtain ⟨r, j, rfl⟩ : ∃ (r : Fin 100000) (j : Fin 64), i = ix2 r j := ⟨i 0, i 1, eq_ix2 i⟩
  rw [Cert.Gcn.combRelu_ix2, maximumf_apply, addf_apply, addf_apply, mulf_apply, bcast_col_apply, bcast_row_apply, zero_table_apply]
  unfold Cert.Gcn.combAt
  rw [cast_col_apply, shapeCast_a_1a_apply]

/-- The same without the rectifier. -/
theorem combine (agg h : FVec Ideal S100000x64 .f32) (dd : FVec Ideal S100000 .f32)
    (b : FVec Ideal S64 .f32) (hc : S100000.ShapeCasts S100000x1) (hb : S64.ShapeCasts S1x64) :
    addf (F := Ideal) (addf agg (mulf h (broadcastInDim S100000x64 ![0, 1] bcast_S100000x1_S100000x64_0_1
        (broadcastInDim S100000x1 ![0] bcast_S100000_S100000x1_0 dd))))
        (broadcastInDim S100000x64 ![0, 1] bcast_S1x64_S100000x64_0_1 (broadcastInDim S1x64 ![1] bcast_S64_S1x64_1 b))
      = (Cert.Gcn.comb agg h (shapeCast S100000x1 dd hc) (shapeCast S1x64 b hb) : FVec Ideal S100000x64 .f32) := by
  funext i
  obtain ⟨r, j, rfl⟩ : ∃ (r : Fin 100000) (j : Fin 64), i = ix2 r j := ⟨i 0, i 1, eq_ix2 i⟩
  rw [Cert.Gcn.comb_ix2, addf_apply, addf_apply, mulf_apply, bcast_col_apply, bcast_row_apply]
  unfold Cert.Gcn.combAt
  rw [cast_col_apply, shapeCast_a_1a_apply]

/-- The node table after the reference's first layer. -/
theorem layer1 (x0 : (⟨S100000x64, .f32⟩ : BufTy).Contents (Elt Ideal)) (x1 : (⟨S2x1600000, .i32⟩ : BufTy).Contents (Elt Ideal)) (x2 : (⟨S1600000x1, .f32⟩ : BufTy).Contents (Elt Ideal)) (x4 : (⟨S64x64, .f32⟩ : BufTy).Contents (Elt Ideal)) (x5 : (⟨S64, .f32⟩ : BufTy).Contents (Elt Ideal)) :
    val_main_v52 (F := Ideal) x0 x1 x2 x4 x5 = Cert.KernelIdeal.Val.layerRelu x1 x2 x0 x4 x5 := by
  have h5 : val_main_v5 (F := Ideal) x0 x4 = Cert.Gcn.mm x0 x4 := dot_eq_mm x0 x4
  have h43 : val_main_v43 (F := Ideal) x0 x1 x2 x4 = Cert.KernelIdeal.Val.agg x1 x2 (val_main_v5 (F := Ideal) x0 x4) := rfl
  have h14 : val_main_v14 (F := Ideal) x1 x2 = Cert.KernelIdeal.Val.dinv x1 x2 := rfl
  unfold val_main_v52 val_main_v51 val_main_v50 val_main_v49 val_main_v48 val_main_v47 val_main_v46 val_main_v45 val_main_v44 val_main_call1_v0 val_main_call1_cst
  rw [h43, h14, h5]
  exact combine_relu _ _ _ _ _ _

/-- The node table after the reference's second layer, from the first layer's. -/
theorem layer2 (x0 : (⟨S100000x64, .f32⟩ : BufTy).Contents (Elt Ideal)) (x1 : (⟨S2x1600000, .i32⟩ : BufTy).Contents (Elt Ideal)) (x2 : (⟨S1600000x1, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v100 (F := Ideal) x0 x1 x2 x4 x5 x6 x7
      = Cert.KernelIdeal.Val.layerRelu x1 x2 (val_main_v52 (F := Ideal) x0 x1 x2 x4 x5) x6 x7 := by
  have h53 : val_main_v53 (F := Ideal) x0 x1 x2 x4 x5 x6 = Cert.Gcn.mm (val_main_v52 (F := Ideal) x0 x1 x2 x4 x5) x6 :=
    dot_eq_mm (val_main_v52 (F := Ideal) x0 x1 x2 x4 x5) x6
  have h91 : val_main_v91 (F := Ideal) x0 x1 x2 x4 x5 x6
      = Cert.KernelIdeal.Val.agg x1 x2 (val_main_v53 (F := Ideal) x0 x1 x2 x4 x5 x6) := rfl
  have h62 : val_main_v62 (F := Ideal) x1 x2 = Cert.KernelIdeal.Val.dinv x1 x2 := rfl
  unfold val_main_v100 val_main_v99 val_main_v98 val_main_v97 val_main_v96 val_main_v95 val_main_v94 val_main_v93 val_main_v92 val_main_call3_v0 val_main_call3_cst
  rw [h91, h62, h53]
  exact combine_relu _ _ _ _ _ _

/-- The node table after the reference's third layer, from the second layer's. -/
theorem layer3 (x0 : (⟨S100000x64, .f32⟩ : BufTy).Contents (Elt Ideal)) (x1 : (⟨S2x1600000, .i32⟩ : BufTy).Contents (Elt Ideal)) (x2 : (⟨S1600000x1, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v147 (F := Ideal) x0 x1 x2 x4 x5 x6 x7 x8 x9
      = Cert.KernelIdeal.Val.layer x1 x2 (val_main_v100 (F := Ideal) x0 x1 x2 x4 x5 x6 x7) x8 x9 := by
  have h101 : val_main_v101 (F := Ideal) x0 x1 x2 x4 x5 x6 x7 x8 = Cert.Gcn.mm (val_main_v100 (F := Ideal) x0 x1 x2 x4 x5 x6 x7) x8 :=
    dot_eq_mm (val_main_v100 (F := Ideal) x0 x1 x2 x4 x5 x6 x7) x8
  have h139 : val_main_v139 (F := Ideal) x0 x1 x2 x4 x5 x6 x7 x8
      = Cert.KernelIdeal.Val.agg x1 x2 (val_main_v101 (F := Ideal) x0 x1 x2 x4 x5 x6 x7 x8) := rfl
  have h110 : val_main_v110 (F := Ideal) x1 x2 = Cert.KernelIdeal.Val.dinv x1 x2 := rfl
  unfold val_main_v147 val_main_v146 val_main_v145 val_main_v144 val_main_v143 val_main_v142 val_main_v141 val_main_v140
  rw [h139, h110, h101]
  exact combine _ _ _ _ _ _

end Cert.ReferenceIdeal.RefLayers

end
-- ==== Proof.RefTail.lean ====
/- The end of the reference: its two scatter-adds over the graph ids are the per-graph sums and counts, and the stages after them (the floored mean, the three dense layers with their broadcast biases) are the head. -/
import proofs.«408533_j44195213476076_1_alg».proof.Proof.Gen.ReferenceIdeal.Read
import proofs.«408533_j44195213476076_1_alg».proof.Proof.KSpec
import proofs.«408533_j44195213476076_1_alg».proof.Proof.LibRowOps

import Idealize.ShloMosaic.Lib.ValueLayout
import Idealize.ShloMosaic.PureOps.IdealRules

noncomputable section

namespace Cert.ReferenceIdeal.RefTail

open Cert.ReferenceIdeal Cert.ReferenceIdeal.Gen Idealize.ShloMosaic Idealize.ShloMosaic.TcCoe Idealize.ShloMosaic.ValueIdx
open Cert.ReferenceIdeal.Read

/-- The graph ids as a column, read at a row: the id of that row. -/
theorem gid_apply (x3 : IVec S100000 32) (e : Fin 100000) :
    Cert.KernelIdeal.Val.gid x3 (ix2 e 0) = x3 (ix1 e) := by
  unfold Cert.KernelIdeal.Val.gid
  refine shapeCast_apply x3 _ _ _ ?_
  rw [Shape.rowMajor_val_two, Shape.rowMajor_val_one]
  show e.val = e.val * 1 + 0
  omega

/-- The reference's index column read at a row: the id of that row. -/
theorem idcol_apply (x3 : (⟨S100000, .i32⟩ : BufTy).Contents (Elt Ideal)) (e : Fin 100000) :
    val_main_v149 (F := Ideal) x3 (ix2 e 0) = x3 (ix1 e) := by
  rw [val_main_v149_apply]
  congr 1
  funext a
  match a with
  | ⟨0, _⟩ => rfl

/-- The per-graph sums: the scatter-add of any node table over the graph ids. -/
theorem sums_apply (x3 : (⟨S100000, .i32⟩ : BufTy).Contents (Elt Ideal)) (h : (⟨S100000x64, .f32⟩ : BufTy).Contents (Elt Ideal))
    (g k : Fin 64) :
    Host.scatterAdd (F := Ideal) (φ := .f32) scatter_S64x64_S100000x1_S100000x64_1_0_0_1 (val_main_v148 (F := Ideal)) (val_main_v149 (F := Ideal) x3) h (ix2 g k)
      = Cert.Gcn.poolS h (Cert.KernelIdeal.Val.gid x3) (ix2 g k) := by
  unfold Host.scatterAdd
  rw [Ideal.hostScatterAdd_def]
  rw [Cert.LibRowOps.scatterAdd_rows_apply (N := 64) (C := 64) (E := 100000) _ rfl rfl rfl rfl]
  rw [val_main_v148_apply, val_main_cst_31_apply, Cert.Gcn.poolS_ix2]
  unfold Cert.Gcn.poolSAt
  show Ideal.ofBits .f32 0x00000000#32 + _ = _
  rw [Ideal.ofBits_zero_f32, zero_add]
  refine Finset.sum_congr rfl fun e _ => ?_
  rw [idcol_apply, gid_apply]

/-- The f32 word of 1.0 is one. -/
theorem oneW_eq : Ideal.ofBits .f32 0x3F800000#32 = 1 := IdealRules.sign_bit.ideal_onePat .f32

/-- The per-graph counts: the scatter-add of ones over the graph ids. -/
theorem counts_apply (x3 : (⟨S100000, .i32⟩ : BufTy).Contents (Elt Ideal)) (g : Fin 64) :
    val_main_v154 (F := Ideal) x3 (ix1 g) = Cert.Gcn.poolCAt (Cert.KernelIdeal.Val.gid x3) g := by
  unfold val_main_v154 Host.scatterAdd
  rw [Ideal.hostScatterAdd_def]
  rw [Cert.LibRowOps.scatterAdd_vec_apply (N := 64) (E := 100000) _ rfl rfl rfl rfl]
  rw [val_main_v152_apply, val_main_cst_33_apply]
  unfold Cert.Gcn.poolCAt
  show Ideal.ofBits .f32 0x00000000#32 + _ = _
  rw [Ideal.ofBits_zero_f32, zero_add]
  refine Finset.sum_congr rfl fun e _ => ?_
  rw [val_main_v151_apply, val_main_cst_32_apply]
  show (if (val_main_v153 (F := Ideal) x3 (ix2 e 0)).toInt = _ then Ideal.ofBits .f32 0x3F800000#32 else 0) = _
  rw [oneW_eq, gid_apply]
  show (if (val_main_v149 (F := Ideal) x3 (ix2 e 0)).toInt = _ then _ else _) = _
  rw [idcol_apply]

/-- The floored mean of each graph. -/
theorem mean_apply (x0 : (⟨S100000x64, .f32⟩ : BufTy).Contents (Elt Ideal)) (x1 : (⟨S2x1600000, .i32⟩ : BufTy).Contents (Elt Ideal)) (x2 : (⟨S1600000x1, .f32⟩ : BufTy).Contents (Elt Ideal)) (x3 : (⟨S100000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (g k : Fin 64) :
    val_main_v159 (F := Ideal) x0 x1 x2 x3 x4 x5 x6 x7 x8 x9 (ix2 g k) = (Cert.Gcn.gmean (Cert.Gcn.poolS (val_main_v147 (F := Ideal) x0 x1 x2 x4 x5 x6 x7 x8 x9) (Cert.KernelIdeal.Val.gid x3)) (Cert.Gcn.poolC (Cert.KernelIdeal.Val.gid x3))) (ix2 g k) := by
  rw [val_main_v159_apply, Cert.Gcn.gmean_ix2]
  show Ideal.div _ _ = _
  refine congrArg₂ Ideal.div ?_ ?_
  · unfold val_main_v150
    exact sums_apply x3 _ g k
  · rw [val_main_v158_apply, val_main_v157_apply, val_main_v156_apply, Cert.Gcn.poolC_ix2]
    have hi : idx_main_v157 (idx_main_v158 (ix2 g k)) = ix1 g := by
      funext a
      match a with
      | ⟨0, _⟩ => rfl
    rw [hi, counts_apply, val_main_v155_apply, val_main_cst_34_apply]
    rfl

/-- The first dense layer of the head with its rectifier. -/
theorem fc1_apply (x0 : (⟨S100000x64, .f32⟩ : BufTy).Contents (Elt Ideal)) (x1 : (⟨S2x1600000, .i32⟩ : BufTy).Contents (Elt Ideal)) (x2 : (⟨S1600000x1, .f32⟩ : BufTy).Contents (Elt Ideal)) (x3 : (⟨S100000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal)) (g : Fin 64) (j : Fin 32) :
    val_main_v164 (F := Ideal) x0 x1 x2 x3 x4 x5 x6 x7 x8 x9 x10 x11 (ix2 g j) = (Cert.Gcn.fc1 (Cert.Gcn.gmean (Cert.Gcn.poolS (val_main_v147 (F := Ideal) x0 x1 x2 x4 x5 x6 x7 x8 x9) (Cert.KernelIdeal.Val.gid x3)) (Cert.Gcn.poolC (Cert.KernelIdeal.Val.gid x3))) x10 (shapeCast _ x11 Cert.KernelIdeal.Facts₀.shapeCasts_S32_S1x32)) (ix2 g j) := by
  rw [val_main_v164_apply, val_main_v163_apply, val_main_v160_apply, Cert.Gcn.fc1_ix2,
    val_main_call5_v0_apply, val_main_call5_cst_apply, val_main_v162_apply, val_main_v161_apply,
    shapeCast_a_1a_apply]
  have hb : idx_main_v161 (idx_main_v162 (ix2 g j)) = ix1 j := by
    funext a
    match a with
    | ⟨0, _⟩ => rfl
  have hl : ∀ k : Fin 64, lidx_main_v160 (ix2 g j) k = ix2 g k := fun k => by
    funext a
    match a with
    | ⟨0, _⟩ => rfl
    | ⟨1, _⟩ => rfl
  have hr : ∀ k : Fin 64, ridx_main_v160 (ix2 g j) k = ix2 k j := fun k => by
    funext a
    match a with
    | ⟨0, _⟩ => rfl
    | ⟨1, _⟩ => rfl
  rw [hb]
  simp only [hl, hr, mean_apply]
  rfl

/-- The second dense layer of the head. -/
theorem fc2_apply (x0 : (⟨S100000x64, .f32⟩ : BufTy).Contents (Elt Ideal)) (x1 : (⟨S2x1600000, .i32⟩ : BufTy).Contents (Elt Ideal)) (x2 : (⟨S1600000x1, .f32⟩ : BufTy).Contents (Elt Ideal)) (x3 : (⟨S100000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal)) (x12 : (⟨S32x1, .f32⟩ : BufTy).Contents (Elt Ideal)) (x13 : (⟨S1, .f32⟩ : BufTy).Contents (Elt Ideal)) (g : Fin 64) (q : Fin 1) :
    val_main_v168 (F := Ideal) x0 x1 x2 x3 x4 x5 x6 x7 x8 x9 x10 x11 x12 x13 (ix2 g q) = (Cert.Gcn.fc2 (Cert.Gcn.fc1 (Cert.Gcn.gmean (Cert.Gcn.poolS (val_main_v147 (F := Ideal) x0 x1 x2 x4 x5 x6 x7 x8 x9) (Cert.KernelIdeal.Val.gid x3)) (Cert.Gcn.poolC (Cert.KernelIdeal.Val.gid x3))) x10 (shapeCast _ x11 Cert.KernelIdeal.Facts₀.shapeCasts_S32_S1x32)) x12 (shapeCast _ x13 Cert.KernelIdeal.Facts₀.shapeCasts_S1_S1x1)) (ix2 g q) := by
  rw [val_main_v168_apply, val_main_v165_apply, Cert.Gcn.fc2_ix2, val_main_v167_apply, val_main_v166_apply,
    shapeCast_a_1a_apply]
  have hb : idx_main_v166 (idx_main_v167 (ix2 g q)) = ix1 q := by
    funext a
    match a with
    | ⟨0, _⟩ => exact (Fin.fin_one_eq_zero q).symm
  have hl : ∀ k : Fin 32, lidx_main_v165 (ix2 g q) k = ix2 g k := fun k => by
    funext a
    match a with
    | ⟨0, _⟩ => rfl
    | ⟨1, _⟩ => rfl
  have hr : ∀ k : Fin 32, ridx_main_v165 (ix2 g q) k = ix2 k q := fun k => by
    funext a
    match a with
    | ⟨0, _⟩ => rfl
    | ⟨1, _⟩ => rfl
  rw [hb]
  simp only [hl, hr, fc1_apply]
  rfl

open Cert.KernelIdeal.Facts₀ in
/-- The reference's result, from its third layer's node table. -/
theorem tail (x0 : (⟨S100000x64, .f32⟩ : BufTy).Contents (Elt Ideal)) (x1 : (⟨S2x1600000, .i32⟩ : BufTy).Contents (Elt Ideal)) (x2 : (⟨S1600000x1, .f32⟩ : BufTy).Contents (Elt Ideal)) (x3 : (⟨S100000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal)) (x12 : (⟨S32x1, .f32⟩ : BufTy).Contents (Elt Ideal)) (x13 : (⟨S1, .f32⟩ : BufTy).Contents (Elt Ideal)) (x14 : (⟨S1x1, .f32⟩ : BufTy).Contents (Elt Ideal)) (x15 : (⟨S1, .f32⟩ : BufTy).Contents (Elt Ideal)) :
    val_main_v172 (F := Ideal) x0 x1 x2 x3 x4 x5 x6 x7 x8 x9 x10 x11 x12 x13 x14 x15
      = Cert.Gcn.head (Cert.Gcn.poolS (val_main_v147 (F := Ideal) x0 x1 x2 x4 x5 x6 x7 x8 x9) (Cert.KernelIdeal.Val.gid x3))
          (Cert.Gcn.poolC (Cert.KernelIdeal.Val.gid x3)) x10
          (shapeCast _ x11 Cert.KernelIdeal.Facts₀.shapeCasts_S32_S1x32) x12
          (shapeCast _ x13 Cert.KernelIdeal.Facts₀.shapeCasts_S1_S1x1) x14
          (shapeCast _ x15 Cert.KernelIdeal.Facts₀.shapeCasts_S1_S1x1) := by
  funext i
  obtain ⟨g, q, rfl⟩ : ∃ (g : Fin 64) (q : Fin 1), i = ix2 g q := ⟨i 0, i 1, eq_ix2 i⟩
  unfold Cert.Gcn.head
  rw [val_main_v172_apply, val_main_v169_apply, Cert.Gcn.outl_ix2, val_main_v171_apply, val_main_v170_apply,
    shapeCast_a_1a_apply]
  have hb : idx_main_v170 (idx_main_v171 (ix2 g q)) = ix1 q := by
    funext a
    match a with
    | ⟨0, _⟩ => exact (Fin.fin_one_eq_zero q).symm
  have hl : ∀ k : Fin 1, lidx_main_v169 (ix2 g q) k = ix2 g k := fun k => by
    funext a
    match a with
    | ⟨0, _⟩ => rfl
    | ⟨1, _⟩ => rfl
  have hr : ∀ k : Fin 1, ridx_main_v169 (ix2 g q) k = ix2 k q := fun k => by
    funext a
    match a with
    | ⟨0, _⟩ => rfl
    | ⟨1, _⟩ => rfl
  rw [hb]
  simp only [hl, hr, fc2_apply]
  rfl

end Cert.ReferenceIdeal.RefTail

end
-- ==== Proof.RefStages.lean ====
/- The reference's result is the common result function of its sixteen arguments: the tail over the three layers. -/
import proofs.«408533_j44195213476076_1_alg».proof.Proof.Gen.ReferenceIdeal.Read
import proofs.«408533_j44195213476076_1_alg».proof.Proof.KSpec
import proofs.«408533_j44195213476076_1_alg».proof.Proof.LibRowOps
import proofs.«408533_j44195213476076_1_alg».proof.Proof.RefLayers
import proofs.«408533_j44195213476076_1_alg».proof.Proof.RefTail
import Idealize.ShloMosaic.Lib.ValueLayout

noncomputable section

namespace Cert.ReferenceIdeal.RefVal

open Cert.ReferenceIdeal Cert.ReferenceIdeal.Gen Idealize.ShloMosaic Idealize.ShloMosaic.TcCoe Idealize.ShloMosaic.ValueIdx
open Cert.ReferenceIdeal.Read

theorem ref_eq (x0 : (⟨S100000x64, .f32⟩ : BufTy).Contents (Elt Ideal)) (x1 : (⟨S2x1600000, .i32⟩ : BufTy).Contents (Elt Ideal)) (x2 : (⟨S1600000x1, .f32⟩ : BufTy).Contents (Elt Ideal)) (x3 : (⟨S100000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal)) (x12 : (⟨S32x1, .f32⟩ : BufTy).Contents (Elt Ideal)) (x13 : (⟨S1, .f32⟩ : BufTy).Contents (Elt Ideal)) (x14 : (⟨S1x1, .f32⟩ : BufTy).Contents (Elt Ideal)) (x15 : (⟨S1, .f32⟩ : BufTy).Contents (Elt Ideal)) :
    val_main_v172 (F := Ideal) x0 x1 x2 x3 x4 x5 x6 x7 x8 x9 x10 x11 x12 x13 x14 x15
      = Cert.KernelIdeal.Val.G x0 x1 x2 x3 x4 x5 x6 x7 x8 x9 x10 x11 x12 x13 x14 x15 := by
  unfold Cert.KernelIdeal.Val.G Cert.KernelIdeal.Val.h3
  rw [RefTail.tail, RefLayers.layer3, RefLayers.layer2, RefLayers.layer1]

end Cert.ReferenceIdeal.RefVal

end
-- ==== Proof.lean ====
/-
  A three-layer graph convolution network with mean pooling per graph and a small dense head, written as eight
  TensorCore regions among host gathers and scatter-adds, against the plain array program.
  Over the extended reals the two compute one function of the sixteen arguments (Proof/KSpec.lean): the kernel's
  block products are the reference's dot_general entry by entry (a change of float format is the identity); each
  combine region adds the aggregated messages, the node's own row scaled by its squared inverse root degree and the
  bias exactly as the reference's broadcasts do; the pooling region's one-hot products, accumulated over twenty row
  blocks, are the reference's scatter-adds over the graph ids (0 * x = 0 and 1 * x = x for every extended real, and a
  finite sum may be regrouped), and the head is the same chain of products. No step needs the inputs to be finite.
  The kernel's run is read through the contents of its buffers at the sixteen boundaries between host stretches and
  regions; the reference's run through its operations one at a time.
-/
import proofs.«408533_j44195213476076_1_alg».proof.Defs
import proofs.«408533_j44195213476076_1_alg».proof.Proof.Gen.Kernel
import proofs.«408533_j44195213476076_1_alg».proof.Proof.Gen.Kernel.Skeleton
import proofs.«408533_j44195213476076_1_alg».proof.Proof.Gen.Kernel.Launch
import proofs.«408533_j44195213476076_1_alg».proof.Proof.Gen.Kernel.Points
import proofs.«408533_j44195213476076_1_alg».proof.Proof.Gen.Kernel.Frame
import proofs.«408533_j44195213476076_1_alg».proof.Proof.Gen.KernelIdeal
import proofs.«408533_j44195213476076_1_alg».proof.Proof.Gen.KernelIdeal.Skeleton
import proofs.«408533_j44195213476076_1_alg».proof.Proof.Gen.KernelIdeal.Launch
import proofs.«408533_j44195213476076_1_alg».proof.Proof.Gen.KernelIdeal.Points
import proofs.«408533_j44195213476076_1_alg».proof.Proof.Gen.KernelIdeal.Frame
import proofs.«408533_j44195213476076_1_alg».proof.Proof.Gen.ReferenceIdeal
import proofs.«408533_j44195213476076_1_alg».proof.Proof.Gen.ReferenceIdeal.Run
import proofs.«408533_j44195213476076_1_alg».proof.Proof.Gen.ReferenceIdeal.Read
import proofs.«408533_j44195213476076_1_alg».proof.Proof.Gen.Pre_finite_inputs
import proofs.«408533_j44195213476076_1_alg».proof.Proof.RunValue
import proofs.«408533_j44195213476076_1_alg».proof.Proof.Thread
import proofs.«408533_j44195213476076_1_alg».proof.Proof.RefStages
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the common result function of those
    arguments in their result buffers. -/
theorem algebraic : Cert.algebraic_KernelIdeal_ReferenceIdeal := by
  intro m ρ m' ρ' _ hagree
  refine ⟨fun c => Cert.KernelIdeal.Val.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Th.W16_v85 m ρ c), (h c).2⟩)
      (Cert.KernelIdeal.RunValue.run_value (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15⟩ := hagree c
    rw [(h c).1, Cert.ReferenceIdeal.Read.val_main_v172_eq, Cert.ReferenceIdeal.RefVal.ref_eq,
      e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
